-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x514 : Shape := ⟨2, ![16384, 514]⟩
abbrev S16384x2 : Shape := ⟨2, ![16384, 2]⟩
abbrev S1x16384x512 : Shape := ⟨3, ![1, 16384, 512]⟩
abbrev S1024x256 : Shape := ⟨2, ![1024, 256]⟩
abbrev S8192x256 : Shape := ⟨2, ![8192, 256]⟩
abbrev S256x2 : Shape := ⟨2, ![256, 2]⟩
abbrev S256 : Shape := ⟨1, ![256]⟩
abbrev S1536x1282 : Shape := ⟨2, ![1536, 1282]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S2x512 : Shape := ⟨2, ![2, 512]⟩
abbrev S2 : Shape := ⟨1, ![2]⟩
abbrev S16384 : Shape := ⟨1, ![16384]⟩
abbrev S_ : Shape := ⟨0, ![]⟩

class Facts : Prop where
  bcast_S_S16384x514 : S_.BroadcastsInDim S16384x514 (![] : Fin 0 → Fin S16384x514.rank)
  reducesTo_S16384x514_S_d0_1 : S16384x514.ReducesTo [0, 1] S_
  h_S_ : 0 < S_.numel
  bcast_S_S16384x2 : S_.BroadcastsInDim S16384x2 (![] : Fin 0 → Fin S16384x2.rank)
  reducesTo_S16384x2_S_d0_1 : S16384x2.ReducesTo [0, 1] S_
  bcast_S_S1x16384x512 : S_.BroadcastsInDim S1x16384x512 (![] : Fin 0 → Fin S1x16384x512.rank)
  reducesTo_S1x16384x512_S_d0_1_2 : S1x16384x512.ReducesTo [0, 1, 2] S_
  bcast_S_S1024x256 : S_.BroadcastsInDim S1024x256 (![] : Fin 0 → Fin S1024x256.rank)
  reducesTo_S1024x256_S_d0_1 : S1024x256.ReducesTo [0, 1] S_
  bcast_S_S8192x256 : S_.BroadcastsInDim S8192x256 (![] : Fin 0 → Fin S8192x256.rank)
  reducesTo_S8192x256_S_d0_1 : S8192x256.ReducesTo [0, 1] S_
  bcast_S_S256x2 : S_.BroadcastsInDim S256x2 (![] : Fin 0 → Fin S256x2.rank)
  reducesTo_S256x2_S_d0_1 : S256x2.ReducesTo [0, 1] S_
  bcast_S_S256 : S_.BroadcastsInDim S256 (![] : Fin 0 → Fin S256.rank)
  reducesTo_S256_S_d0 : S256.ReducesTo [0] S_
  bcast_S_S1536x1282 : S_.BroadcastsInDim S1536x1282 (![] : Fin 0 → Fin S1536x1282.rank)
  reducesTo_S1536x1282_S_d0_1 : S1536x1282.ReducesTo [0, 1] S_
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S2x512 : S_.BroadcastsInDim S2x512 (![] : Fin 0 → Fin S2x512.rank)
  reducesTo_S2x512_S_d0_1 : S2x512.ReducesTo [0, 1] S_
  bcast_S_S2 : S_.BroadcastsInDim S2 (![] : Fin 0 → Fin S2.rank)
  reducesTo_S2_S_d0 : S2.ReducesTo [0] S_
  bcast_S_S16384 : S_.BroadcastsInDim S16384 (![] : Fin 0 → Fin S16384.rank)
  reducesTo_S16384_S_d0 : S16384.ReducesTo [0] S_

variable [Facts]

def fn_part5 {F : FTy → Type} [FloatOps F] (main_arg18 : FVec F S2 .f32) (main_arg19 : IVec S16384 32) (main_v83 : IVec S_ 1) (main_v84 : FVec F S2x512 .f32) (main_cst_32 : FVec F S_ .f32) : IVec S_ 1 :=
  let main_v85 : FVec F S2x512 .f32 := broadcastInDim S2x512 ![] bcast_S_S2x512 main_cst_32
  let main_v86 : IVec S2x512 1 := cmpf .olt main_v84 main_v85
  let main_c_33 : IVec S_ 1 := constantI S_ 1 1#1
  let main_v87 : IVec S_ 1 := (fun x v => Host.reduce IntOp.andi x v reducesTo_S2x512_S_d0_1 h_S_) main_v86 main_c_33
  let main_v88 : IVec S_ 1 := andi main_v83 main_v87
  let main_v89 : FVec F S2 .f32 := Host.absf main_arg18
  let main_cst_34 : FVec F S_ .f32 := constant S_ .f32 0x7F800000#32
  let main_v90 : FVec F S2 .f32 := broadcastInDim S2 ![] bcast_S_S2 main_cst_34
  let main_v91 : IVec S2 1 := cmpf .olt main_v89 main_v90
  let main_c_35 : IVec S_ 1 := constantI S_ 1 1#1
  let main_v92 : IVec S_ 1 := (fun x v => Host.reduce IntOp.andi x v reducesTo_S2_S_d0 h_S_) main_v91 main_c_35
  let main_v93 : IVec S_ 1 := andi main_v88 main_v92
  let main_c_36 : IVec S_ 32 := constantI S_ 32 4294966272#32
  let main_v94 : IVec S16384 32 := broadcastInDim S16384 ![] bcast_S_S16384 main_c_36
  let main_v95 : IVec S16384 1 := cmpi .sge main_arg19 main_v94
  let main_c_37 : IVec S_ 1 := constantI S_ 1 1#1
  let main_v96 : IVec S_ 1 := (fun x v => Host.reduce IntOp.andi x v reducesTo_S16384_S_d0 h_S_) main_v95 main_c_37
  let main_v97 : IVec S_ 1 := andi main_v93 main_v96
  let main_c_38 : IVec S_ 32 := constantI S_ 32 1024#32
  let main_v98 : IVec S16384 32 := broadcastInDim S16384 ![] bcast_S_S16384 main_c_38
  let main_v99 : IVec S16384 1 := cmpi .slt main_arg19 main_v98
  let main_c_39 : IVec S_ 1 := constantI S_ 1 1#1
  let main_v100 : IVec S_ 1 := (fun x v => Host.reduce IntOp.andi x v reducesTo_S16384_S_d0 h_S_) main_v99 main_c_39
  let main_v101 : IVec S_ 1 := andi main_v97 main_v100
  main_v101

def fn_part4 {F : FTy → Type} [FloatOps F] (main_arg14 : FVec F S1024 .f32) (main_arg15 : FVec F S512x512 .f32) (main_arg16 : FVec F S512 .f32) (main_arg17 : FVec F S2x512 .f32) (main_arg18 : FVec F S2 .f32) (main_arg19 : IVec S16384 32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S512x512 .f32 := Host.absf main_arg15
  let main_cst_28 : FVec F S_ .f32 := constant S_ .f32 0x7F800000#32
  let main_v75 : FVec F S512x512 .f32 := broadcastInDim S512x512 ![] bcast_S_S512x512 main_cst_28
  let main_v76 : IVec S512x512 1 := cmpf .olt main_v74 main_v75
  let main_c_29 : IVec S_ 1 := constantI S_ 1 1#1
  let main_v77 : IVec S_ 1 := (fun x v => Host.reduce IntOp.andi x v reducesTo_S512x512_S_d0_1 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S2x512 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S512x512 .f32) (main_arg12 : FVec F S512 .f32) (main_arg13 : FVec F S1024x512 .f32) (main_arg14 : FVec F S1024 .f32) (main_arg15 : FVec F S512x512 .f32) (main_arg16 : FVec F S512 .f32) (main_arg17 : FVec F S2x512 .f32) (main_arg18 : FVec F S2 .f32) (main_arg19 : IVec S16384 32) (main_v48 : IVec S_ 1) (main_v49 : FVec F S1536 .f32) (main_v50 : FVec F S1536 .f32) : IVec S_ 1 :=
  let main_v51 : IVec S1536 1 := cmpf .olt main_v49 main_v50
  let main_c_19 : IVec S_ 1 := constantI S_ 1 1#1
  let main_v52 : IVec S_ 1 := (fun x v => Host.reduce IntOp.andi x v reducesTo_S1536_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S1024x512 .f32 := Host.absf main_arg13
  let main_cst_24 : FVec F S_ .f32 := constant S_ .f32 0x7F800000#32
  let main_v65 : FVec F S1024x512 .f32 := broadcastInDim S1024x512 ![] bcast_S_S1024x512 main_cst_24
  let main_v66 : IVec S1024x512 1 := cmpf .olt main_v64 main_v65
  let main_c_25 : IVec S_ 1 := constantI S_ 1 1#1
  let main_v67 : IVec S_ 1 := (fun x v => Host.reduce IntOp.andi x v reducesTo_S1024x512_S_d0_1 h_S_) main_v66 main_c_25
  fn_part4 (F := F) main_arg14 main_arg15 main_arg16 main_arg17 main_arg18 main_arg19 main_v63 main_v67

def fn_part2 {F : FTy → Type} [FloatOps F] (main_arg7 : FVec F S1536x1282 .f32) (main_arg8 : FVec F S1536x512 .f32) (main_arg9 : FVec F S1536 .f32) (main_arg10 : FVec F S1536 .f32) (main_arg11 : FVec F S512x512 .f32) (main_arg12 : FVec F S512 .f32) (main_arg13 : FVec F S1024x512 .f32) (main_arg14 : FVec F S1024 .f32) (main_arg15 : FVec F S512x512 .f32) (main_arg16 : FVec F S512 .f32) (main_arg17 : FVec F S2x512 .f32) (main_arg18 : FVec F S2 .f32) (main_arg19 : IVec S16384 32) (main_v33 : IVec S_ 1) : IVec S_ 1 :=
  let main_v34 : FVec F S1536x1282 .f32 := Host.absf main_arg7
  let main_cst_12 : FVec F S_ .f32 := constant S_ .f32 0x7F800000#32
  let main_v35 : FVec F S1536x1282 .f32 := broadcastInDim S1536x1282 ![] bcast_S_S1536x1282 main_cst_12
  let main_v36 : IVec S1536x1282 1 := cmpf .olt main_v34 main_v35
  let main_c_13 : IVec S_ 1 := constantI S_ 1 1#1
  let main_v37 : IVec S_ 1 := (fun x v => Host.reduce IntOp.andi x v reducesTo_S1536x1282_S_d0_1 h_S_) main_v36 main_c_13
  let main_v38 : IVec S_ 1 := andi main_v33 main_v37
  let main_v39 : FVec F S1536x512 .f32 := Host.absf main_arg8
  let main_cst_14 : FVec F S_ .f32 := constant S_ .f32 0x7F800000#32
  let main_v40 : FVec F S1536x512 .f32 := broadcastInDim S1536x512 ![] bcast_S_S1536x512 main_cst_14
  let main_v41 : IVec S1536x512 1 := cmpf .olt main_v39 main_v40
  let main_c_15 : IVec S_ 1 := constantI S_ 1 1#1
  let main_v42 : IVec S_ 1 := (fun x v => Host.reduce IntOp.andi x v reducesTo_S1536x512_S_d0_1 h_S_) main_v41 main_c_15
  let main_v43 : IVec S_ 1 := andi main_v38 main_v42
  let main_v44 : FVec F S1536 .f32 := Host.absf main_arg9
  let main_cst_16 : FVec F S_ .f32 := constant S_ .f32 0x7F800000#32
  let main_v45 : FVec F S1536 .f32 := broadcastInDim S1536 ![] bcast_S_S1536 main_cst_16
  let main_v46 : IVec S1536 1 := cmpf .olt main_v44 main_v45
  let main_c_17 : IVec S_ 1 := constantI S_ 1 1#1
  let main_v47 : IVec S_ 1 := (fun x v => Host.reduce IntOp.andi x v reducesTo_S1536_S_d0 h_S_) main_v46 main_c_17
  let main_v48 : IVec S_ 1 := andi main_v43 main_v47
  let main_v49 : FVec F S1536 .f32 := Host.absf main_arg10
  let main_cst_18 : FVec F S_ .f32 := constant S_ .f32 0x7F800000#32
  let main_v50 : FVec F S1536 .f32 := broadcastInDim S1536 ![] bcast_S_S1536 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S8192x256 .f32) (main_arg5 : FVec F S256x2 .f32) (main_arg6 : FVec F S256 .f32) (main_arg7 : FVec F S1536x1282 .f32) (main_arg8 : FVec F S1536x512 .f32) (main_arg9 : FVec F S1536 .f32) (main_arg10 : FVec F S1536 .f32) (main_arg11 : FVec F S512x512 .f32) (main_arg12 : FVec F S512 .f32) (main_arg13 : FVec F S1024x512 .f32) (main_arg14 : FVec F S1024 .f32) (main_arg15 : FVec F S512x512 .f32) (main_arg16 : FVec F S512 .f32) (main_arg17 : FVec F S2x512 .f32) (main_arg18 : FVec F S2 .f32) (main_arg19 : IVec S16384 32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S8192x256 .f32 := Host.absf main_arg4
  let main_cst_6 : FVec F S_ .f32 := constant S_ .f32 0x7F800000#32
  let main_v20 : FVec F S8192x256 .f32 := broadcastInDim S8192x256 ![] bcast_S_S8192x256 main_cst_6
  let main_v21 : IVec S8192x256 1 := cmpf .olt main_v19 main_v20
  let main_c_7 : IVec S_ 1 := constantI S_ 1 1#1
  let main_v22 : IVec S_ 1 := (fun x v => Host.reduce IntOp.andi x v reducesTo_S8192x256_S_d0_1 h_S_) main_v21 main_c_7
  let main_v23 : IVec S_ 1 := andi main_v18 main_v22
  let main_v24 : FVec F S256x2 .f32 := Host.absf main_arg5
  let main_cst_8 : FVec F S_ .f32 := constant S_ .f32 0x7F800000#32
  let main_v25 : FVec F S256x2 .f32 := broadcastInDim S256x2 ![] bcast_S_S256x2 main_cst_8
  let main_v26 : IVec S256x2 1 := cmpf .olt main_v24 main_v25
  let main_c_9 : IVec S_ 1 := constantI S_ 1 1#1
  let main_v27 : IVec S_ 1 := (fun x v => Host.reduce IntOp.andi x v reducesTo_S256x2_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S16384x514 .f32) (main_arg1 : FVec F S16384x2 .f32) (main_arg2 : FVec F S1x16384x512 .f32) (main_arg3 : FVec F S1024x256 .f32) (main_arg4 : FVec F S8192x256 .f32) (main_arg5 : FVec F S256x2 .f32) (main_arg6 : FVec F S256 .f32) (main_arg7 : FVec F S1536x1282 .f32) (main_arg8 : FVec F S1536x512 .f32) (main_arg9 : FVec F S1536 .f32) (main_arg10 : FVec F S1536 .f32) (main_arg11 : FVec F S512x512 .f32) (main_arg12 : FVec F S512 .f32) (main_arg13 : FVec F S1024x512 .f32) (main_arg14 : FVec F S1024 .f32) (main_arg15 : FVec F S512x512 .f32) (main_arg16 : FVec F S512 .f32) (main_arg17 : FVec F S2x512 .f32) (main_arg18 : FVec F S2 .f32) (main_arg19 : IVec S16384 32) (main_arg20 : IVec S16384 32) : IVec S_ 1 :=
  let main_v0 : FVec F S16384x514 .f32 := Host.absf main_arg0
  let main_cst : FVec F S_ .f32 := constant S_ .f32 0x7F800000#32
  let main_v1 : FVec F S16384x514 .f32 := broadcastInDim S16384x514 ![] bcast_S_S16384x514 main_cst
  let main_v2 : IVec S16384x514 1 := cmpf .olt main_v0 main_v1
  let main_c : IVec S_ 1 := constantI S_ 1 1#1
  let main_v3 : IVec S_ 1 := (fun x v => Host.reduce IntOp.andi x v reducesTo_S16384x514_S_d0_1 h_S_) main_v2 main_c
  let main_v4 : FVec F S16384x2 .f32 := Host.absf main_arg1
  let main_cst_0 : FVec F S_ .f32 := constant S_ .f32 0x7F800000#32
  let main_v5 : FVec F S16384x2 .f32 := broadcastInDim S16384x2 ![] bcast_S_S16384x2 main_cst_0
  let main_v6 : IVec S16384x2 1 := cmpf .olt main_v4 main_v5
  let main_c_1 : IVec S_ 1 := constantI S_ 1 1#1
  let main_v7 : IVec S_ 1 := (fun x v => Host.reduce IntOp.andi x v reducesTo_S16384x2_S_d0_1 h_S_) main_v6 main_c_1
  let main_v8 : IVec S_ 1 := andi main_v3 main_v7
  let main_v9 : FVec F S1x16384x512 .f32 := Host.absf main_arg2
  let main_cst_2 : FVec F S_ .f32 := constant S_ .f32 0x7F800000#32
  let main_v10 : FVec F S1x16384x512 .f32 := broadcastInDim S1x16384x512 ![] bcast_S_S1x16384x512 main_cst_2
  let main_v11 : IVec S1x16384x512 1 := cmpf .olt main_v9 main_v10
  let main_c_3 : IVec S_ 1 := constantI S_ 1 1#1
  let main_v12 : IVec S_ 1 := (fun x v => Host.reduce IntOp.andi x v reducesTo_S1x16384x512_S_d0_1_2 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S16384x514 : Shape := ⟨2, ![16384, 514]⟩
abbrev S16384x2 : Shape := ⟨2, ![16384, 2]⟩
abbrev S1x16384x512 : Shape := ⟨3, ![1, 16384, 512]⟩
abbrev S1024x256 : Shape := ⟨2, ![1024, 256]⟩
abbrev S8192x256 : Shape := ⟨2, ![8192, 256]⟩
abbrev S256x2 : Shape := ⟨2, ![256, 2]⟩
abbrev S256 : Shape := ⟨1, ![256]⟩
abbrev S1536x1282 : Shape := ⟨2, ![1536, 1282]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S2x512 : Shape := ⟨2, ![2, 512]⟩
abbrev S2 : Shape := ⟨1, ![2]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x256 : Shape := ⟨2, ![16384, 256]⟩
abbrev S2x256 : Shape := ⟨2, ![2, 256]⟩
abbrev S1x256 : Shape := ⟨2, ![1, 256]⟩
abbrev S16384x1282 : Shape := ⟨2, ![16384, 1282]⟩
abbrev S16384x512 : Shape := ⟨2, ![16384, 512]⟩
abbrev S1282x1536 : Shape := ⟨2, ![1282, 1536]⟩
abbrev S512x1536 : Shape := ⟨2, ![512, 1536]⟩
abbrev S1x1536 : Shape := ⟨2, ![1, 1536]⟩
abbrev S512x1282 : Shape := ⟨2, ![512, 1282]⟩
abbrev S512x1024 : Shape := ⟨2, ![512, 1024]⟩
abbrev S512x2 : Shape := ⟨2, ![512, 2]⟩
abbrev S1x512 : Shape := ⟨2, ![1, 512]⟩
abbrev S1x1024 : Shape := ⟨2, ![1, 1024]⟩
abbrev S1x2 : Shape := ⟨2, ![1, 2]⟩
abbrev S16384x1024 : Shape := ⟨2, ![16384, 1024]⟩
abbrev S1024x1024 : Shape := ⟨2, ![1024, 1024]⟩
abbrev S1024x2 : Shape := ⟨2, ![1024, 2]⟩
abbrev S1024x1 : Shape := ⟨2, ![1024, 1]⟩

abbrev nBuf : Space → Nat
  | .hbm => 112
  | .vmem => 24
  | .smem => 0
  | _ => 0

abbrev bufTy : (tb : Table) → Fin (tcTables nBuf tb) → BufTy
  | .hbm, ⟨0, _⟩ => ⟨S16384x514, .f32⟩
  | .hbm, ⟨1, _⟩ => ⟨S16384x2, .f32⟩
  | .hbm, ⟨2, _⟩ => ⟨S1x16384x512, .f32⟩
  | .hbm, ⟨3, _⟩ => ⟨S1024x256, .f32⟩
  | .hbm, ⟨4, _⟩ => ⟨S8192x256, .f32⟩
  | .hbm, ⟨5, _⟩ => ⟨S256x2, .f32⟩
  | .hbm, ⟨6, _⟩ => ⟨S256, .f32⟩
  | .hbm, ⟨7, _⟩ => ⟨S1536x1282, .f32⟩
  | .hbm, ⟨8, _⟩ => ⟨S1536x512, .f32⟩
  | .hbm, ⟨9, _⟩ => ⟨S1536, .f32⟩
  | .hbm, ⟨10, _⟩ => ⟨S1536, .f32⟩
  | .hbm, ⟨11, _⟩ => ⟨S512x512, .f32⟩
  | .hbm, ⟨12, _⟩ => ⟨S512, .f32⟩
  | .hbm, ⟨13, _⟩ => ⟨S1024x512, .f32⟩
  | .hbm, ⟨14, _⟩ => ⟨S1024, .f32⟩
  | .hbm, ⟨15, _⟩ => ⟨S512x512, .f32⟩
  | .hbm, ⟨16, _⟩ => ⟨S512, .f32⟩
  | .hbm, ⟨17, _⟩ => ⟨S2x512, .f32⟩
  | .hbm, ⟨18, _⟩ => ⟨S2, .f32⟩
  | .hbm, ⟨19, _⟩ => ⟨S16384, .i32⟩
  | .hbm, ⟨20, _⟩ => ⟨S16384, .i32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S16384, .i32⟩
  | .hbm, ⟨28, _⟩ => ⟨S16384x1, .i32⟩
  | .hbm, ⟨29, _⟩ => ⟨S1, .i32⟩
  | .hbm, ⟨30, _⟩ => ⟨S_, .i32⟩
  | .hbm, ⟨31, _⟩ => ⟨S16384x1, .i32⟩
  | .hbm, ⟨32, _⟩ => ⟨S16384x1, .i1⟩
  | .hbm, ⟨33, _⟩ => ⟨S1x1, .i32⟩
  | .hbm, ⟨34, _⟩ => ⟨S16384x1, .i32⟩
  | .hbm, ⟨35, _⟩ => ⟨S16384x1, .i1⟩
  | .hbm, ⟨36, _⟩ => ⟨S16384x1, .i1⟩
  | .hbm, ⟨37, _⟩ => ⟨S_, .i1⟩
  | .hbm, ⟨38, _⟩ => ⟨S16384, .i1⟩
  | .hbm, ⟨39, _⟩ => ⟨S16384x256, .f32⟩
  | .hbm, ⟨40, _⟩ => ⟨S16384x256, .i1⟩
  | .hbm, ⟨41, _⟩ => ⟨S_, .f32⟩
  | .hbm, ⟨42, _⟩ => ⟨S16384x256, .f32⟩
  | .hbm, ⟨43, _⟩ => ⟨S16384x256, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S16384, .i32⟩
  | .hbm, ⟨51, _⟩ => ⟨S16384, .i32⟩
  | .hbm, ⟨52, _⟩ => ⟨S_, .i32⟩
  | .hbm, ⟨53, _⟩ => ⟨S16384, .i32⟩
  | .hbm, ⟨54, _⟩ => ⟨S16384, .i1⟩
  | .hbm, ⟨55, _⟩ => ⟨S_, .i32⟩
  | .hbm, ⟨56, _⟩ => ⟨S16384, .i32⟩
  | .hbm, ⟨57, _⟩ => ⟨S16384, .i1⟩
  | .hbm, ⟨58, _⟩ => ⟨S_, .i32⟩
  | .hbm, ⟨59, _⟩ => ⟨S_, .i1⟩
  | .hbm, ⟨60, _⟩ => ⟨S16384, .i1⟩
  | .hbm, ⟨61, _⟩ => ⟨S16384, .i1⟩
  | .hbm, ⟨62, _⟩ => ⟨S16384, .i1⟩
  | .hbm, ⟨63, _⟩ => ⟨S16384, .i32⟩
  | .hbm, ⟨64, _⟩ => ⟨S16384, .i32⟩
  | .hbm, ⟨65, _⟩ => ⟨S16384, .i32⟩
  | .hbm, ⟨66, _⟩ => ⟨S_, .i32⟩
  | .hbm, ⟨67, _⟩ => ⟨S16384, .i32⟩
  | .hbm, ⟨68, _⟩ => ⟨S16384, .i1⟩
  | .hbm, ⟨69, _⟩ => ⟨S_, .i32⟩
  | .hbm, ⟨70, _⟩ => ⟨S16384, .i32⟩
  | .hbm, ⟨71, _⟩ => ⟨S16384, .i32⟩
  | .hbm, ⟨72, _⟩ => ⟨S16384, .i32⟩
  | .hbm, ⟨73, _⟩ => ⟨S16384x1, .i32⟩
  | .hbm, ⟨74, _⟩ => ⟨S1, .i32⟩
  | .hbm, ⟨75, _⟩ => ⟨S_, .i32⟩
  | .hbm, ⟨76, _⟩ => ⟨S16384x1, .i32⟩
  | .hbm, ⟨77, _⟩ => ⟨S16384x1, .i1⟩
  | .hbm, ⟨78, _⟩ => ⟨S1x1, .i32⟩
  | .hbm, ⟨79, _⟩ => ⟨S16384x1, .i32⟩
  | .hbm, ⟨80, _⟩ => ⟨S16384x1, .i1⟩
  | .hbm, ⟨81, _⟩ => ⟨S16384x1, .i1⟩
  | .hbm, ⟨82, _⟩ => ⟨S_, .i1⟩
  | .hbm, ⟨83, _⟩ => ⟨S16384, .i1⟩
  | .hbm, ⟨84, _⟩ => ⟨S16384x256, .f32⟩
  | .hbm, ⟨85, _⟩ => ⟨S16384x256, .i1⟩
  | .hbm, ⟨86, _⟩ => ⟨S_, .f32⟩
  | .hbm, ⟨87, _⟩ => ⟨S16384x256, .f32⟩
  | .hbm, ⟨88, _⟩ => ⟨S16384x256, .f32⟩
  | .hbm, ⟨89, _⟩ => ⟨S2x256, .f32⟩
  | .hbm, ⟨90, _⟩ => ⟨S16384x256, .f32⟩
  | .hbm, ⟨91, _⟩ => ⟨S1x256, .f32⟩
  | .hbm, ⟨92, _⟩ => ⟨S16384x256, .f32⟩
  | .hbm, ⟨93, _⟩ => ⟨S16384x256, .f32⟩
  | .hbm, ⟨94, _⟩ => ⟨S16384x1282, .f32⟩
  | .hbm, ⟨95, _⟩ => ⟨S16384x512, .f32⟩
  | .hbm, ⟨96, _⟩ => ⟨S1282x1536, .f32⟩
  | .hbm, ⟨97, _⟩ => ⟨S512x1536, .f32⟩
  | .hbm, ⟨98, _⟩ => ⟨S1x1536, .f32⟩
  | .hbm, ⟨99, _⟩ => ⟨S1x1536, .f32⟩
  | .hbm, ⟨100, _⟩ => ⟨S16384x512, .f32⟩
  | .hbm, ⟨101, _⟩ => ⟨S512x512, .f32⟩
  | .hbm, ⟨102, _⟩ => ⟨S512x1024, .f32⟩
  | .hbm, ⟨103, _⟩ => ⟨S512x512, .f32⟩
  | .hbm, ⟨104, _⟩ => ⟨S512x2, .f32⟩
  | .hbm, ⟨105, _⟩ => ⟨S1x512, .f32⟩
  | .hbm, ⟨106, _⟩ => ⟨S1x1024, .f32⟩
  | .hbm, ⟨107, _⟩ => ⟨S1x512, .f32⟩
  | .hbm, ⟨108, _⟩ => ⟨S1x2, .f32⟩
  | .hbm, ⟨109, _⟩ => ⟨S16384x1024, .f32⟩
  | .hbm, ⟨110, _⟩ => ⟨S16384x2, .f32⟩
  | .hbm, ⟨111, _⟩ => ⟨S1x16384x512, .f32⟩
  | .local _ .vmem, ⟨0, _⟩ => ⟨S512x1282, .f32⟩
  | .local _ .vmem, ⟨1, _⟩ => ⟨S512x1282, .f32⟩
  | .local _ .vmem, ⟨2, _⟩ => ⟨S512x512, .f32⟩
  | .local _ .vmem, ⟨3, _⟩ => ⟨S512x512, .f32⟩
  | .local _ .vmem, ⟨4, _⟩ => ⟨S1282x1536, .f32⟩
  | .local _ .vmem, ⟨5, _⟩ => ⟨S512x1536, .f32⟩
  | .local _ .vmem, ⟨6, _⟩ => ⟨S1x1536, .f32⟩
  | .local _ .vmem, ⟨7, _⟩ => ⟨S1x1536, .f32⟩
  | .local _ .vmem, ⟨8, _⟩ => ⟨S512x512, .f32⟩
  | .local _ .vmem, ⟨9, _⟩ => ⟨S512x512, .f32⟩
  | .local _ .vmem, ⟨10, _⟩ => ⟨S1024x512, .f32⟩
  | .local _ .vmem, ⟨11, _⟩ => ⟨S1024x512, .f32⟩
  | .local _ .vmem, ⟨12, _⟩ => ⟨S512x512, .f32⟩
  | .local _ .vmem, ⟨13, _⟩ => ⟨S1x512, .f32⟩
  | .local _ .vmem, ⟨14, _⟩ => ⟨S512x1024, .f32⟩
  | .local _ .vmem, ⟨15, _⟩ => ⟨S1x1024, .f32⟩
  | .local _ .vmem, ⟨16, _⟩ => ⟨S512x512, .f32⟩
  | .local _ .vmem, ⟨17, _⟩ => ⟨S1x512, .f32⟩
  | .local _ .vmem, ⟨18, _⟩ => ⟨S512x2, .f32⟩
  | .local _ .vmem, ⟨19, _⟩ => ⟨S1x2, .f32⟩
  | .local _ .vmem, ⟨20, _⟩ => ⟨S1024x1024, .f32⟩
  | .local _ .vmem, ⟨21, _⟩ => ⟨S1024x1024, .f32⟩
  | .local _ .vmem, ⟨22, _⟩ => ⟨S1024x2, .f32⟩
  | .local _ .vmem, ⟨23, _⟩ => ⟨S1024x2, .f32⟩
  | _, _ => ⟨S16384x514, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v0 : Ref sig .tc := ⟨.hbm, 43, rfl⟩
abbrev main_c : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_v5 : Ref sig .tc := ⟨.hbm, 53, rfl⟩
abbrev main_call1_v6 : Ref sig .tc := ⟨.hbm, 54, rfl⟩
abbrev main_call1_c_2 : Ref sig .tc := ⟨.hbm, 55, rfl⟩
abbrev main_call1_v7 : Ref sig .tc := ⟨.hbm, 56, rfl⟩
abbrev main_call1_v8 : Ref sig .tc := ⟨.hbm, 57, rfl⟩
abbrev main_call1_c_3 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_v1 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c_1 : Ref sig .tc := ⟨.hbm, 74, rfl⟩
abbrev main_call2_c_2 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_3 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_call2_cst : Ref sig .tc := ⟨.hbm, 86, rfl⟩
abbrev main_call2_v15 : Ref sig .tc := ⟨.hbm, 87, rfl⟩
abbrev main_v2 : Ref sig .tc := ⟨.hbm, 88, rfl⟩
abbrev main_v3 : Ref sig .tc := ⟨.hbm, 89, rfl⟩
abbrev main_v4 : Ref sig .tc := ⟨.hbm, 90, rfl⟩
abbrev main_v5 : Ref sig .tc := ⟨.hbm, 91, rfl⟩
abbrev main_v6 : Ref sig .tc := ⟨.hbm, 92, rfl⟩
abbrev main_v7 : Ref sig .tc := ⟨.hbm, 93, rfl⟩
abbrev main_v8 : Ref sig .tc := ⟨.hbm, 94, rfl⟩
abbrev main_v9 : Ref sig .tc := ⟨.hbm, 95, rfl⟩
abbrev main_v10 : Ref sig .tc := ⟨.hbm, 96, rfl⟩
abbrev main_v11 : Ref sig .tc := ⟨.hbm, 97, rfl⟩
abbrev main_v12 : Ref sig .tc := ⟨.hbm, 98, rfl⟩
abbrev main_v13 : Ref sig .tc := ⟨.hbm, 99, rfl⟩
abbrev main_v14 : Ref sig .tc := ⟨.hbm, 100, rfl⟩
abbrev main_v15 : Ref sig .tc := ⟨.hbm, 101, rfl⟩
abbrev main_v16 : Ref sig .tc := ⟨.hbm, 102, rfl⟩
abbrev main_v17 : Ref sig .tc := ⟨.hbm, 103, rfl⟩
abbrev main_v18 : Ref sig .tc := ⟨.hbm, 104, rfl⟩
abbrev main_v19 : Ref sig .tc := ⟨.hbm, 105, rfl⟩
abbrev main_v20 : Ref sig .tc := ⟨.hbm, 106, rfl⟩
abbrev main_v21 : Ref sig .tc := ⟨.hbm, 107, rfl⟩
abbrev main_v22 : Ref sig .tc := ⟨.hbm, 108, rfl⟩
abbrev main_v23_0 : Ref sig .tc := ⟨.hbm, 109, rfl⟩
abbrev main_v23_1 : Ref sig .tc := ⟨.hbm, 110, rfl⟩
abbrev main_v24 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc1_stg10_0 : Ref sig .tc := ⟨.vmem, 22, rfl⟩
abbrev cc1_stg10_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21
abbrev cc1_sem10_0 : DmaSem sig := 22
abbrev cc1_sem10_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1282 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1282x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x2 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1024x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1024x2 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x256_0 : S16384.BroadcastsInDim S16384x256 (![0] : Fin 1 → Fin S16384x256.rank)
  bcast_S_S16384x256 : S_.BroadcastsInDim S16384x256 (![] : Fin 0 → Fin S16384x256.rank)
  transposes_S256x2_S2x256_1_0 : S256x2.Transposes [1, 0] S2x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  concatenates_S16384x256_S16384x256_S16384x256_S16384x514_S16384x1282_d1 : Shape.Concatenates [S16384x256, S16384x256, S16384x256, S16384x514] S16384x1282 1
  shapeCasts_S1x16384x512_S16384x512 : S1x16384x512.ShapeCasts S16384x512
  transposes_S1536x1282_S1282x1536_1_0 : S1536x1282.Transposes [1, 0] S1282x1536
  transposes_S1536x512_S512x1536_1_0 : S1536x512.Transposes [1, 0] S512x1536
  shapeCasts_S1536_S1x1536 : S1536.ShapeCasts S1x1536
  inb_S512x1282_S512x1282_0_0 : ∀ a, (![0, 0] : Fin 2 → Nat) a + S512x1282.size a ≤ S512x1282.size a
  h_S512x1282 : 0 < S512x1282.numel
  shapeCasts_S512x1282_S512x1282 : S512x1282.ShapeCasts S512x1282
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1282x1536_S1282x1536_0_0 : ∀ a, (![0, 0] : Fin 2 → Nat) a + S1282x1536.size a ≤ S1282x1536.size a
  h_S1282x1536 : 0 < S1282x1536.numel
  shapeCasts_S1282x1536_S1282x1536 : S1282x1536.ShapeCasts S1282x1536
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S512x1536 : S1x1536.Broadcasts S512x1536
  slices_S512x1536_o0_0_S512x512 : S512x1536.Slices ![0, 0] S512x512
  slices_S512x1536_o0_512_S512x512 : S512x1536.Slices ![0, 512] S512x512
  slices_S512x1536_o0_1024_S512x512 : S512x1536.Slices ![0, 1024] S512x512
  transposes_S512x512_S512x512_1_0 : S512x512.Transposes [1, 0] S512x512
  transposes_S1024x512_S512x1024_1_0 : S1024x512.Transposes [1, 0] S512x1024
  transposes_S2x512_S512x2_1_0 : S2x512.Transposes [1, 0] S512x2
  shapeCasts_S512_S1x512 : S512.ShapeCasts S1x512
  shapeCasts_S1024_S1x1024 : S1024.ShapeCasts S1x1024
  shapeCasts_S2_S1x2 : S2.ShapeCasts S1x2
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  inb_S1024x1024_S1024x1024_0_0 : ∀ a, (![0, 0] : Fin 2 → Nat) a + S1024x1024.size a ≤ S1024x1024.size a
  h_S1024x1024 : 0 < S1024x1024.numel
  inb_S512x2_S512x2_0_0 : ∀ a, (![0, 0] : Fin 2 → Nat) a + S512x2.size a ≤ S512x2.size a
  h_S512x2 : 0 < S512x2.numel
  shapeCasts_S512x2_S512x2 : S512x2.ShapeCasts S512x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  inb_S1024x2_S1024x2_0_0 : ∀ a, (![0, 0] : Fin 2 → Nat) a + S1024x2.size a ≤ S1024x2.size a
  h_S1024x2 : 0 < S1024x2.numel
  bcast_S16384x512_S1x16384x512_1_2 : S16384x512.BroadcastsInDim S1x16384x512 (![1, 2] : Fin 2 → Fin S1x16384x512.rank)
  gather_S1024x256_S16384x1_S16384x256_1_0_n_n_0_1_1256_wf : GatherDims.WF S1024x256 S16384x1 S16384x256 [1] [0] [] [0] [] 1 ![1, 256]
  gather_S8192x256_S16384x1_S16384x256_1_0_n_n_0_1_1256_wf : GatherDims.WF S8192x256 S16384x1 S16384x256 [1] [0] [] [0] [] 1 ![1, 256]
  dot_S16384x2_S2x256_S16384x256_1_0_0_1_n_n_wf : DotDims.WF S16384x2 S2x256 S16384x256 [1] [0] [0] [1] [] []
  dot_S512x1282_S1282x1536_S512x1536_1_0_0_1_n_n_wf : DotDims.WF S512x1282 S1282x1536 S512x1536 [1] [0] [0] [1] [] []
  dot_S512x512_S512x1536_S512x1536_1_0_0_1_n_n_wf : DotDims.WF S512x512 S512x1536 S512x1536 [1] [0] [0] [1] [] []
  dot_S1024x512_S512x512_S1024x512_1_0_0_1_n_n_wf : DotDims.WF S1024x512 S512x512 S1024x512 [1] [0] [0] [1] [] []
  dot_S1024x512_S512x1024_S1024x1024_1_0_0_1_n_n_wf : DotDims.WF S1024x512 S512x1024 S1024x1024 [1] [0] [0] [1] [] []
  dot_S1024x512_S512x2_S1024x2_1_0_0_1_n_n_wf : DotDims.WF S1024x512 S512x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1282.size a ≤ S16384x1282.size a
  hwx0_0 : ∀ i : grid0.Coords, EltTy.bits .f32 = 32 ∨ (Rect.block (s := S16384x1282) S512x1282.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1282x1536.size a ≤ S1282x1536.size a
  hwx0_2 : ∀ i : grid0.Coords, EltTy.bits .f32 = 32 ∨ (Rect.block (s := S1282x1536) S1282x1536.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1536.size a ≤ S512x1536.size a
  hwx0_3 : ∀ i : grid0.Coords, EltTy.bits .f32 = 32 ∨ (Rect.block (s := S512x1536) S512x1536.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1536.size a ≤ S1x1536.size a
  hwx0_4 : ∀ i : grid0.Coords, EltTy.bits .f32 = 32 ∨ (Rect.block (s := S1x1536) S1x1536.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1536.size a ≤ S1x1536.size a
  hwx0_5 : ∀ i : grid0.Coords, EltTy.bits .f32 = 32 ∨ (Rect.block (s := S1x1536) S1x1536.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S16384x512.size a
  hwx0_6 : ∀ i : grid0.Coords, EltTy.bits .f32 = 32 ∨ (Rect.block (s := S16384x512) S512x512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S16384x512.size a
  hwx1_0 : ∀ i : grid1.Coords, EltTy.bits .f32 = 32 ∨ (Rect.block (s := S16384x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S512x1024.size a
  hwx1_3 : ∀ i : grid1.Coords, EltTy.bits .f32 = 32 ∨ (Rect.block (s := S512x1024) S512x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .f32 = 32 ∨ (Rect.block (s := S512x512) S512x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x2.size a ≤ S512x2.size a
  hwx1_7 : ∀ i : grid1.Coords, EltTy.bits .f32 = 32 ∨ (Rect.block (s := S512x2) S512x2.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x2.size a ≤ S1x2.size a
  hwx1_8 : ∀ i : grid1.Coords, EltTy.bits .f32 = 32 ∨ (Rect.block (s := S1x2) S1x2.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1024x1024.size a ≤ S16384x1024.size a
  hwx1_9 : ∀ i : grid1.Coords, EltTy.bits .f32 = 32 ∨ (Rect.block (s := S16384x1024) S1024x1024.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1024x2.size a ≤ S16384x2.size a
  hwx1_10 : ∀ i : grid1.Coords, EltTy.bits .f32 = 32 ∨ (Rect.block (s := S16384x2) S1024x2.size (cc1_transform_10 i) (hinb1_10 i)).WholeWords (EltTy.packing .f32)

variable [Facts₀]

def gather_S1024x256_S16384x1_S16384x256_1_0_n_n_0_1_1256 : GatherDims S1024x256 S16384x1 S16384x256 where
  offsetDims := [1]
  collapsedSliceDims := [0]
  operandBatchingDims := []
  startIndicesBatchingDims := []
  startIndexMap := [0]
  indexVectorDim := 1
  sliceSizes := ![1, 256]
  wf := gather_S1024x256_S16384x1_S16384x256_1_0_n_n_0_1_1256_wf
def gather_S8192x256_S16384x1_S16384x256_1_0_n_n_0_1_1256 : GatherDims S8192x256 S16384x1 S16384x256 where
  offsetDims := [1]
  collapsedSliceDims := [0]
  operandBatchingDims := []
  startIndicesBatchingDims := []
  startIndexMap := [0]
  indexVectorDim := 1
  sliceSizes := ![1, 256]
  wf := gather_S8192x256_S16384x1_S16384x256_1_0_n_n_0_1_1256_wf
def dot_S16384x2_S2x256_S16384x256_1_0_0_1_n_n : DotDims S16384x2 S2x256 S16384x256 where
  lhsContracting := [1]
  rhsContracting := [0]
  lhsNonContracting := [0]
  rhsNonContracting := [1]
  lhsBatch := []
  rhsBatch := []
  wf := dot_S16384x2_S2x256_S16384x256_1_0_0_1_n_n_wf
def dot_S512x1282_S1282x1536_S512x1536_1_0_0_1_n_n : DotDims S512x1282 S1282x1536 S512x1536 where
  lhsContracting := [1]
  rhsContracting := [0]
  lhsNonContracting := [0]
  rhsNonContracting := [1]
  lhsBatch := []
  rhsBatch := []
  wf := dot_S512x1282_S1282x1536_S512x1536_1_0_0_1_n_n_wf
def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x512_S512x2_S1024x2_1_0_0_1_n_n : DotDims S1024x512 S512x2 S1024x2 where
  lhsContracting := [1]
  rhsContracting := [0]
  lhsNonContracting := [0]
  rhsNonContracting := [1]
  lhsBatch := []
  rhsBatch := []
  wf := dot_S1024x512_S512x2_S1024x2_1_0_0_1_n_n_wf

abbrev win0_0 : Pipeline.Window sig grid0 :=
  Pipeline.Window.ofSpec (Memref.whole main_v8) S512x1282.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1282x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S512x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S512x2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v22) S1x2.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v23_0) S1024x1024.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v23_1) S1024x2.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S16384x514 : Shape := ⟨2, ![16384, 514]⟩
abbrev S16384x2 : Shape := ⟨2, ![16384, 2]⟩
abbrev S1x16384x512 : Shape := ⟨3, ![1, 16384, 512]⟩
abbrev S1024x256 : Shape := ⟨2, ![1024, 256]⟩
abbrev S8192x256 : Shape := ⟨2, ![8192, 256]⟩
abbrev S256x2 : Shape := ⟨2, ![256, 2]⟩
abbrev S256 : Shape := ⟨1, ![256]⟩
abbrev S1536x1282 : Shape := ⟨2, ![1536, 1282]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S2x512 : Shape := ⟨2, ![2, 512]⟩
abbrev S2 : Shape := ⟨1, ![2]⟩
abbrev S16384 : Shape := ⟨1, ![16384]⟩
abbrev S_ : Shape := ⟨0, ![]⟩
abbrev S16384x1 : Shape := ⟨2, ![16384, 1]⟩
abbrev S16384x256 : Shape := ⟨2, ![16384, 256]⟩
abbrev S2x256 : Shape := ⟨2, ![2, 256]⟩
abbrev S1x256 : Shape := ⟨2, ![1, 256]⟩
abbrev S16384x1282 : Shape := ⟨2, ![16384, 1282]⟩
abbrev S16384x512 : Shape := ⟨2, ![16384, 512]⟩
abbrev S1282x1536 : Shape := ⟨2, ![1282, 1536]⟩
abbrev S16384x1536 : Shape := ⟨2, ![16384, 1536]⟩
abbrev S1x1536 : Shape := ⟨2, ![1, 1536]⟩
abbrev S512x1536 : Shape := ⟨2, ![512, 1536]⟩
abbrev S1x512 : Shape := ⟨2, ![1, 512]⟩
abbrev S512x1024 : Shape := ⟨2, ![512, 1024]⟩
abbrev S16384x1024 : Shape := ⟨2, ![16384, 1024]⟩
abbrev S1x1024 : Shape := ⟨2, ![1, 1024]⟩
abbrev S512x2 : Shape := ⟨2, ![512, 2]⟩
abbrev S1x2 : Shape := ⟨2, ![1, 2]⟩

abbrev nBuf : Space → Nat
  | .hbm => 171
  | .vmem => 0
  | .smem => 0
  | _ => 0

abbrev hbmTy0_0 (i : Nat) : BufTy := match i % 128 with
  | 0 => ⟨S16384x514, .f32⟩
  | 1 => ⟨S16384x2, .f32⟩
  | 2 => ⟨S1x16384x512, .f32⟩
  | 3 => ⟨S1024x256, .f32⟩
  | 4 => ⟨S8192x256, .f32⟩
  | 5 => ⟨S256x2, .f32⟩
  | 6 => ⟨S256, .f32⟩
  | 7 => ⟨S1536x1282, .f32⟩
  | 8 => ⟨S1536x512, .f32⟩
  | 9 => ⟨S1536, .f32⟩
  | 10 => ⟨S1536, .f32⟩
  | 11 => ⟨S512x512, .f32⟩
  | 12 => ⟨S512, .f32⟩
  | 13 => ⟨S1024x512, .f32⟩
  | 14 => ⟨S1024, .f32⟩
  | 15 => ⟨S512x512, .f32⟩
  | 16 => ⟨S512, .f32⟩
  | 17 => ⟨S2x512, .f32⟩
  | 18 => ⟨S2, .f32⟩
  | 19 => ⟨S16384, .i32⟩
  | 20 => ⟨S16384, .i32⟩
  | 21 => ⟨S_, .i32⟩
  | 22 => ⟨S16384, .i32⟩
  | 23 => ⟨S16384, .i1⟩
  | 24 => ⟨S_, .i32⟩
  | 25 => ⟨S16384, .i32⟩
  | 26 => ⟨S16384, .i32⟩
  | 27 => ⟨S16384, .i32⟩
  | 28 => ⟨S16384x1, .i32⟩
  | 29 => ⟨S16384x256, .f32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S16384, .i32⟩
  | 37 => ⟨S16384, .i32⟩
  | 38 => ⟨S_, .i32⟩
  | 39 => ⟨S16384, .i32⟩
  | 40 => ⟨S16384, .i1⟩
  | 41 => ⟨S_, .i32⟩
  | 42 => ⟨S16384, .i32⟩
  | 43 => ⟨S16384, .i1⟩
  | 44 => ⟨S_, .i32⟩
  | 45 => ⟨S_, .i1⟩
  | 46 => ⟨S16384, .i1⟩
  | 47 => ⟨S16384, .i1⟩
  | 48 => ⟨S16384, .i1⟩
  | 49 => ⟨S16384, .i32⟩
  | 50 => ⟨S16384, .i32⟩
  | 51 => ⟨S16384, .i32⟩
  | 52 => ⟨S_, .i32⟩
  | 53 => ⟨S16384, .i32⟩
  | 54 => ⟨S16384, .i1⟩
  | 55 => ⟨S_, .i32⟩
  | 56 => ⟨S16384, .i32⟩
  | 57 => ⟨S16384, .i32⟩
  | 58 => ⟨S16384, .i32⟩
  | 59 => ⟨S16384x1, .i32⟩
  | 60 => ⟨S16384x256, .f32⟩
  | 61 => ⟨S2x256, .f32⟩
  | 62 => ⟨S16384x256, .f32⟩
  | 63 => ⟨S1x256, .f32⟩
  | 64 => ⟨S16384x256, .f32⟩
  | 65 => ⟨S16384x256, .f32⟩
  | 66 => ⟨S16384x1282, .f32⟩
  | 67 => ⟨S16384x512, .f32⟩
  | 68 => ⟨S1282x1536, .f32⟩
  | 69 => ⟨S16384x1536, .f32⟩
  | 70 => ⟨S1x1536, .f32⟩
  | 71 => ⟨S16384x1536, .f32⟩
  | 72 => ⟨S16384x1536, .f32⟩
  | 73 => ⟨S512x1536, .f32⟩
  | 74 => ⟨S16384x1536, .f32⟩
  | 75 => ⟨S1x1536, .f32⟩
  | 76 => ⟨S16384x1536, .f32⟩
  | 77 => ⟨S16384x1536, .f32⟩
  | 78 => ⟨S16384x512, .f32⟩
  | 79 => ⟨S16384x512, .f32⟩
  | 80 => ⟨S16384x512, .f32⟩
  | 81 => ⟨S16384x512, .f32⟩
  | 82 => ⟨S16384x512, .f32⟩
  | 83 => ⟨S16384x512, .f32⟩
  | 84 => ⟨S16384x512, .f32⟩
  | 85 => ⟨S16384x512, .f32⟩
  | 86 => ⟨S16384x512, .f32⟩
  | 87 => ⟨S_, .f32⟩
  | 88 => ⟨S16384x512, .f32⟩
  | 89 => ⟨S16384x512, .f32⟩
  | 90 => ⟨S_, .f32⟩
  | 91 => ⟨S16384x512, .f32⟩
  | 92 => ⟨S16384x512, .f32⟩
  | 93 => ⟨S16384x512, .f32⟩
  | 94 => ⟨S16384x512, .f32⟩
  | 95 => ⟨S16384x512, .f32⟩
  | 96 => ⟨S_, .f32⟩
  | 97 => ⟨S16384x512, .f32⟩
  | 98 => ⟨S16384x512, .f32⟩
  | 99 => ⟨S_, .f32⟩
  | 100 => ⟨S16384x512, .f32⟩
  | 101 => ⟨S16384x512, .f32⟩
  | 102 => ⟨S16384x512, .f32⟩
  | 103 => ⟨S16384x512, .f32⟩
  | 104 => ⟨S16384x512, .f32⟩
  | 105 => ⟨S_, .f32⟩
  | 106 => ⟨S16384x512, .f32⟩
  | 107 => ⟨S16384x512, .f32⟩
  | 108 => ⟨S16384x512, .f32⟩
  | 109 => ⟨S16384x512, .f32⟩
  | 110 => ⟨S16384x512, .f32⟩
  | 111 => ⟨S512x512, .f32⟩
  | 112 => ⟨S16384x512, .f32⟩
  | 113 => ⟨S1x512, .f32⟩
  | 114 => ⟨S16384x512, .f32⟩
  | 115 => ⟨S16384x512, .f32⟩
  | 116 => ⟨S_, .f32⟩
  | 117 => ⟨S_, .f32⟩
  | 118 => ⟨S16384x512, .f32⟩
  | 119 => ⟨S16384x512, .i1⟩
  | 120 => ⟨S_, .f32⟩
  | 121 => ⟨S16384x512, .f32⟩
  | 122 => ⟨S16384x512, .f32⟩
  | 123 => ⟨S16384x512, .f32⟩
  | 124 => ⟨S512x1024, .f32⟩
  | 125 => ⟨S16384x1024, .f32⟩
  | 126 => ⟨S1x1024, .f32⟩
  | 127 => ⟨S16384x1024, .f32⟩
  | _ => ⟨S16384x514, .f32⟩

abbrev hbmTy0_1 (i : Nat) : BufTy := match i % 128 with
  | 0 => ⟨S16384x1024, .f32⟩
  | 1 => ⟨S_, .f32⟩
  | 2 => ⟨S16384, .f32⟩
  | 3 => ⟨S_, .f32⟩
  | 4 => ⟨S16384, .f32⟩
  | 5 => ⟨S16384, .f32⟩
  | 6 => ⟨S16384x1, .f32⟩
  | 7 => ⟨S16384x1024, .f32⟩
  | 8 => ⟨S16384x1024, .f32⟩
  | 9 => ⟨S16384x1024, .f32⟩
  | 10 => ⟨S_, .f32⟩
  | 11 => ⟨S16384, .f32⟩
  | 12 => ⟨S16384x1, .f32⟩
  | 13 => ⟨S16384x1, .f32⟩
  | 14 => ⟨S16384x1024, .f32⟩
  | 15 => ⟨S16384x1024, .f32⟩
  | 16 => ⟨S512x512, .f32⟩
  | 17 => ⟨S16384x512, .f32⟩
  | 18 => ⟨S1x512, .f32⟩
  | 19 => ⟨S16384x512, .f32⟩
  | 20 => ⟨S16384x512, .f32⟩
  | 21 => ⟨S_, .f32⟩
  | 22 => ⟨S_, .f32⟩
  | 23 => ⟨S16384x512, .f32⟩
  | 24 => ⟨S16384x512, .i1⟩
  | 25 => ⟨S_, .f32⟩
  | 26 => ⟨S16384x512, .f32⟩
  | 27 => ⟨S16384x512, .f32⟩
  | 28 => ⟨S16384x512, .f32⟩
  | 29 => ⟨S512x2, .f32⟩
  | 30 => ⟨S16384x2, .f32⟩
  | 31 => ⟨S1x2, .f32⟩
  | 32 => ⟨S16384x2, .f32⟩
  | 33 => ⟨S16384x2, .f32⟩
  | 34 => ⟨S16384x2, .f32⟩
  | 35 => ⟨S16384x2, .f32⟩
  | 36 => ⟨S_, .f32⟩
  | 37 => ⟨S16384x2, .f32⟩
  | 38 => ⟨S16384x2, .f32⟩
  | 39 => ⟨S_, .f32⟩
  | 40 => ⟨S16384x2, .f32⟩
  | 41 => ⟨S16384x2, .f32⟩
  | 42 => ⟨S1x16384x512, .f32⟩
  | _ => ⟨S16384x514, .f32⟩

abbrev hbmTy (i : Nat) : BufTy := match i / 128 with
  | 0 => hbmTy0_0 i
  | 1 => hbmTy0_1 i
  | _ => ⟨S16384x514, .f32⟩

abbrev bufTy : (tb : Table) → Fin (tcTables nBuf tb) → BufTy
  | .hbm, ⟨i, _⟩ => hbmTy i
  | _, _ => ⟨S16384x514, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_call0_v0 : Ref sig .tc := ⟨.hbm, 31, rfl⟩
abbrev main_call0_c : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_c_1 : Ref sig .tc := ⟨.hbm, 38, rfl⟩
abbrev main_call0_v5 : Ref sig .tc := ⟨.hbm, 39, rfl⟩
abbrev main_call0_v6 : Ref sig .tc := ⟨.hbm, 40, rfl⟩
abbrev main_call0_c_2 : Ref sig .tc := ⟨.hbm, 41, rfl⟩
abbrev main_call0_v7 : Ref sig .tc := ⟨.hbm, 42, rfl⟩
abbrev main_call0_v8 : Ref sig .tc := ⟨.hbm, 43, rfl⟩
abbrev main_call0_c_3 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_v7 : Ref sig .tc := ⟨.hbm, 51, rfl⟩
abbrev main_c_2 : Ref sig .tc := ⟨.hbm, 52, rfl⟩
abbrev main_v8 : Ref sig .tc := ⟨.hbm, 53, rfl⟩
abbrev main_v9 : Ref sig .tc := ⟨.hbm, 54, rfl⟩
abbrev main_c_3 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_cst : Ref sig .tc := ⟨.hbm, 87, rfl⟩
abbrev main_v41 : Ref sig .tc := ⟨.hbm, 88, rfl⟩
abbrev main_v42 : Ref sig .tc := ⟨.hbm, 89, rfl⟩
abbrev main_cst_4 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_cst_5 : Ref sig .tc := ⟨.hbm, 96, rfl⟩
abbrev main_v48 : Ref sig .tc := ⟨.hbm, 97, rfl⟩
abbrev main_v49 : Ref sig .tc := ⟨.hbm, 98, rfl⟩
abbrev main_cst_6 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_cst_7 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_cst_8 : Ref sig .tc := ⟨.hbm, 116, rfl⟩
abbrev main_call1_cst : Ref sig .tc := ⟨.hbm, 117, rfl⟩
abbrev main_call1_v0 : Ref sig .tc := ⟨.hbm, 118, rfl⟩
abbrev main_call1_v1 : Ref sig .tc := ⟨.hbm, 119, rfl⟩
abbrev main_call1_v2 : Ref sig .tc := ⟨.hbm, 120, rfl⟩
abbrev main_call1_v3 : Ref sig .tc := ⟨.hbm, 121, rfl⟩
abbrev main_call1_v4 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_call2_cst : Ref sig .tc := ⟨.hbm, 129, rfl⟩
abbrev main_call2_v0 : Ref sig .tc := ⟨.hbm, 130, rfl⟩
abbrev main_call2_cst_0 : Ref sig .tc := ⟨.hbm, 131, rfl⟩
abbrev main_call2_v1 : Ref sig .tc := ⟨.hbm, 132, rfl⟩
abbrev main_call2_v2 : Ref sig .tc := ⟨.hbm, 133, rfl⟩
abbrev main_call2_v3 : Ref sig .tc := ⟨.hbm, 134, rfl⟩
abbrev main_call2_v4 : Ref sig .tc := ⟨.hbm, 135, rfl⟩
abbrev main_call2_v5 : Ref sig .tc := ⟨.hbm, 136, rfl⟩
abbrev main_call2_v6 : Ref sig .tc := ⟨.hbm, 137, rfl⟩
abbrev main_call2_cst_1 : Ref sig .tc := ⟨.hbm, 138, rfl⟩
abbrev main_call2_v7 : Ref sig .tc := ⟨.hbm, 139, rfl⟩
abbrev main_call2_v8 : Ref sig .tc := ⟨.hbm, 140, rfl⟩
abbrev main_call2_v9 : Ref sig .tc := ⟨.hbm, 141, rfl⟩
abbrev main_call2_v10 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_cst_9 : Ref sig .tc := ⟨.hbm, 149, rfl⟩
abbrev main_call3_cst : Ref sig .tc := ⟨.hbm, 150, rfl⟩
abbrev main_call3_v0 : Ref sig .tc := ⟨.hbm, 151, rfl⟩
abbrev main_call3_v1 : Ref sig .tc := ⟨.hbm, 152, rfl⟩
abbrev main_call3_v2 : Ref sig .tc := ⟨.hbm, 153, rfl⟩
abbrev main_call3_v3 : Ref sig .tc := ⟨.hbm, 154, rfl⟩
abbrev main_call3_v4 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_cst_10 : Ref sig .tc := ⟨.hbm, 164, rfl⟩
abbrev main_v85 : Ref sig .tc := ⟨.hbm, 165, rfl⟩
abbrev main_v86 : Ref sig .tc := ⟨.hbm, 166, rfl⟩
abbrev main_cst_11 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  transposes_S256x2_S2x256_1_0 : S256x2.Transposes [1, 0] S2x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  concatenates_S16384x256_S16384x256_S16384x256_S16384x514_S16384x1282_d1 : Shape.Concatenates [S16384x256, S16384x256, S16384x256, S16384x514] S16384x1282 1
  shapeCasts_S1x16384x512_S16384x512 : S1x16384x512.ShapeCasts S16384x512
  transposes_S1536x1282_S1282x1536_1_0 : S1536x1282.Transposes [1, 0] S1282x1536
  bcast_S1536_S1x1536_1 : S1536.BroadcastsInDim S1x1536 (![1] : Fin 1 → Fin S1x1536.rank)
  bcast_S1x1536_S16384x1536_0_1 : S1x1536.BroadcastsInDim S16384x1536 (![0, 1] : Fin 2 → Fin S16384x1536.rank)
  transposes_S1536x512_S512x1536_1_0 : S1536x512.Transposes [1, 0] S512x1536
  slices_S16384x1536_S16384x512_0_0 : S16384x1536.Slices ![0, 0] S16384x512
  slices_S16384x1536_S16384x512_0_512 : S16384x1536.Slices ![0, 512] S16384x512
  slices_S16384x1536_S16384x512_0_1024 : S16384x1536.Slices ![0, 1024] S16384x512
  bcast_S_S16384x512 : S_.BroadcastsInDim S16384x512 (![] : Fin 0 → Fin S16384x512.rank)
  transposes_S512x512_S512x512_1_0 : S512x512.Transposes [1, 0] S512x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  transposes_S1024x512_S512x1024_1_0 : S1024x512.Transposes [1, 0] S512x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  reducesTo_S16384x1024_S16384_d1 : S16384x1024.ReducesTo [1] S16384
  h_S_ : 0 < S_.numel
  bcast_S16384x1_S16384x1024_0_1 : S16384x1.BroadcastsInDim S16384x1024 (![0, 1] : Fin 2 → Fin S16384x1024.rank)
  transposes_S2x512_S512x2_1_0 : S2x512.Transposes [1, 0] S512x2
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  bcast_S_S16384x2 : S_.BroadcastsInDim S16384x2 (![] : Fin 0 → Fin S16384x2.rank)
  bcast_S16384x512_S1x16384x512_1_2 : S16384x512.BroadcastsInDim S1x16384x512 (![1, 2] : Fin 2 → Fin S1x16384x512.rank)
  gather_S1024x256_S16384x1_S16384x256_1_0_n_n_0_1_1256_wf : GatherDims.WF S1024x256 S16384x1 S16384x256 [1] [0] [] [0] [] 1 ![1, 256]
  gather_S8192x256_S16384x1_S16384x256_1_0_n_n_0_1_1256_wf : GatherDims.WF S8192x256 S16384x1 S16384x256 [1] [0] [] [0] [] 1 ![1, 256]
  dot_S16384x2_S2x256_S16384x256_1_0_0_1_n_n_wf : DotDims.WF S16384x2 S2x256 S16384x256 [1] [0] [0] [1] [] []
  dot_S16384x1282_S1282x1536_S16384x1536_1_0_0_1_n_n_wf : DotDims.WF S16384x1282 S1282x1536 S16384x1536 [1] [0] [0] [1] [] []
  dot_S16384x512_S512x1536_S16384x1536_1_0_0_1_n_n_wf : DotDims.WF S16384x512 S512x1536 S16384x1536 [1] [0] [0] [1] [] []
  dot_S16384x512_S512x512_S16384x512_1_0_0_1_n_n_wf : DotDims.WF S16384x512 S512x512 S16384x512 [1] [0] [0] [1] [] []
  dot_S16384x512_S512x1024_S16384x1024_1_0_0_1_n_n_wf : DotDims.WF S16384x512 S512x1024 S16384x1024 [1] [0] [0] [1] [] []
  dot_S16384x512_S512x2_S16384x2_1_0_0_1_n_n_wf : DotDims.WF S16384x512 S512x2 S16384x2 [1] [0] [0] [1] [] []

variable [Facts₀]

def gather_S1024x256_S16384x1_S16384x256_1_0_n_n_0_1_1256 : GatherDims S1024x256 S16384x1 S16384x256 where
  offsetDims := [1]
  collapsedSliceDims := [0]
  operandBatchingDims := []
  startIndicesBatchingDims := []
  startIndexMap := [0]
  indexVectorDim := 1
  sliceSizes := ![1, 256]
  wf := gather_S1024x256_S16384x1_S16384x256_1_0_n_n_0_1_1256_wf
def gather_S8192x256_S16384x1_S16384x256_1_0_n_n_0_1_1256 : GatherDims S8192x256 S16384x1 S16384x256 where
  offsetDims := [1]
  collapsedSliceDims := [0]
  operandBatchingDims := []
  startIndicesBatchingDims := []
  startIndexMap := [0]
  indexVectorDim := 1
  sliceSizes := ![1, 256]
  wf := gather_S8192x256_S16384x1_S16384x256_1_0_n_n_0_1_1256_wf
def dot_S16384x2_S2x256_S16384x256_1_0_0_1_n_n : DotDims S16384x2 S2x256 S16384x256 where
  lhsContracting := [1]
  rhsContracting := [0]
  lhsNonContracting := [0]
  rhsNonContracting := [1]
  lhsBatch := []
  rhsBatch := []
  wf := dot_S16384x2_S2x256_S16384x256_1_0_0_1_n_n_wf
def dot_S16384x1282_S1282x1536_S16384x1536_1_0_0_1_n_n : DotDims S16384x1282 S1282x1536 S16384x1536 where
  lhsContracting := [1]
  rhsContracting := [0]
  lhsNonContracting := [0]
  rhsNonContracting := [1]
  lhsBatch := []
  rhsBatch := []
  wf := dot_S16384x1282_S1282x1536_S16384x1536_1_0_0_1_n_n_wf
def dot_S16384x512_S512x1536_S16384x1536_1_0_0_1_n_n : DotDims S16384x512 S512x1536 S16384x1536 where
  lhsContracting := [1]
  rhsContracting := [0]
  lhsNonContracting := [0]
  rhsNonContracting := [1]
  lhsBatch := []
  rhsBatch := []
  wf := dot_S16384x512_S512x1536_S16384x1536_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x512_S512x1024_S16384x1024_1_0_0_1_n_n : DotDims S16384x512 S512x1024 S16384x1024 where
  lhsContracting := [1]
  rhsContracting := [0]
  lhsNonContracting := [0]
  rhsNonContracting := [1]
  lhsBatch := []
  rhsBatch := []
  wf := dot_S16384x512_S512x1024_S16384x1024_1_0_0_1_n_n_wf
def dot_S16384x512_S512x2_S16384x2_1_0_0_1_n_n : DotDims S16384x512 S512x2 S16384x2 where
  lhsContracting := [1]
  rhsContracting := [0]
  lhsNonContracting := [0]
  rhsNonContracting := [1]
  lhsBatch := []
  rhsBatch := []
  wf := dot_S16384x512_S512x2_S16384x2_1_0_0_1_n_n_wf

class Facts : Prop extends Facts₀ where

variable [Facts]
-- ==== Proof.GruBody.lean ====
import proofs.«406328_j56736517980496_1_alg».proof.Proof.Gen.KernelIdeal.Launch
import proofs.«406328_j56736517980496_1_alg».proof.Proof.Gen.KernelIdeal.Skeleton
import proofs.«406328_j56736517980496_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents on entry to the GRU region
variable (V : (c : Dev nD) → (b : Ref sig .tc) → Buf (Elt F) ((c : Thread nD τ).loc b))

/-! # The GRU region (grid of 32 row blocks): the body half -/

/-- The block of window `w` at grid point `t`, read off the array the region was entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The whole-block rectangles the body reads and writes -/

abbrev rX : Rect S512x1282 := Rect.unit (s := S512x1282) ![0, 0] S512x1282.size inb_S512x1282_S512x1282_0_0
abbrev rH : Rect S512x512 := Rect.unit (s := S512x512) ![0, 0] S512x512.size inb_S512x512_S512x512_0_0
abbrev rWi : Rect S1282x1536 := Rect.unit (s := S1282x1536) ![0, 0] S1282x1536.size inb_S1282x1536_S1282x1536_0_0
abbrev rWh : Rect S512x1536 := Rect.unit (s := S512x1536) ![0, 0] S512x1536.size inb_S512x1536_S512x1536_0_0
abbrev rB : Rect S1x1536 := Rect.unit (s := S1x1536) ![0, 0] S1x1536.size inb_S1x1536_S1x1536_0_0

/-! ## What the body leaves in the output block -/

/-- The output block after the body, as a function of the six input blocks: the single whole-block store, whose
    payload is the GRU cell of the inputs read whole. -/
def out0_6 (x0 : Vec F S512x1282 .f32) (x1 : Vec F S512x512 .f32) (x2 : Vec F S1282x1536 .f32) (x3 : Vec F S512x1536 .f32)
    (x4 x5 : Vec F S1x1536 .f32) : Vec F S512x512 .f32 :=
  View.canon [⟨rH, k0_pay1 (View.ld x0 rX) (View.ld x1 rH) (View.ld x2 rWi) (View.ld x3 rWh) (View.ld x4 rB) (View.ld x5 rB)⟩]

/-! ## What an input window's buffer holds when the body is called

Each of the six inputs is left in place by the body, so its buffer holds the window's block at every grid point,
whether the block was transferred at that point or is still there from an earlier one (the four weight and bias
windows have a constant block index: transferred once, never moved). -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- `![0, 0]` is the zero offset. -/
theorem off_zero : (![0, 0] : Fin 2 → ℕ) = fun _ => 0 := by
  funext a; fin_cases a <;> rfl

/-- A store of the whole block, read back whole, is its payload; and each whole-block load reads the block. -/
theorem out0_6_eq (x0 : Vec F S512x1282 .f32) (x1 : Vec F S512x512 .f32) (x2 : Vec F S1282x1536 .f32) (x3 : Vec F S512x1536 .f32)
    (x4 x5 : Vec F S1x1536 .f32) : out0_6 x0 x1 x2 x3 x4 x5 = k0_pay1 x0 x1 x2 x3 x4 x5 := by
  unfold out0_6
  rw [View.canon_unit_zero off_zero]
  simp only [View.ld_unit_zero (S := S512x1282) off_zero, View.ld_unit_zero (S := S512x512) off_zero,
    View.ld_unit_zero (S := S1282x1536) off_zero, View.ld_unit_zero (S := S512x1536) off_zero,
    View.ld_unit_zero (S := S1x1536) off_zero]

/-- The one store is of the whole block, so it covers every index of it. -/
theorem cover0_6 (p0 : Vec F S512x512 .f32) (y : S512x512.Idx) :
    ∃ pc ∈ ([⟨rH, p0⟩] : List (View.Piece (Elt F) S512x512 .f32)), y ∈ pc.1.set :=
  ⟨_, List.mem_singleton_self _, View.mem_set_unit_zero off_zero inb_S512x512_S512x512_0_0 y⟩

/-! ## The body's triple -/

set_option maxHeartbeats 1000000 in
/-- Run on whole buffers, the six inputs' reading `x0 … x5` and the output's holding anything, the body returns
    with the inputs as they were and the output buffer reading `out0_6 x0 … x5`. -/
theorem sound_kernel0 (c : Dev nD) (E : Set ℕ) (i : grid0.Coords)
    (a0 : Memref sig .tc .vmem S512x1282 .f32) (h0 : a0.IsWhole) (a1 : Memref sig .tc .vmem S512x512 .f32) (h1 : a1.IsWhole)
    (a2 : Memref sig .tc .vmem S1282x1536 .f32) (h2 : a2.IsWhole) (a3 : Memref sig .tc .vmem S512x1536 .f32) (h3 : a3.IsWhole)
    (a4 : Memref sig .tc .vmem S1x1536 .f32) (h4 : a4.IsWhole) (a5 : Memref sig .tc .vmem S1x1536 .f32) (h5 : a5.IsWhole)
    (a6 : Memref sig .tc .vmem S512x512 .f32) (h6 : a6.IsWhole)
    (x0 : Vec F S512x1282 .f32) (x1 : Vec F S512x512 .f32) (x2 : Vec F S1282x1536 .f32) (x3 : Vec F S512x1536 .f32)
    (x4 x5 : Vec F S1x1536 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ (∃ d, owns (c : Thread nD τ) a6 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare (out0_6 x0 x1 x2 x3 x4 x5)) -∗ K ⟨⟩))
      ⊢ wp frame (wpE (defs₀ (F := F)) Variants.none c none) E (cc0__gru_kernel_body i a0 h0 a1 h1 a2 h2 a3 h3 a4 h4 a5 h5 a6 h6) K := by
  simp only [cc0__gru_kernel_body_eq_skeleton]; unfold cc0__gru_kernel_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The proof data of the GRU pipeline on core `c`: arrays as found on entry; after the body each input buffer still
    holds its block and the output buffer holds the cell of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by
  dsimp only [dat0]

/-- Each input's buffer holds its block when the body is called, at every grid point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation at a grid point -/

/-- What the body is handed at point `t`: the invariant, what is owed, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any grid point: the inputs' buffers hold their blocks, so the body's triple applies; the invariant
    and what is owed pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t)
    (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.MlpBody.lean ====
import proofs.«406328_j56736517980496_1_alg».proof.Proof.Gen.KernelIdeal.Launch
import proofs.«406328_j56736517980496_1_alg».proof.Proof.Gen.KernelIdeal.Skeleton
import proofs.«406328_j56736517980496_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second pipelined region (the two heads), body half

The region walks 16 blocks of 1024 batch rows. At each block it is handed the block of hidden states
(window 0), the eight weight and bias arrays whole (windows 1 to 8, the same block at every point), and
two result blocks (windows 9 and 10). This file states what every window's buffer holds when the body is
entered, what the body leaves in the two result buffers as a closed function of the input blocks, and
that the body run on those buffers does leave exactly that.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the part of its array, as the region finds it, that the window's
    index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: every load and store is of a whole buffer -/

abbrev r1A : Rect S1024x512 := Rect.unit (s := S1024x512) ![0, 0] S1024x512.size inb_S1024x512_S1024x512_0_0
abbrev r1B : Rect S512x512 := Rect.unit (s := S512x512) ![0, 0] S512x512.size inb_S512x512_S512x512_0_0
abbrev r1C : Rect S1x512 := Rect.unit (s := S1x512) ![0, 0] S1x512.size inb_S1x512_S1x512_0_0
abbrev r1D : Rect S512x1024 := Rect.unit (s := S512x1024) ![0, 0] S512x1024.size inb_S512x1024_S512x1024_0_0
abbrev r1E : Rect S1x1024 := Rect.unit (s := S1x1024) ![0, 0] S1x1024.size inb_S1x1024_S1x1024_0_0
abbrev r1G : Rect S512x2 := Rect.unit (s := S512x2) ![0, 0] S512x2.size inb_S512x2_S512x2_0_0
abbrev r1H : Rect S1x2 := Rect.unit (s := S1x2) ![0, 0] S1x2.size inb_S1x2_S1x2_0_0
abbrev r1_9 : Rect S1024x1024 := Rect.unit (s := S1024x1024) ![0, 0] S1024x1024.size inb_S1024x1024_S1024x1024_0_0
abbrev r1_10 : Rect S1024x2 := Rect.unit (s := S1024x2) ![0, 0] S1024x2.size inb_S1024x2_S1024x2_0_0

/-- The rectangle at offset zero of a shape's full extents is the whole shape: its embedding is the identity, so a
    load through it reads the contents as they are, -/
private theorem ld_full {S : Shape} {e : EltTy} {off : Fin S.rank → Nat} (h0 : off = fun _ => 0)
    (inb : ∀ a, off a + S.size a ≤ S.size a) (X : S.Idx → Elt F e) : View.ld X (Rect.unit off S.size inb) = X := by
  subst h0
  funext x
  show X ((Rect.whole S).emb x) = X x
  rw [Rect.emb_whole_apply]

/-- and one store through it leaves the stored value everywhere. -/
private theorem canon_full {S : Shape} {e : EltTy} {off : Fin S.rank → Nat} (h0 : off = fun _ => 0)
    (inb : ∀ a, off a + S.size a ≤ S.size a) (p : S.Idx → Elt F e) :
    View.canon [(⟨Rect.unit off S.size inb, p⟩ : View.Piece (Elt F) S e)] = p := by
  subst h0
  funext y
  have h := View.canon_cons_emb (Val := Elt F) (Rect.whole S) p [] y
  rw [Rect.emb_whole_apply] at h
  exact h

private theorem zero2 : (![0, 0] : Fin 2 → Nat) = fun _ => 0 := by
  funext a; fin_cases a <;> rfl

/-! ## What the body leaves in each result buffer -/

/-- The label head's result buffer after the body: its one store, of the log-softmax payload of the five blocks it
    loaded. -/
def out1_9 (x0 : Vec F S1024x512 .f32) (x1 : Vec F S512x512 .f32) (x2 : Vec F S1x512 .f32) (x3 : Vec F S512x1024 .f32) (x4 : Vec F S1x1024 .f32) : Vec F S1024x1024 .f32 :=
  View.canon [⟨r1_9, k1_pay3 (View.ld x0 r1A) (View.ld x1 r1B) (View.ld x2 r1C) (View.ld x3 r1D) (View.ld x4 r1E)⟩]

/-- The position head's result buffer after the body: its one store, of the sigmoid payload of the narrowed hidden
    block and the four blocks loaded after it. -/
def out1_10 (x0 : Vec F S1024x512 .f32) (x5 : Vec F S512x512 .f32) (x6 : Vec F S1x512 .f32) (x7 : Vec F S512x2 .f32) (x8 : Vec F S1x2 .f32) : Vec F S1024x2 .f32 :=
  View.canon [⟨r1_10, k1_pay1 (k1_pay2 (View.ld x0 r1A)) (View.ld x5 r1B) (View.ld x6 r1C) (View.ld x7 r1G) (View.ld x8 r1H)⟩]

/-- Every access being whole, the label head's buffer is the payload of the blocks themselves. -/
theorem out1_9_eq (x0 : Vec F S1024x512 .f32) (x1 : Vec F S512x512 .f32) (x2 : Vec F S1x512 .f32) (x3 : Vec F S512x1024 .f32) (x4 : Vec F S1x1024 .f32) :
    out1_9 x0 x1 x2 x3 x4 = k1_pay3 x0 x1 x2 x3 x4 := by
  unfold out1_9
  rw [canon_full zero2, ld_full zero2, ld_full zero2, ld_full zero2, ld_full zero2, ld_full zero2]

/-- Likewise the position head's. -/
theorem out1_10_eq (x0 : Vec F S1024x512 .f32) (x5 : Vec F S512x512 .f32) (x6 : Vec F S1x512 .f32) (x7 : Vec F S512x2 .f32) (x8 : Vec F S1x2 .f32) :
    out1_10 x0 x5 x6 x7 x8 = k1_pay1 (k1_pay2 x0) x5 x6 x7 x8 := by
  unfold out1_10
  rw [canon_full zero2, ld_full zero2, ld_full zero2, ld_full zero2, ld_full zero2, ld_full zero2]

/-- One whole store covers its buffer. -/
theorem cover1_9 (p : Vec F S1024x1024 .f32) (y : S1024x1024.Idx) :
    ∃ pc ∈ ([⟨r1_9, p⟩] : List (View.Piece (Elt F) S1024x1024 .f32)), y ∈ pc.1.set :=
  View.cover_of_tiled [⟨r1_9, p⟩] S1024x1024.size (by rfl) y

theorem cover1_10 (p : Vec F S1024x2 .f32) (y : S1024x2.Idx) :
    ∃ pc ∈ ([⟨r1_10, p⟩] : List (View.Piece (Elt F) S1024x2 .f32)), y ∈ pc.1.set :=
  View.cover_of_tiled [⟨r1_10, p⟩] S1024x2.size (by rfl) y

/-! ## What the body finds in each input buffer

An input window of a body that leaves it as found holds its block at every point, fetched there or not: where the
pipeline does not fetch, the block index has not moved since the last point, and the buffer still holds that point's
block. For window 0 every point fetches; for the eight weight and bias windows only the first does. The statement is
for any proof data whose array is the region's and whose body leaves the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

set_option maxHeartbeats 4000000 in
/-- The body run on eleven whole buffers, the nine inputs' reading `x0 … x8` and the two results' holding anything,
    returns with the inputs' as they were and the results' at `out1_9` and `out1_10` of the inputs: it loads each input
    whole, and stores each result whole once. -/
theorem sound_kernel1 (c : Dev nD) (E : Set ℕ) (i : grid1.Coords)
    (arg1 : Memref sig .tc .vmem S1024x512 .f32) (harg1 : arg1.IsWhole)
    (arg2 : Memref sig .tc .vmem S512x512 .f32) (harg2 : arg2.IsWhole)
    (arg3 : Memref sig .tc .vmem S1x512 .f32) (harg3 : arg3.IsWhole)
    (arg4 : Memref sig .tc .vmem S512x1024 .f32) (harg4 : arg4.IsWhole)
    (arg5 : Memref sig .tc .vmem S1x1024 .f32) (harg5 : arg5.IsWhole)
    (arg6 : Memref sig .tc .vmem S512x512 .f32) (harg6 : arg6.IsWhole)
    (arg7 : Memref sig .tc .vmem S1x512 .f32) (harg7 : arg7.IsWhole)
    (arg8 : Memref sig .tc .vmem S512x2 .f32) (harg8 : arg8.IsWhole)
    (arg9 : Memref sig .tc .vmem S1x2 .f32) (harg9 : arg9.IsWhole)
    (arg10 : Memref sig .tc .vmem S1024x1024 .f32) (harg10 : arg10.IsWhole)
    (arg11 : Memref sig .tc .vmem S1024x2 .f32) (harg11 : arg11.IsWhole)
    (x0 : Vec F S1024x512 .f32) (x1 : Vec F S512x512 .f32) (x2 : Vec F S1x512 .f32) (x3 : Vec F S512x1024 .f32) (x4 : Vec F S1x1024 .f32) (x5 : Vec F S512x512 .f32) (x6 : Vec F S1x512 .f32) (x7 : Vec F S512x2 .f32) (x8 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4) ∗ owns (c : Thread nD τ) arg11 fullShare (out1_10 x0 x5 x6 x7 x8)) -∗ K ⟨⟩))
      ⊢ wp frame (wpE (defs₀ (F := F)) Variants.none c none) E (cc1__mlp_heads_kernel_body i arg1 harg1 arg2 harg2 arg3 harg3 arg4 harg4 arg5 harg5 arg6 harg6 arg7 harg7 arg8 harg8 arg9 harg9 arg10 harg10 arg11 harg11) K := by
  simp only [cc1__mlp_heads_kernel_body_eq_skeleton]; unfold cc1__mlp_heads_kernel_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover1_9 _)
  iexists _; isplitr
  swap; · iexact H10
  ipureintro
  exact View.read_writes_eq_canon _ _ _ (cover1_10 _)

/-! ## The pipeline's proof data -/

/-- The proof data of the region on core `c`: the arrays as the region finds them; after the body at point `t` each
    input's buffer at its block and each result's at `out1_9`, `out1_10` of the input blocks; the invariant that of a
    body keeping nothing between points; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t)
    | ⟨10, _⟩ => out1_10 (iblk1 V c 0 t) (iblk1 V c 5 t) (iblk1 V c 6 t) (iblk1 V c 7 t) (iblk1 V c 8 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) := by dsimp only [dat1]
theorem after1_10 (c : Dev nD) (t : Fin cfg1.N) : (dat1 V c).after 10 t = out1_10 (iblk1 V c 0 t) (iblk1 V c 5 t) (iblk1 V c 6 t) (iblk1 V c 7 t) (iblk1 V c 8 t) := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`: the invariant, the core's debt, and each window's current buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 4000000 in
/-- The body at any point: the inputs' buffers hold their blocks, so the body's triple applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KRun.lean ====
import proofs.«406328_j56736517980496_1_alg».proof.Proof.GruBody
import proofs.«406328_j56736517980496_1_alg».proof.Proof.MlpBody
import proofs.«406328_j56736517980496_1_alg».proof.Proof.Gen.KernelIdeal.Regions
import proofs.«406328_j56736517980496_1_alg».proof.Proof.Gen.KernelIdeal.Launch
import proofs.«406328_j56736517980496_1_alg».proof.Proof.Gen.KernelIdeal.Skeleton
import proofs.«406328_j56736517980496_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The whole run

The program is nine pieces in a row: five stretches of plain array operations, the recurrent-cell region,
one more stretch, the two-heads region, and a last stretch. This file follows the contents of every buffer
that outlives a region through the nine pieces, from the launch memory to the return, and shows that the
run terminates with every such buffer holding exactly the last of those contents. That the argument
arrays end as they were launched is a corollary.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the memory the program is launched on
variable (m : (ℓ : Loc nD τ sig) → Buf (Elt F) ℓ)

/-! ## The buffers' contents between the pieces -/

/-- At launch. -/
abbrev U0 (c : Dev nD) : Valuation τ sig (Elt F) := fun b => m (c, b)
/-- After the first stretch, -/
abbrev U1 (c : Dev nD) : Valuation τ sig (Elt F) := StableHlo.after hostOps0 (U0 m c)
/-- the second, -/
abbrev U2 (c : Dev nD) : Valuation τ sig (Elt F) := StableHlo.after hostOps0_1 (U1 m c)
/-- the third, -/
abbrev U3 (c : Dev nD) : Valuation τ sig (Elt F) := StableHlo.after hostOps0_2 (U2 m c)
/-- the fourth, -/
abbrev U4 (c : Dev nD) : Valuation τ sig (Elt F) := StableHlo.after hostOps0_3 (U3 m c)
/-- and the fifth: what the recurrent-cell region is entered with. -/
abbrev U5 (c : Dev nD) : Valuation τ sig (Elt F) := StableHlo.after hostOps0_4 (U4 m c)
/-- The same, read at the core's own references. -/
abbrev T5 : (c : Dev nD) → (b : Ref sig .tc) → Buf (Elt F) ((c : Thread nD τ).loc b) := fun c b => U5 m c b
/-- When the recurrent-cell region is left: each of its arrays at what the walk over the grid leaves there,
    every other buffer as it was. -/
def U6 (c : Dev nD) : Valuation τ sig (Elt F) :=
  Pipeline.withArrays spec0 c (U5 m c) fun w => (dat0 (T5 m) c).arrAt w cfg0.N
/-- After the stretch between the regions: what the two-heads region is entered with. -/
abbrev U7 (c : Dev nD) : Valuation τ sig (Elt F) := StableHlo.after hostOps1 (U6 m c)
/-- The same, read at the core's own references. -/
abbrev T7 : (c : Dev nD) → (b : Ref sig .tc) → Buf (Elt F) ((c : Thread nD τ).loc b) := fun c b => U7 m c b
/-- When the two-heads region is left. -/
def U8 (c : Dev nD) : Valuation τ sig (Elt F) :=
  Pipeline.withArrays spec1 c (U7 m c) fun w => (dat1 (T7 m) c).arrAt w cfg1.N
/-- After the last stretch: at the return. -/
abbrev U9 (c : Dev nD) : Valuation τ sig (Elt F) := StableHlo.after hostOps2 (U8 m c)

/-! ## What a region changes and what it keeps -/

/-- Leaving the recurrent-cell region, each of its arrays holds what the walk over the grid leaves in it. -/
theorem U6_arr (c : Dev nD) (w : Fin cfg0.W) :
    U6 m c (Proc.devRef .tc (Pipeline.arrRef spec0 w)) = (dat0 (T5 m) c).arrAt w cfg0.N := by
  unfold U6; exact Pipeline.withArrays_arr spec0 launch0.win.arr_inj c _ _ w

/-- A buffer that is none of the region's arrays is as it was. -/
theorem U6_of_ne (c : Dev nD) (b : Ref sig .tc) (hb : ∀ w, Pipeline.arrRef spec0 w ≠ b) :
    U6 m c (Proc.devRef .tc b) = U5 m c (Proc.devRef .tc b) := by
  unfold U6; exact Pipeline.withArrays_of_ne spec0 c _ _ b hb

/-- The hidden-state array is the region's one result. -/
theorem U6_out (c : Dev nD) : U6 m c (Proc.devRef .tc main_v14) = (dat0 (T5 m) c).arrAt 6 cfg0.N :=
  U6_arr m c 6

/-- Every array of the region other than its result is only read. -/
theorem in0_of_ne : ∀ w : Fin 7, Pipeline.arrRef spec0 w ≠ main_v14 → (win0 w).isOut = false := by decide

/-- Every buffer but the result is as the region found it: an array that is only read is handed back as it
    was entered, and a buffer the region has no window on is not touched. -/
theorem U6_keep (c : Dev nD) (b : Ref sig .tc) (hb : b ≠ main_v14) : U6 m c (Proc.devRef .tc b) = U5 m c (Proc.devRef .tc b) := by
  by_cases h : ∃ w : Fin cfg0.W, Pipeline.arrRef spec0 w = b
  · obtain ⟨w, rfl⟩ := h
    exact (U6_arr m c w).trans (((dat0 (T5 m) c).arrAt_in w (in0_of_ne w hb) _).trans (A_eq0 (T5 m) c w))
  · exact U6_of_ne m c b fun w e => h ⟨w, e⟩

/-- Leaving the two-heads region, each of its arrays holds what the walk over the grid leaves in it. -/
theorem U8_arr (c : Dev nD) (w : Fin cfg1.W) :
    U8 m c (Proc.devRef .tc (Pipeline.arrRef spec1 w)) = (dat1 (T7 m) c).arrAt w cfg1.N := by
  unfold U8; exact Pipeline.withArrays_arr spec1 launch1.win.arr_inj c _ _ w

/-- A buffer that is none of the region's arrays is as it was. -/
theorem U8_of_ne (c : Dev nD) (b : Ref sig .tc) (hb : ∀ w, Pipeline.arrRef spec1 w ≠ b) :
    U8 m c (Proc.devRef .tc b) = U7 m c (Proc.devRef .tc b) := by
  unfold U8; exact Pipeline.withArrays_of_ne spec1 c _ _ b hb

/-- The label head's result array. -/
theorem U8_out0 (c : Dev nD) : U8 m c (Proc.devRef .tc main_v23_0) = (dat1 (T7 m) c).arrAt 9 cfg1.N :=
  U8_arr m c 9

/-- The position head's result array. -/
theorem U8_out1 (c : Dev nD) : U8 m c (Proc.devRef .tc main_v23_1) = (dat1 (T7 m) c).arrAt 10 cfg1.N :=
  U8_arr m c 10

/-- Every array of the region other than its two results is only read. -/
theorem in1_of_ne : ∀ w : Fin 11, Pipeline.arrRef spec1 w ≠ main_v23_0 → Pipeline.arrRef spec1 w ≠ main_v23_1 → (win1 w).isOut = false := by
  decide

/-- Every buffer but the two results is as the region found it. -/
theorem U8_keep (c : Dev nD) (b : Ref sig .tc) (hb0 : b ≠ main_v23_0) (hb1 : b ≠ main_v23_1) :
    U8 m c (Proc.devRef .tc b) = U7 m c (Proc.devRef .tc b) := by
  by_cases h : ∃ w : Fin cfg1.W, Pipeline.arrRef spec1 w = b
  · obtain ⟨w, rfl⟩ := h
    exact (U8_arr m c w).trans (((dat1 (T7 m) c).arrAt_in w (in1_of_ne w hb0 hb1) _).trans (A_eq1 (T7 m) c w))
  · exact U8_of_ne m c b fun w e => h ⟨w, e⟩

/-! ## The argument arrays are never changed -/

/-- No stretch has an argument array among the buffers it writes, and no argument array is a region's result. -/
theorem arg_untouched : ∀ b ∈ ([main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20] : List (Ref sig .tc)),
    b ∉ hostOps0_W ∧ b ∉ hostOps0_1_W ∧ b ∉ hostOps0_2_W ∧ b ∉ hostOps0_3_W ∧ b ∉ hostOps0_4_W ∧ b ≠ main_v14
      ∧ b ∉ hostOps1_W ∧ b ≠ main_v23_0 ∧ b ≠ main_v23_1 ∧ b ∉ hostOps2_W := by
  decide

/-- So an argument array holds at the return what it held at launch: walk back through the nine pieces. -/
theorem U9_arg (c : Dev nD) (b : Ref sig .tc)
    (hb : b ∈ ([main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20] : List (Ref sig .tc))) :
    U9 m c (Proc.devRef .tc b) = m ((c : Thread nD τ).loc b) := by
  obtain ⟨h0, h1, h2, h3, h4, e14, h6, e230, e231, h8⟩ := arg_untouched b hb
  calc U9 m c (Proc.devRef .tc b)
    _ = U8 m c (Proc.devRef .tc b) := StableHlo.after_of_writes_sub hostOps2 _ hostOps2_writes h8
    _ = U7 m c (Proc.devRef .tc b) := U8_keep m c b e230 e231
    _ = U6 m c (Proc.devRef .tc b) := StableHlo.after_of_writes_sub hostOps1 _ hostOps1_writes h6
    _ = U5 m c (Proc.devRef .tc b) := U6_keep m c b e14
    _ = U4 m c (Proc.devRef .tc b) := StableHlo.after_of_writes_sub hostOps0_4 _ hostOps0_4_writes h4
    _ = U3 m c (Proc.devRef .tc b) := StableHlo.after_of_writes_sub hostOps0_3 _ hostOps0_3_writes h3
    _ = U2 m c (Proc.devRef .tc b) := StableHlo.after_of_writes_sub hostOps0_2 _ hostOps0_2_writes h2
    _ = U1 m c (Proc.devRef .tc b) := StableHlo.after_of_writes_sub hostOps0_1 _ hostOps0_1_writes h1
    _ = U0 m c (Proc.devRef .tc b) := StableHlo.after_of_writes_sub hostOps0 _ hostOps0_writes h0
    _ = m ((c : Thread nD τ).loc b) := rfl

/-! ## The pieces of the run -/

/-- The contents on leaving each region, read at the core's own references. -/
abbrev T6 : (c : Dev nD) → (b : Ref sig .tc) → Buf (Elt F) ((c : Thread nD τ).loc b) := fun c b => U6 m c b
abbrev T8 : (c : Dev nD) → (b : Ref sig .tc) → Buf (Elt F) ((c : Thread nD τ).loc b) := fun c b => U8 m c b

/-- The two facts that put a region's arrays back among the long-lived buffers: the leaving contents have each
    array at what the walk leaves, and agree with the entering contents everywhere else. -/
theorem hF0 (c : Dev nD) (w : Fin cfg0.W) : (dat0 (T5 m) c).arrAt w cfg0.N = T6 m c (Pipeline.arrRef spec0 w) :=
  (U6_arr m c w).symm
theorem hrest0 (c : Dev nD) : ∀ b, b ∉ Finset.univ.image (Pipeline.arrRef spec0) → T6 m c b = T5 m c b :=
  fun b hb => U6_of_ne m c b fun w e => hb (Finset.mem_image.mpr ⟨w, Finset.mem_univ _, e⟩)
theorem hF1 (c : Dev nD) (w : Fin cfg1.W) : (dat1 (T7 m) c).arrAt w cfg1.N = T8 m c (Pipeline.arrRef spec1 w) :=
  (U8_arr m c w).symm
theorem hrest1 (c : Dev nD) : ∀ b, b ∉ Finset.univ.image (Pipeline.arrRef spec1) → T8 m c b = T7 m c b :=
  fun b hb => U8_of_ne m c b fun w e => hb (Finset.mem_image.mpr ⟨w, Finset.mem_univ _, e⟩)

/-- Each region's proof data, taken at the contents that region is entered with. -/
def kdats : (p : Fin 2) → (c : Dev nD) → Dat τ (Elt F) Unit ℕ (UR sig nD τ) ℕ (Pipeline.pin (pcfgs (F := F)) adm p) c
  | ⟨0, _⟩ => fun c => dat0 (T5 m) c
  | ⟨1, _⟩ => fun c => dat1 (T7 m) c

abbrev 𝒱ₖ : Variants := Variants.none
/-- No core ever owes another a signal: no pair of cores is given a level. -/
abbrev Lₖ : GSem nD τ sig → Finset Unit := fun _ => ∅
abbrev lvₖ : GSem nD τ sig → Unit → ℕ := fun _ _ => 0
/-- What a core holds beside its buffers all the way through: its generator register at some state, and the
    record that it owes nothing. -/
abbrev Rₖ (c : Dev nD) : sProp 𝕄 := iprop((∃ r, prngReg c r) ∗ ∃ W, owes (c : Thread nD τ) (0 : CellTallies nD τ sig Unit) W)

/-- A stretch of plain array operations as a piece of the run: holding every long-lived buffer at `W`, it ends
    holding them at what the operations make of `W`, the rest of the core's state untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱ₖ Lₖ lvₖ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rₖ

/-- A long-lived buffer of the core is one of those the core's state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The core's state at the return, without the owing record: every long-lived buffer at the last contents, the
    generator register at some state. -/
abbrev Tfin (c : Dev nD) : sProp 𝕄 := iprop(StableHlo.held (c : Thread nD τ) (Pipeline.ucRefs τ sig) (U9 m c) ∗ ∃ r, prngReg c r)

set_option backward.isDefEq.respectTransparency.types false in
/-- The recurrent-cell region as a piece of the run. It is entered holding every long-lived buffer at `U5` and
    left holding them at `U6`: on entry its arrays are taken out of that holding, on exit they are put back at
    the contents the walk leaves, and the rest is never touched. The generator register passes through the
    region's invariant; the core owes nothing before or after; the kernel has no semaphore of its own. -/
def reg0 : Pipeline.RegionSeg (pcfgs (F := F)) adm (kdats m) () defs₀ 𝒱ₖ Lₖ lvₖ 0 where
  win := launch0.win.to₀
  block_pos := launch0.block_pos
  stage_whole := launch0.stage_whole
  K := PEmpty
  osem k := k.elim
  ho := Pipeline.OwnSemFacts.none _
  hbody c := (body_obligation0 (T5 m) c).loose
  hwaits := Pipeline.hwaits_of_owed_zero _ _ _ _ Lₖ lvₖ 0 fun _ _ => rfl
  pre c := iprop(StableHlo.held (c : Thread nD τ) (Pipeline.ucRefs τ sig) (U5 m c) ∗ Rₖ c)
  post c := iprop(StableHlo.held (c : Thread nD τ) (Pipeline.ucRefs τ sig) (U6 m c) ∗ Rₖ c)
  X c := iprop(∃ r, prngReg c r)
  Y c := iprop(∃ r, prngReg c r)
  Z c := Pipeline.unscopedRest (Ix := Unit) (Name := ℕ) (U := UR sig nD τ) (Lvl := ℕ) spec0 c (T5 m c)
  hentry c := by
    rw [Pipeline.ownSems0_none]
    have hsplit := Pipeline.arrays_of_unscopedBufs (p := 0) (pcfgs (F := F)) adm (kdats m) launch0.win launch0.arr_whole c
      ((kdats m 0 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (kdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (kdats m) ((kdats m 0 c).share_full fun _ => rfl)
      (T5 m c) (T6 m c) ((kdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The two-heads region as a piece of the run. It is entered holding every long-lived buffer at `U7` and
    left holding them at `U8`: on entry its arrays are taken out of that holding, on exit they are put back at
    the contents the walk leaves, and the rest is never touched. The generator register passes through the
    region's invariant; the core owes nothing before or after; the kernel has no semaphore of its own. -/
def reg1 : Pipeline.RegionSeg (pcfgs (F := F)) adm (kdats m) () defs₀ 𝒱ₖ Lₖ lvₖ 1 where
  win := launch1.win.to₀
  block_pos := launch1.block_pos
  stage_whole := launch1.stage_whole
  K := PEmpty
  osem k := k.elim
  ho := Pipeline.OwnSemFacts.none _
  hbody c := (body_obligation1 (T7 m) c).loose
  hwaits := Pipeline.hwaits_of_owed_zero _ _ _ _ Lₖ lvₖ 1 fun _ _ => rfl
  pre c := iprop(StableHlo.held (c : Thread nD τ) (Pipeline.ucRefs τ sig) (U7 m c) ∗ Rₖ c)
  post c := iprop(StableHlo.held (c : Thread nD τ) (Pipeline.ucRefs τ sig) (U8 m c) ∗ Rₖ c)
  X c := iprop(∃ r, prngReg c r)
  Y c := iprop(∃ r, prngReg c r)
  Z c := Pipeline.unscopedRest (Ix := Unit) (Name := ℕ) (U := UR sig nD τ) (Lvl := ℕ) spec1 c (T7 m c)
  hentry c := by
    rw [Pipeline.ownSems0_none]
    have hsplit := Pipeline.arrays_of_unscopedBufs (p := 1) (pcfgs (F := F)) adm (kdats m) launch1.win launch1.arr_whole c
      ((kdats m 1 c).share_full fun _ => rfl) (T7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (kdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (kdats m) ((kdats m 1 c).share_full fun _ => rfl)
      (T7 m c) (T8 m c) ((kdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program is its nine pieces, and the launch -/

/-- At the return the owing record stands beside the rest of the core's state: separating conjunction is associative. -/
theorem fin_split (c : Dev nD) :
    (iprop(StableHlo.held (c : Thread nD τ) (Pipeline.ucRefs τ sig) (U9 m c) ∗ Rₖ c) : sProp 𝕄)
      ⊢ iprop(Tfin m c ∗ ∃ W, owes (c : Thread nD τ) (0 : CellTallies nD τ sig Unit) W) := by
  iintro ⟨Hh, Hp, HO⟩
  isplitl [Hh Hp]
  · isplitl [Hh] <;> iassumption
  iexact HO

/-- The nine pieces in order, each stretch started from the contents the piece before it leaves. -/
abbrev ksegs : List (Pipeline.Seg (pcfgs (F := F)) adm (kdats m) () defs₀ 𝒱ₖ Lₖ lvₖ) :=
  [ .host (hseg hostOps0 hostOps0_sub hostOps0_fresh (U0 m)),
    .host (hseg hostOps0_1 hostOps0_1_sub hostOps0_1_fresh (U1 m)),
    .host (hseg hostOps0_2 hostOps0_2_sub hostOps0_2_fresh (U2 m)),
    .host (hseg hostOps0_3 hostOps0_3_sub hostOps0_3_fresh (U3 m)),
    .host (hseg hostOps0_4 hostOps0_4_sub hostOps0_4_fresh (U4 m)),
    .region (reg0 m),
    .host (hseg hostOps1 hostOps1_sub hostOps1_fresh (U6 m)),
    .region (reg1 m),
    .host (hseg hostOps2 hostOps2_sub hostOps2_fresh (U8 m)) ]

/-- The pieces' programs, one after another, are the program's own list of items. -/
theorem ksegs_progs : (ksegs m).map Pipeline.Seg.prog =
    ([ StableHlo.seq hostOps0,
      StableHlo.seq hostOps0_1,
      StableHlo.seq hostOps0_2,
      StableHlo.seq hostOps0_3,
      StableHlo.seq hostOps0_4,
      Prog.lift (.customCall (Pipeline.entry 0) ()),
      StableHlo.seq hostOps1,
      Prog.lift (.customCall (Pipeline.entry 1) ()),
      StableHlo.seq hostOps2 ] : List (Prog (TpuEff nD τ sig (Elt F) (Pipeline.Sig Λ₀ (Fin 2) fun p => (pcfgs (F := F) p).Adm) .tc) PUnit)) :=
  rfl

/-- So the program is the run of the nine pieces. -/
theorem main_run (c : Dev nD) : main (F := F) c = Pipeline.Seg.run (ksegs m) := by
  rw [main_chain c, Pipeline.Seg.run_eq_chain, ksegs_progs]

set_option backward.isDefEq.respectTransparency.types false in
/-- THE RUN. From any memory with every semaphore at zero, every fair execution of the program on the cores
    terminates without fault, and at the end every long-lived buffer of every core holds the last contents `U9`. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = U9 m c b) :=
  Pipeline.θ_run_regions_kit (pcfgs (F := F)) adm (kdats m) () cellOf_inj emb₁ defs₀ 𝒱ₖ Lₖ lvₖ m ρ main (ksegs m)
    (fun c Q => by rw [main_run m c])
    (by simp only [ksegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ Rₖ c)) (Tₙ := Tfin m)
    (hch := ⟨fun _ => .rfl, fun _ => .rfl, fun _ => .rfl, fun _ => .rfl, fun _ => .rfl, fun _ => .rfl, fun _ => .rfl,
      fun _ => .rfl, fun _ => .rfl, fun c => fin_split m c⟩)
    (hinit := by
      refine Pipeline.initEach Lₖ lvₖ fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U9 m c b)
    (hfin := fun c s' => by
      iintro ⟨⟨Hh, -⟩, HSI⟩
      unfold StableHlo.held
      imodintro
      iapply (pointsTo_read_all (Pipeline.ucRefs τ sig) (fun b => (((c : Thread nD τ)).1, b)) (U9 m c) s')
      isplitl [Hh] <;> iassumption)
    (hQ := fun s h c => h c)

/-! ## The frame -/

/-- An argument array, read in the final state, is what it was at launch. -/
theorem arg_final {r : PUnit × MemSt nD τ sig (Elt F)}
    (h : ∀ c : Dev nD, ∀ b ∈ Pipeline.ucRefs τ sig, r.2.mem (((c : Thread nD τ)).1, b) = U9 m c b) (c : Dev nD) (b : Ref sig .tc)
    (hu : ¬ (Proc.devRef .tc b : DevRef τ sig).isScoped)
    (hb : b ∈ ([main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20] : List (Ref sig .tc))) :
    r.2.mem ((c.tc : Thread nD τ).loc b) = m ((c.tc : Thread nD τ).loc b) :=
  (h c _ (mem_uc b hu)).trans (U9_arg m c b hb)

/-- THE FRAME: the run terminates and every argument array ends as it was launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c =>
    ⟨arg_final m h c main_arg0 (by decide) (by decide),
     arg_final m h c main_arg1 (by decide) (by decide),
     arg_final m h c main_arg2 (by decide) (by decide),
     arg_final m h c main_arg3 (by decide) (by decide),
     arg_final m h c main_arg4 (by decide) (by decide),
     arg_final m h c main_arg5 (by decide) (by decide),
     arg_final m h c main_arg6 (by decide) (by decide),
     arg_final m h c main_arg7 (by decide) (by decide),
     arg_final m h c main_arg8 (by decide) (by decide),
     arg_final m h c main_arg9 (by decide) (by decide),
     arg_final m h c main_arg10 (by decide) (by decide),
     arg_final m h c main_arg11 (by decide) (by decide),
     arg_final m h c main_arg12 (by decide) (by decide),
     arg_final m h c main_arg13 (by decide) (by decide),
     arg_final m h c main_arg14 (by decide) (by decide),
     arg_final m h c main_arg15 (by decide) (by decide),
     arg_final m h c main_arg16 (by decide) (by decide),
     arg_final m h c main_arg17 (by decide) (by decide),
     arg_final m h c main_arg18 (by decide) (by decide),
     arg_final m h c main_arg19 (by decide) (by decide),
     arg_final m h c main_arg20 (by decide) (by decide)⟩)
    (run_all m ρ)

end Cert.KernelIdeal.Hand

end
-- ==== Proof.Spec.lean ====
/-
  The mathematics both programs compute, row by row, on the extended reals.

  One batch row of the network is a function of that row alone: the GRU cell maps the row's input features `xr`
  (1282 of them) and its previous hidden state `hr` (512) to the new hidden state; the two heads map a hidden row to
  1024 log-probabilities (a log-softmax over the row) and to 2 sigmoid outputs. The kernel computes these on blocks of
  512 or 1024 rows, the reference on all 16384 rows at once; both are the row functions below applied to each row.
  Weights are taken in the layout the matrix products consume them in (contraction axis first), biases as one-row
  arrays.
-/
import Idealize.ShloMosaic.PureOps.Ideal
import Idealize.ShloMosaic.Lib.ValueIdx

noncomputable section

namespace Cert.Spec

open Idealize.ShloMosaic Idealize.ShloMosaic.ValueIdx

/-- A rank-2 array of extended reals. -/
abbrev A2 (a b : Nat) : Type := (⟨2, ![a, b]⟩ : Shape).Idx → EReal

/-- One output column of an affine layer on one row: `∑ₖ xr k · w[k, c] + b[0, c]`. -/
def affine {K N : Nat} (xr : Fin K → EReal) (w : A2 K N) (b : A2 1 N) (c : Fin N) : EReal :=
  (∑ k : Fin K, xr k * w (ix2 k c)) + b (ix2 0 c)

/-- The negative slope of the leaky rectifier, the f32 nearest 0.01, as both programs carry it. -/
abbrev slope : EReal := Ideal.ofBits .f32 0x3C23D70A#32

/-- The leaky rectifier: `x` where `x ≥ 0`, `slope · x` elsewhere. -/
def leaky (x : EReal) : EReal := Scalar.select (Ideal.cmp .oge x 0) x (slope * x)

/-- Columns `j`, `512 + j`, `1024 + j` of the 1536 gate pre-activations: the reset, update and candidate gates. -/
abbrev colR (j : Fin 512) : Fin 1536 := ⟨j.val, by omega⟩
abbrev colZ (j : Fin 512) : Fin 1536 := ⟨512 + j.val, by omega⟩
abbrev colN (j : Fin 512) : Fin 1536 := ⟨1024 + j.val, by omega⟩

/-- The GRU cell on one row: with `gx = xr·W₁ + b₁`, `gh = hr·W₂ + b₂`,
    `r = σ(gxᵣ + ghᵣ)`, `z = σ(gx_z + gh_z)`, `n = tanh(gxₙ + r · ghₙ)`, the new state is `(1 − z)·n + z·hr`. -/
def gruCell (xr : Fin 1282 → EReal) (hr : Fin 512 → EReal) (w1 : A2 1282 1536) (w2 : A2 512 1536) (b1 b2 : A2 1 1536)
    (j : Fin 512) : EReal :=
  let gx := affine xr w1 b1
  let gh := affine hr w2 b2
  let r := Ideal.logistic (gx (colR j) + gh (colR j))
  let z := Ideal.logistic (gx (colZ j) + gh (colZ j))
  let n := Ideal.tanh (gx (colN j) + r * gh (colN j))
  (1 - z) * n + z * hr j

/-- The hidden layer of a head on one row: an affine layer then the leaky rectifier. -/
def hiddenRow (hr : Fin 512 → EReal) (w1 : A2 512 512) (b1 : A2 1 512) (c : Fin 512) : EReal :=
  leaky (affine hr w1 b1 c)

/-- The label head's logits on one row. -/
def logitsRow (hr : Fin 512 → EReal) (w1 : A2 512 512) (b1 : A2 1 512) (w2 : A2 512 1024) (b2 : A2 1 1024) (c : Fin 1024) : EReal :=
  affine (hiddenRow hr w1 b1) w2 b2 c

/-- The label head on one row: the log-softmax of the row's logits, shifted by the row maximum:
    `(t v − M) − log ∑_c exp (t c − M)`, `M = max_c t c`. -/
def typeCell (hr : Fin 512 → EReal) (w1 : A2 512 512) (b1 : A2 1 512) (w2 : A2 512 1024) (b2 : A2 1 1024) (v : Fin 1024) : EReal :=
  let t := logitsRow hr w1 b1 w2 b2
  let M := (Finset.univ : Finset (Fin 1024)).fold max ⊥ t
  (t v - M) - Ideal.log (∑ c : Fin 1024, Ideal.exp (t c - M))

/-- The position head on one row: the sigmoid of an affine layer of the hidden layer. -/
def posCell (hr : Fin 512 → EReal) (w1 : A2 512 512) (b1 : A2 1 512) (w2 : A2 512 2) (b2 : A2 1 2) (v : Fin 2) : EReal :=
  Ideal.logistic (affine (hiddenRow hr w1 b1) w2 b2 v)

/-- A rank-1 array as the one-row array holding it: entry `[0, c]` is `b[c]`. -/
abbrev rowOf {N : Nat} (b : (⟨1, ![N]⟩ : Shape).Idx → EReal) : A2 1 N := fun idx => b (ix1 (idx 1))

/-- Row `i` of a rank-2 array. -/
abbrev row {R C : Nat} (x : A2 R C) (i : Fin R) : Fin C → EReal := fun k => x (ix2 i k)

/-- The GRU cell on every row of a batch of `R` rows. -/
def gruK {R : Nat} (x : A2 R 1282) (h : A2 R 512) (w1 : A2 1282 1536) (w2 : A2 512 1536) (b1 b2 : A2 1 1536) : A2 R 512 :=
  fun idx => gruCell (row x (idx 0)) (row h (idx 0)) w1 w2 b1 b2 (idx 1)

/-- The label head on every row. -/
def typeK {R : Nat} (h : A2 R 512) (w1 : A2 512 512) (b1 : A2 1 512) (w2 : A2 512 1024) (b2 : A2 1 1024) : A2 R 1024 :=
  fun idx => typeCell (row h (idx 0)) w1 b1 w2 b2 (idx 1)

/-- The position head on every row. -/
def posK {R : Nat} (h : A2 R 512) (w1 : A2 512 512) (b1 : A2 1 512) (w2 : A2 512 2) (b2 : A2 1 2) : A2 R 2 :=
  fun idx => posCell (row h (idx 0)) w1 b1 w2 b2 (idx 1)

end Cert.Spec

end
-- ==== Proof.GruPay.lean ====
/-
  The GRU cell's block computation, element by element: at row `p` and column `q` of a block of 512 rows the body's
  arithmetic — two matrix products with bias rows, three column slices of each at offsets 0, 512 and 1024, two logistic
  gates, a hyperbolic tangent and the convex combination `(1 − z)·n + z·h` — is the specification's cell on row `p`.
-/
import proofs.«406328_j56736517980496_1_alg».proof.Proof.Gen.KernelIdeal.Skeleton
import proofs.«406328_j56736517980496_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.Bridge.GruPay

open Cert.KernelIdeal Cert.KernelIdeal.Gen Cert.Spec Idealize.ShloMosaic Idealize.ShloMosaic.ValueIdx

/-! ## The two matrix products at an output index

Each product contracts the left operand's axis 1 against the right operand's axis 0; there is no batch axis. Its operand
indices at output index `(p, c)` and contraction position `k` are `(p, k)` and `(k, c)`, axis by axis. -/

theorem lhs_x_0 (i : S512x1536.Idx) (q : dot_S512x1282_S1282x1536_S512x1536_1_0_0_1_n_n.contr.Idx) :
    (dot_S512x1282_S1282x1536_S512x1536_1_0_0_1_n_n.lhsIdx i q 0).val = (i 0).val := by
  unfold DotDims.lhsIdx
  rw [dif_neg (show ¬(0 : Fin S512x1282.rank) ∈ dot_S512x1282_S1282x1536_S512x1536_1_0_0_1_n_n.lhsBatch by decide),
    dif_pos (show (0 : Fin S512x1282.rank) ∈ dot_S512x1282_S1282x1536_S512x1536_1_0_0_1_n_n.lhsNonContracting by decide)]
  rfl

theorem lhs_x_1 (i : S512x1536.Idx) (q : dot_S512x1282_S1282x1536_S512x1536_1_0_0_1_n_n.contr.Idx) :
    (dot_S512x1282_S1282x1536_S512x1536_1_0_0_1_n_n.lhsIdx i q 1).val = (q ⟨0, by decide⟩).val :=
  dot_S512x1282_S1282x1536_S512x1536_1_0_0_1_n_n.lhsIdx_val_of_single rfl i q

theorem rhs_x_0 (i : S512x1536.Idx) (q : dot_S512x1282_S1282x1536_S512x1536_1_0_0_1_n_n.contr.Idx) :
    (dot_S512x1282_S1282x1536_S512x1536_1_0_0_1_n_n.rhsIdx i q 0).val = (q ⟨0, by decide⟩).val :=
  dot_S512x1282_S1282x1536_S512x1536_1_0_0_1_n_n.rhsIdx_val_of_single rfl i q

theorem rhs_x_1 (i : S512x1536.Idx) (q : dot_S512x1282_S1282x1536_S512x1536_1_0_0_1_n_n.contr.Idx) :
    (dot_S512x1282_S1282x1536_S512x1536_1_0_0_1_n_n.rhsIdx i q 1).val = (i 1).val := by
  unfold DotDims.rhsIdx
  rw [dif_neg (show ¬(1 : Fin S1282x1536.rank) ∈ dot_S512x1282_S1282x1536_S512x1536_1_0_0_1_n_n.rhsBatch by decide),
    dif_pos (show (1 : Fin S1282x1536.rank) ∈ dot_S512x1282_S1282x1536_S512x1536_1_0_0_1_n_n.rhsNonContracting by decide)]
  rfl

theorem lhs_h_0 (i : S512x1536.Idx) (q : dot_S512x512_S512x1536_S512x1536_1_0_0_1_n_n.contr.Idx) :
    (dot_S512x512_S512x1536_S512x1536_1_0_0_1_n_n.lhsIdx i q 0).val = (i 0).val := by
  unfold DotDims.lhsIdx
  rw [dif_neg (show ¬(0 : Fin S512x512.rank) ∈ dot_S512x512_S512x1536_S512x1536_1_0_0_1_n_n.lhsBatch by decide),
    dif_pos (show (0 : Fin S512x512.rank) ∈ dot_S512x512_S512x1536_S512x1536_1_0_0_1_n_n.lhsNonContracting by decide)]
  rfl

theorem lhs_h_1 (i : S512x1536.Idx) (q : dot_S512x512_S512x1536_S512x1536_1_0_0_1_n_n.contr.Idx) :
    (dot_S512x512_S512x1536_S512x1536_1_0_0_1_n_n.lhsIdx i q 1).val = (q ⟨0, by decide⟩).val :=
  dot_S512x512_S512x1536_S512x1536_1_0_0_1_n_n.lhsIdx_val_of_single rfl i q

theorem rhs_h_0 (i : S512x1536.Idx) (q : dot_S512x512_S512x1536_S512x1536_1_0_0_1_n_n.contr.Idx) :
    (dot_S512x512_S512x1536_S512x1536_1_0_0_1_n_n.rhsIdx i q 0).val = (q ⟨0, by decide⟩).val :=
  dot_S512x512_S512x1536_S512x1536_1_0_0_1_n_n.rhsIdx_val_of_single rfl i q

theorem rhs_h_1 (i : S512x1536.Idx) (q : dot_S512x512_S512x1536_S512x1536_1_0_0_1_n_n.contr.Idx) :
    (dot_S512x512_S512x1536_S512x1536_1_0_0_1_n_n.rhsIdx i q 1).val = (i 1).val := by
  unfold DotDims.rhsIdx
  rw [dif_neg (show ¬(1 : Fin S512x1536.rank) ∈ dot_S512x512_S512x1536_S512x1536_1_0_0_1_n_n.rhsBatch by decide),
    dif_pos (show (1 : Fin S512x1536.rank) ∈ dot_S512x512_S512x1536_S512x1536_1_0_0_1_n_n.rhsNonContracting by decide)]
  rfl

/-- The input product into the zero accumulator, at row `p` and column `c`: the sum over the contracted
    coordinate of the operands' products. -/
theorem matmul_x_apply (x : FVec Ideal S512x1282 .bf16) (w : FVec Ideal S1282x1536 .bf16) (p : Fin 512) (c : Fin 1536) :
    matmul dot_S512x1282_S1282x1536_S512x1536_1_0_0_1_n_n none x w (constant (F := Ideal) S512x1536 .f32 0x00000000#32) (ix2 p c)
      = ∑ k : Fin 1282, x (ix2 p k) * w (ix2 k c) := by
  simp only [matmul]
  rw [Ideal.matmul_constant_zero_apply, ← Equiv.sum_comp (contrEquiv1 dot_S512x1282_S1282x1536_S512x1536_1_0_0_1_n_n 1282 rfl rfl).symm]
  refine Finset.sum_congr rfl fun k _ => ?_
  have hk := contrEquiv1_symm_val dot_S512x1282_S1282x1536_S512x1536_1_0_0_1_n_n 1282 rfl rfl k
  have el : dot_S512x1282_S1282x1536_S512x1536_1_0_0_1_n_n.lhsIdx (ix2 p c) ((contrEquiv1 dot_S512x1282_S1282x1536_S512x1536_1_0_0_1_n_n 1282 rfl rfl).symm k) = ix2 p k :=
    funext fun a => Fin.ext (by
      match a with
      | ⟨0, _⟩ => exact lhs_x_0 _ _
      | ⟨1, _⟩ => exact (lhs_x_1 _ _).trans hk)
  have er : dot_S512x1282_S1282x1536_S512x1536_1_0_0_1_n_n.rhsIdx (ix2 p c) ((contrEquiv1 dot_S512x1282_S1282x1536_S512x1536_1_0_0_1_n_n 1282 rfl rfl).symm k) = ix2 k c :=
    funext fun a => Fin.ext (by
      match a with
      | ⟨0, _⟩ => exact (rhs_x_0 _ _).trans hk
      | ⟨1, _⟩ => exact rhs_x_1 _ _)
  rw [el, er]

/-- The hidden-state product into the zero accumulator, at row `p` and column `c`: the sum over the contracted
    coordinate of the operands' products. -/
theorem matmul_h_apply (x : FVec Ideal S512x512 .bf16) (w : FVec Ideal S512x1536 .bf16) (p : Fin 512) (c : Fin 1536) :
    matmul dot_S512x512_S512x1536_S512x1536_1_0_0_1_n_n none x w (constant (F := Ideal) S512x1536 .f32 0x00000000#32) (ix2 p c)
      = ∑ k : Fin 512, x (ix2 p k) * w (ix2 k c) := by
  simp only [matmul]
  rw [Ideal.matmul_constant_zero_apply, ← Equiv.sum_comp (contrEquiv1 dot_S512x512_S512x1536_S512x1536_1_0_0_1_n_n 512 rfl rfl).symm]
  refine Finset.sum_congr rfl fun k _ => ?_
  have hk := contrEquiv1_symm_val dot_S512x512_S512x1536_S512x1536_1_0_0_1_n_n 512 rfl rfl k
  have el : dot_S512x512_S512x1536_S512x1536_1_0_0_1_n_n.lhsIdx (ix2 p c) ((contrEquiv1 dot_S512x512_S512x1536_S512x1536_1_0_0_1_n_n 512 rfl rfl).symm k) = ix2 p k :=
    funext fun a => Fin.ext (by
      match a with
      | ⟨0, _⟩ => exact lhs_h_0 _ _
      | ⟨1, _⟩ => exact (lhs_h_1 _ _).trans hk)
  have er : dot_S512x512_S512x1536_S512x1536_1_0_0_1_n_n.rhsIdx (ix2 p c) ((contrEquiv1 dot_S512x512_S512x1536_S512x1536_1_0_0_1_n_n 512 rfl rfl).symm k) = ix2 k c :=
    funext fun a => Fin.ext (by
      match a with
      | ⟨0, _⟩ => exact (rhs_h_0 _ _).trans hk
      | ⟨1, _⟩ => exact rhs_h_1 _ _)
  rw [el, er]

/-! ## The two affine layers -/

/-- The input affine layer as the body spells it — the product of the operands (their format change is the identity on
    extended reals) into zero, plus the bias row broadcast over the rows — is the specification's affine layer on row `p`. -/
theorem affine_x_apply (x : FVec Ideal S512x1282 .f32) (w : FVec Ideal S1282x1536 .f32) (b : FVec Ideal S1x1536 .f32)
    (p : Fin 512) (c : Fin 1536) :
    addf (matmul dot_S512x1282_S1282x1536_S512x1536_1_0_0_1_n_n none (truncf .bf16 x bitsLt_bf16_f32) (truncf .bf16 w bitsLt_bf16_f32)
        (constant (F := Ideal) S512x1536 .f32 0x00000000#32))
      (broadcastTo S512x1536 b broadcasts_S1x1536_S512x1536) (ix2 p c)
      = affine (row x p) w b c := by
  rw [addf_apply, matmul_x_apply, broadcastTo_1b_ab_apply]
  rfl

/-- The hidden-state affine layer as the body spells it — the product of the operands (their format change is the identity on
    extended reals) into zero, plus the bias row broadcast over the rows — is the specification's affine layer on row `p`. -/
theorem affine_h_apply (x : FVec Ideal S512x512 .f32) (w : FVec Ideal S512x1536 .f32) (b : FVec Ideal S1x1536 .f32)
    (p : Fin 512) (c : Fin 1536) :
    addf (matmul dot_S512x512_S512x1536_S512x1536_1_0_0_1_n_n none (truncf .bf16 x bitsLt_bf16_f32) (truncf .bf16 w bitsLt_bf16_f32)
        (constant (F := Ideal) S512x1536 .f32 0x00000000#32))
      (broadcastTo S512x1536 b broadcasts_S1x1536_S512x1536) (ix2 p c)
      = affine (row x p) w b c := by
  rw [addf_apply, matmul_h_apply, broadcastTo_1b_ab_apply]
  rfl

/-! ## The gates

A column slice of the 1536 gate pre-activations at offset 0, 512 or 1024 reads, at `(p, q)`, the source at `(p, colR q)`,
`(p, colZ q)` or `(p, colN q)`; the logistic and the hyperbolic tangent act element by element. -/

theorem logistic_apply {s : Shape} {φ : FTy} (a : FVec Ideal s φ) (i : s.Idx) : logistic a i = Ideal.logistic (a i) := rfl

theorem tanh_apply {s : Shape} {φ : FTy} (a : FVec Ideal s φ) (i : s.Idx) : tanh a i = Ideal.tanh (a i) := rfl

theorem sliceR_apply (g : FVec Ideal S512x1536 .f32) (p q : Fin 512) :
    extractStridedSlice S512x512 ![0, 0] g slices_S512x1536_o0_0_S512x512 (ix2 p q) = g (ix2 p (colR q)) :=
  slice2_axis1_apply 0 g slices_S512x1536_o0_0_S512x512 p q (colR q) (Nat.zero_add _).symm

theorem sliceZ_apply (g : FVec Ideal S512x1536 .f32) (p q : Fin 512) :
    extractStridedSlice S512x512 ![0, 512] g slices_S512x1536_o0_512_S512x512 (ix2 p q) = g (ix2 p (colZ q)) :=
  slice2_axis1_apply 512 g slices_S512x1536_o0_512_S512x512 p q (colZ q) rfl

theorem sliceN_apply (g : FVec Ideal S512x1536 .f32) (p q : Fin 512) :
    extractStridedSlice S512x512 ![0, 1024] g slices_S512x1536_o0_1024_S512x512 (ix2 p q) = g (ix2 p (colN q)) :=
  slice2_axis1_apply 1024 g slices_S512x1536_o0_1024_S512x512 p q (colN q) rfl

/-- The body's gate arithmetic on the two blocks of pre-activations `gx`, `gh` and the previous state `h`, at `(p, q)`:
    `r = σ(gxᵣ + ghᵣ)`, `z = σ(gx_z + gh_z)`, `n = tanh(gxₙ + r · ghₙ)`, and `(1 − z)·n + z·h`. -/
theorem gates_apply (gx gh : FVec Ideal S512x1536 .f32) (h : FVec Ideal S512x512 .f32) (p q : Fin 512) :
    addf
      (mulf
        (subf (broadcast S512x512 (Scalar.ofBits (F := Ideal) .f32 0x3F800000#32))
          (logistic (addf (extractStridedSlice S512x512 ![0, 512] gx slices_S512x1536_o0_512_S512x512)
            (extractStridedSlice S512x512 ![0, 512] gh slices_S512x1536_o0_512_S512x512))))
        (tanh (addf (extractStridedSlice S512x512 ![0, 1024] gx slices_S512x1536_o0_1024_S512x512)
          (mulf
            (logistic (addf (extractStridedSlice S512x512 ![0, 0] gx slices_S512x1536_o0_0_S512x512)
              (extractStridedSlice S512x512 ![0, 0] gh slices_S512x1536_o0_0_S512x512)))
            (extractStridedSlice S512x512 ![0, 1024] gh slices_S512x1536_o0_1024_S512x512)))))
      (mulf
        (logistic (addf (extractStridedSlice S512x512 ![0, 512] gx slices_S512x1536_o0_512_S512x512)
          (extractStridedSlice S512x512 ![0, 512] gh slices_S512x1536_o0_512_S512x512)))
        h) (ix2 p q)
      = (1 - Ideal.logistic (gx (ix2 p (colZ q)) + gh (ix2 p (colZ q))))
          * Ideal.tanh (gx (ix2 p (colN q))
              + Ideal.logistic (gx (ix2 p (colR q)) + gh (ix2 p (colR q))) * gh (ix2 p (colN q)))
        + Ideal.logistic (gx (ix2 p (colZ q)) + gh (ix2 p (colZ q))) * h (ix2 p q) := by
  simp only [addf_apply, mulf_apply, subf_apply, broadcast_apply, logistic_apply, tanh_apply, sliceR_apply, sliceZ_apply,
    sliceN_apply, Ideal.ofBits_def, Ideal.ofBits_one_f32]

/-! ## The block computation is the specification's cell on every row -/

theorem k0_pay1_eq (x0 : Vec Ideal S512x1282 .f32) (x1 : Vec Ideal S512x512 .f32) (x2 : Vec Ideal S1282x1536 .f32)
    (x3 : Vec Ideal S512x1536 .f32) (x4 x5 : Vec Ideal S1x1536 .f32) :
    k0_pay1 (F := Ideal) x0 x1 x2 x3 x4 x5 = Cert.Spec.gruK (R := 512) x0 x1 x2 x3 x4 x5 := by
  funext j
  obtain ⟨p, q, rfl⟩ : ∃ (p : Fin 512) (q : Fin 512), j = ix2 p q := ⟨j 0, j 1, eq_ix2 j⟩
  unfold k0_pay1
  simp only [shapeCast_self]
  refine (gates_apply _ _ _ p q).trans ?_
  simp only [affine_x_apply, affine_h_apply]
  rfl

end Cert.Bridge.GruPay

end
-- ==== Proof.GruCover.lean ====
/-
  The GRU region's output array as one function of the arrays the region finds.

  The region walks 32 grid points; point t stages rows 512·t … 512·t + 511 of the input features and of the previous
  hidden state, the four weight and bias arrays whole, and writes back rows 512·t … 512·t + 511 of the new hidden state.
  The cell is row-wise, so the block a point writes is that block of the cell applied to all 16384 rows; the 32 blocks
  tile the rows (row r lies in block r / 512), so the array ends holding the cell of every row.
-/
import proofs.«406328_j56736517980496_1_alg».proof.Proof.GruBody
import proofs.«406328_j56736517980496_1_alg».proof.Proof.GruPay
import proofs.«406328_j56736517980496_1_alg».proof.Proof.Spec
import Idealize.ShloMosaic.Lib.Pipeline.Value
import Idealize.ShloMosaic.Lib.ValueIdx

noncomputable section

namespace Cert.Bridge.GruCover

open Cert.Bridge.GruPay

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Where each window's block sits -/

/-- The block indices at grid point t: the two row-blocked inputs and the output sit at block row t, block column 0;
    the weights and biases at block (0, 0). -/
theorem gru_block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of the feature block at point t is row 512·t + p of the feature array. -/
theorem x_block_apply (c : Dev nD) (t : Fin cfg0.N) (p : Fin 512) (k : Fin 1282) (r : Fin 16384)
    (hr : r.val = t.val * 512 + p.val) :
    (iblk0 V c 0 t : A2 512 1282) (ix2 p k) = (V c main_v8 : A2 16384 1282) (ix2 r k) := by
  obtain ⟨e0, e1, -⟩ := gru_block_index t
  unfold iblk0
  rw [View.read_apply]
  show V c main_v8 _ = V c main_v8 _
  congr 1
  funext a
  apply Fin.ext
  match a with
  | ⟨0, _⟩ => show win0_0.index t (0 : Fin 2) * 512 + 1 * p.val = r.val; omega
  | ⟨1, _⟩ => show win0_0.index t (1 : Fin 2) * 1282 + 1 * k.val = k.val; omega

/-- Row p of the state block at point t is row 512·t + p of the state array. -/
theorem h_block_apply (c : Dev nD) (t : Fin cfg0.N) (p : Fin 512) (k : Fin 512) (r : Fin 16384)
    (hr : r.val = t.val * 512 + p.val) :
    (iblk0 V c 1 t : A2 512 512) (ix2 p k) = (V c main_v9 : A2 16384 512) (ix2 r k) := by
  obtain ⟨-, -, e0, e1, -⟩ := gru_block_index t
  unfold iblk0
  rw [View.read_apply]
  show V c main_v9 _ = V c main_v9 _
  congr 1
  funext a
  apply Fin.ext
  match a with
  | ⟨0, _⟩ => show win0_1.index t (0 : Fin 2) * 512 + 1 * p.val = r.val; omega
  | ⟨1, _⟩ => show win0_1.index t (1 : Fin 2) * 512 + 1 * k.val = k.val; omega

/-- The input-weight block at every point is the whole array. -/
theorem w1_block (c : Dev nD) (t : Fin cfg0.N) : (iblk0 V c 2 t : A2 1282 1536) = V c main_v10 := by
  obtain ⟨-, -, -, -, e0, e1, -⟩ := gru_block_index t
  funext y
  unfold iblk0
  rw [View.read_apply]
  show V c main_v10 _ = V c main_v10 _
  congr 1
  funext a
  apply Fin.ext
  match a with
  | ⟨0, _⟩ => show win0_2.index t (0 : Fin 2) * 1282 + 1 * (y 0).val = (y 0).val; omega
  | ⟨1, _⟩ => show win0_2.index t (1 : Fin 2) * 1536 + 1 * (y 1).val = (y 1).val; omega

/-- The state-weight block at every point is the whole array. -/
theorem w2_block (c : Dev nD) (t : Fin cfg0.N) : (iblk0 V c 3 t : A2 512 1536) = V c main_v11 := by
  obtain ⟨-, -, -, -, -, -, e0, e1, -⟩ := gru_block_index t
  funext y
  unfold iblk0
  rw [View.read_apply]
  show V c main_v11 _ = V c main_v11 _
  congr 1
  funext a
  apply Fin.ext
  match a with
  | ⟨0, _⟩ => show win0_3.index t (0 : Fin 2) * 512 + 1 * (y 0).val = (y 0).val; omega
  | ⟨1, _⟩ => show win0_3.index t (1 : Fin 2) * 1536 + 1 * (y 1).val = (y 1).val; omega

/-- The input-bias block at every point is the whole one-row array. -/
theorem b1_block (c : Dev nD) (t : Fin cfg0.N) : (iblk0 V c 4 t : A2 1 1536) = V c main_v12 := by
  obtain ⟨-, -, -, -, -, -, -, -, e0, e1, -⟩ := gru_block_index t
  funext y
  unfold iblk0
  rw [View.read_apply]
  show V c main_v12 _ = V c main_v12 _
  congr 1
  funext a
  apply Fin.ext
  match a with
  | ⟨0, _⟩ => show win0_4.index t (0 : Fin 2) * 1 + 1 * (y 0).val = (y 0).val; omega
  | ⟨1, _⟩ => show win0_4.index t (1 : Fin 2) * 1536 + 1 * (y 1).val = (y 1).val; omega

/-- The state-bias block at every point is the whole one-row array. -/
theorem b2_block (c : Dev nD) (t : Fin cfg0.N) : (iblk0 V c 5 t : A2 1 1536) = V c main_v13 := by
  obtain ⟨-, -, -, -, -, -, -, -, -, -, e0, e1, -⟩ := gru_block_index t
  funext y
  unfold iblk0
  rw [View.read_apply]
  show V c main_v13 _ = V c main_v13 _
  congr 1
  funext a
  apply Fin.ext
  match a with
  | ⟨0, _⟩ => show win0_5.index t (0 : Fin 2) * 1 + 1 * (y 0).val = (y 0).val; omega
  | ⟨1, _⟩ => show win0_5.index t (1 : Fin 2) * 1536 + 1 * (y 1).val = (y 1).val; omega

/-! ## The cell is row-wise -/

/-- The cell over a batch at row p, column q depends on the batch only through row p of the features and of the state:
    two batches that agree there (row p of one, row r of the other) give the same value. -/
theorem gruK_row_congr {R R' : Nat} (x : A2 R 1282) (h : A2 R 512) (x' : A2 R' 1282) (h' : A2 R' 512)
    (w1 : A2 1282 1536) (w2 : A2 512 1536) (b1 b2 : A2 1 1536) (p : Fin R) (r : Fin R') (q : Fin 512)
    (hx : ∀ k, x (ix2 p k) = x' (ix2 r k)) (hh : ∀ k, h (ix2 p k) = h' (ix2 r k)) :
    gruK x h w1 w2 b1 b2 (ix2 p q) = gruK x' h' w1 w2 b1 b2 (ix2 r q) := by
  have ex : row x p = row x' r := funext hx
  have eh : row h p = row h' r := funext hh
  show gruCell (row x p) (row h p) w1 w2 b1 b2 q = gruCell (row x' r) (row h' r) w1 w2 b1 b2 q
  rw [ex, eh]

/-! ## What a point writes back -/

/-- Point t writes back block t of the cell applied to every row of the arrays the region finds. -/
theorem gru_flushed (c : Dev nD) (t : Fin cfg0.N) :
    (dat0 (F := Ideal) V c).flushed 6 t = ((cfg0.win 6).blk t).view.read (Elt Ideal)
      (gruK (R := 16384) (V c main_v8) (V c main_v9) (V c main_v10) (V c main_v11) (V c main_v12) (V c main_v13)) := by
  show (cfg0.win 6).cut (grid0.coords t) ((dat0 (F := Ideal) V c).after 6 t) = _
  rw [after0_6, out0_6_eq, k0_pay1_eq, w1_block, w2_block, b1_block, b2_block]
  obtain ⟨-, -, -, -, -, -, -, -, -, -, -, -, e0, e1⟩ := gru_block_index t
  have ht : t.val < 32 := Nat.lt_of_lt_of_eq t.isLt N_0
  funext j
  rw [View.read_apply]
  have hj0 : (j 0).val < 512 := (j 0).isLt
  have hj1 : (j 1).val < 512 := (j 1).isLt
  have hemb : ((cfg0.win 6).blk t).view.emb j = ix2 (⟨t.val * 512 + (j 0).val, by omega⟩ : Fin 16384) (⟨(j 1).val, hj1⟩ : Fin 512) := by
    funext a
    apply Fin.ext
    match a with
    | ⟨0, _⟩ => show win0_6.index t (0 : Fin 2) * 512 + 1 * (j 0).val = t.val * 512 + (j 0).val; omega
    | ⟨1, _⟩ => show win0_6.index t (1 : Fin 2) * 512 + 1 * (j 1).val = (j 1).val; omega
  rw [hemb]
  show gruK (R := 512) _ _ _ _ _ _ (ix2 (⟨(j 0).val, hj0⟩ : Fin 512) (⟨(j 1).val, hj1⟩ : Fin 512)) = _
  exact gruK_row_congr _ _ _ _ _ _ _ _ _ _ _
    (fun k => x_block_apply V c t _ k _ rfl) (fun k => h_block_apply V c t _ k _ rfl)

/-! ## The blocks tile the rows -/

/-- An index of the state array is in point t's block iff each coordinate is in the block's range on its axis. -/
theorem mem_out_block (t : Fin cfg0.N) (i : S16384x512.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v14).slice (win0_6.rect t)).set ↔ _
  rw [View.set_slice_whole, Rect.mem_set_unit]
  exact Iff.rfl

/-- Row r of the state array lies in the block of point r / 512. -/
theorem out_cover (i : S16384x512.Idx) :
    ∃ t : Fin cfg0.N, (cfg0.win 6).flush t = true ∧ i ∈ ((cfg0.win 6).blk t).view.set := by
  have hi0 : (i 0).val < 16384 := (i 0).isLt
  have hi1 : (i 1).val < 512 := (i 1).isLt
  have hN : cfg0.N = 32 := N_0
  refine ⟨⟨(i 0).val / 512, by rw [hN]; omega⟩, flush0_6 _, ?_⟩
  rw [mem_out_block]
  obtain ⟨-, -, -, -, -, -, -, -, -, -, -, -, e0, e1⟩ := gru_block_index ⟨(i 0).val / 512, by rw [hN]; omega⟩
  intro a
  match a with
  | ⟨0, _⟩ =>
    show win0_6.index _ (0 : Fin 2) * 512 ≤ (i 0).val ∧ (i 0).val < win0_6.index _ (0 : Fin 2) * 512 + 512
    rw [e0]; show (i 0).val / 512 * 512 ≤ (i 0).val ∧ (i 0).val < (i 0).val / 512 * 512 + 512; omega
  | ⟨1, _⟩ =>
    show win0_6.index _ (1 : Fin 2) * 512 ≤ (i 1).val ∧ (i 1).val < win0_6.index _ (1 : Fin 2) * 512 + 512
    rw [e1]; omega

/-! ## The array after the region -/

/-- After the 32 points the new-state array holds the cell of every row of the arrays the region found. -/
theorem gru_arr (c : Dev nD) :
    (dat0 (F := Ideal) V c).arrAt 6 cfg0.N = Cert.Spec.gruK (R := 16384) (V c main_v8) (V c main_v9) (V c main_v10) (V c main_v11) (V c main_v12) (V c main_v13) :=
  (dat0 (F := Ideal) V c).arrAt_eq_of_cover 6 _ (fun t _ => gru_flushed V c t) out_cover

end Cert.Bridge.GruCover

end
-- ==== Proof.MlpPay.lean ====
/-
  The two heads of the network, read element by element.

  A block of 1024 hidden rows goes through a shared pattern: an affine layer (a matrix product with the weights, plus
  the bias row), the leaky rectifier, a second affine layer, and then either a log-softmax over the row's 1024 logits
  (the label head) or a sigmoid (the position head). Every step but the products and the two row reductions acts on
  each element alone, so the value at row `p`, column `v` is the row function of the specification applied to row `p`.
-/
import proofs.«406328_j56736517980496_1_alg».proof.Proof.Gen.KernelIdeal.Skeleton
import proofs.«406328_j56736517980496_1_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Group.Finset.Basic
import Mathlib.Data.Finset.Fold
import Mathlib.Order.BoundedOrder.Lattice

noncomputable section

namespace Cert.Bridge.MlpPay

open Cert.KernelIdeal Cert.KernelIdeal.Gen Cert.Spec Idealize.ShloMosaic Idealize.ShloMosaic.ValueIdx
open scoped BigOperators

/-! ### The three products' operand indices

Each product contracts the left operand's columns against the right operand's rows: at output index `(r, c)` and
contraction position `k` the operands are read at `(r, k)` and `(k, c)`. -/

theorem lhs_hid_0 (j : S1024x512.Idx) (k : dot_S1024x512_S512x512_S1024x512_1_0_0_1_n_n.contr.Idx) :
    (dot_S1024x512_S512x512_S1024x512_1_0_0_1_n_n.lhsIdx j k 0 : ℕ) = j 0 := by
  unfold DotDims.lhsIdx
  rw [dif_neg (by decide), dif_pos (by decide)]
  rfl
theorem lhs_hid_1 (j : S1024x512.Idx) (k : dot_S1024x512_S512x512_S1024x512_1_0_0_1_n_n.contr.Idx) :
    (dot_S1024x512_S512x512_S1024x512_1_0_0_1_n_n.lhsIdx j k 1 : ℕ) = k ⟨0, by decide⟩ :=
  DotDims.lhsIdx_val_of_single _ rfl j k
theorem rhs_hid_0 (j : S1024x512.Idx) (k : dot_S1024x512_S512x512_S1024x512_1_0_0_1_n_n.contr.Idx) :
    (dot_S1024x512_S512x512_S1024x512_1_0_0_1_n_n.rhsIdx j k 0 : ℕ) = k ⟨0, by decide⟩ :=
  DotDims.rhsIdx_val_of_single _ rfl j k
theorem rhs_hid_1 (j : S1024x512.Idx) (k : dot_S1024x512_S512x512_S1024x512_1_0_0_1_n_n.contr.Idx) :
    (dot_S1024x512_S512x512_S1024x512_1_0_0_1_n_n.rhsIdx j k 1 : ℕ) = j 1 := by
  unfold DotDims.rhsIdx
  rw [dif_neg (by decide), dif_pos (by decide)]
  rfl

theorem lhs_typ_0 (j : S1024x1024.Idx) (k : dot_S1024x512_S512x1024_S1024x1024_1_0_0_1_n_n.contr.Idx) :
    (dot_S1024x512_S512x1024_S1024x1024_1_0_0_1_n_n.lhsIdx j k 0 : ℕ) = j 0 := by
  unfold DotDims.lhsIdx
  rw [dif_neg (by decide), dif_pos (by decide)]
  rfl
theorem lhs_typ_1 (j : S1024x1024.Idx) (k : dot_S1024x512_S512x1024_S1024x1024_1_0_0_1_n_n.contr.Idx) :
    (dot_S1024x512_S512x1024_S1024x1024_1_0_0_1_n_n.lhsIdx j k 1 : ℕ) = k ⟨0, by decide⟩ :=
  DotDims.lhsIdx_val_of_single _ rfl j k
theorem rhs_typ_0 (j : S1024x1024.Idx) (k : dot_S1024x512_S512x1024_S1024x1024_1_0_0_1_n_n.contr.Idx) :
    (dot_S1024x512_S512x1024_S1024x1024_1_0_0_1_n_n.rhsIdx j k 0 : ℕ) = k ⟨0, by decide⟩ :=
  DotDims.rhsIdx_val_of_single _ rfl j k
theorem rhs_typ_1 (j : S1024x1024.Idx) (k : dot_S1024x512_S512x1024_S1024x1024_1_0_0_1_n_n.contr.Idx) :
    (dot_S1024x512_S512x1024_S1024x1024_1_0_0_1_n_n.rhsIdx j k 1 : ℕ) = j 1 := by
  unfold DotDims.rhsIdx
  rw [dif_neg (by decide), dif_pos (by decide)]
  rfl

theorem lhs_pos_0 (j : S1024x2.Idx) (k : dot_S1024x512_S512x2_S1024x2_1_0_0_1_n_n.contr.Idx) :
    (dot_S1024x512_S512x2_S1024x2_1_0_0_1_n_n.lhsIdx j k 0 : ℕ) = j 0 := by
  unfold DotDims.lhsIdx
  rw [dif_neg (by decide), dif_pos (by decide)]
  rfl
theorem lhs_pos_1 (j : S1024x2.Idx) (k : dot_S1024x512_S512x2_S1024x2_1_0_0_1_n_n.contr.Idx) :
    (dot_S1024x512_S512x2_S1024x2_1_0_0_1_n_n.lhsIdx j k 1 : ℕ) = k ⟨0, by decide⟩ :=
  DotDims.lhsIdx_val_of_single _ rfl j k
theorem rhs_pos_0 (j : S1024x2.Idx) (k : dot_S1024x512_S512x2_S1024x2_1_0_0_1_n_n.contr.Idx) :
    (dot_S1024x512_S512x2_S1024x2_1_0_0_1_n_n.rhsIdx j k 0 : ℕ) = k ⟨0, by decide⟩ :=
  DotDims.rhsIdx_val_of_single _ rfl j k
theorem rhs_pos_1 (j : S1024x2.Idx) (k : dot_S1024x512_S512x2_S1024x2_1_0_0_1_n_n.contr.Idx) :
    (dot_S1024x512_S512x2_S1024x2_1_0_0_1_n_n.rhsIdx j k 1 : ℕ) = j 1 := by
  unfold DotDims.rhsIdx
  rw [dif_neg (by decide), dif_pos (by decide)]
  rfl

/-- A rows-by-columns product into a zero accumulator, read at `(p, c)`: the sum over the shared axis of the
    operands' products, once the operand indices are known to be `(p, k)` and `(k, c)`. -/
theorem matmul_plain_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (l0 : ∀ j k, (d.lhsIdx j k 0 : ℕ) = j 0) (l1 : ∀ j k, (d.lhsIdx j k 1 : ℕ) = k ⟨0, by omega⟩)
    (r0 : ∀ j k, (d.rhsIdx j k 0 : ℕ) = k ⟨0, by omega⟩) (r1 : ∀ j k, (d.rhsIdx j k 1 : ℕ) = j 1)
    (lhs : FVec Ideal ⟨2, ![R, K]⟩ φ₁) (rhs : FVec Ideal ⟨2, ![K, N]⟩ φ₂) (p : Fin R) (c : Fin N) :
    matmul d none lhs rhs (constant (F := Ideal) ⟨2, ![R, N]⟩ .f32 0x00000000#32) (ix2 p c)
      = ∑ k : Fin K, lhs (ix2 p k) * rhs (ix2 k c) := by
  refine (Ideal.matmul_constant_zero_apply d none lhs rhs (ix2 p c)).trans ?_
  refine (Equiv.sum_comp (contrEquiv1 d K hr hs).symm _).symm.trans ?_
  refine Finset.sum_congr rfl fun k _ => ?_
  have hl : d.lhsIdx (ix2 p c) ((contrEquiv1 d K hr hs).symm k) = ix2 p k :=
    Shape.idx_ext₂ (l0 _ _) ((l1 _ _).trans (contrEquiv1_symm_val d K hr hs k))
  have hrr : d.rhsIdx (ix2 p c) ((contrEquiv1 d K hr hs).symm k) = ix2 k c :=
    Shape.idx_ext₂ ((r0 _ _).trans (contrEquiv1_symm_val d K hr hs k)) (r1 _ _)
  rw [hl, hrr]

/-- The hidden layer's product at `(p, c)`. -/
theorem matmul_hid_apply (lhs : FVec Ideal S1024x512 .bf16) (rhs : FVec Ideal S512x512 .bf16) (p : Fin 1024) (c : Fin 512) :
    matmul dot_S1024x512_S512x512_S1024x512_1_0_0_1_n_n none lhs rhs (constant (F := Ideal) S1024x512 .f32 0x00000000#32) (ix2 p c)
      = ∑ k : Fin 512, lhs (ix2 p k) * rhs (ix2 k c) :=
  matmul_plain_apply _ rfl rfl lhs_hid_0 lhs_hid_1 rhs_hid_0 rhs_hid_1 lhs rhs p c

/-- The label head's product at `(p, c)`. -/
theorem matmul_typ_apply (lhs : FVec Ideal S1024x512 .bf16) (rhs : FVec Ideal S512x1024 .bf16) (p : Fin 1024) (c : Fin 1024) :
    matmul dot_S1024x512_S512x1024_S1024x1024_1_0_0_1_n_n none lhs rhs (constant (F := Ideal) S1024x1024 .f32 0x00000000#32) (ix2 p c)
      = ∑ k : Fin 512, lhs (ix2 p k) * rhs (ix2 k c) :=
  matmul_plain_apply _ rfl rfl lhs_typ_0 lhs_typ_1 rhs_typ_0 rhs_typ_1 lhs rhs p c

/-- The position head's product at `(p, c)`. -/
theorem matmul_pos_apply (lhs : FVec Ideal S1024x512 .bf16) (rhs : FVec Ideal S512x2 .bf16) (p : Fin 1024) (c : Fin 2) :
    matmul dot_S1024x512_S512x2_S1024x2_1_0_0_1_n_n none lhs rhs (constant (F := Ideal) S1024x2 .f32 0x00000000#32) (ix2 p c)
      = ∑ k : Fin 512, lhs (ix2 p k) * rhs (ix2 k c) :=
  matmul_plain_apply _ rfl rfl lhs_pos_0 lhs_pos_1 rhs_pos_0 rhs_pos_1 lhs rhs p c

/-! ### Pointwise functions, the keepdims column and the two row reductions, read at an index -/

/-- The sigmoid of a vector at an index is the sigmoid of the element. -/
theorem logistic_apply {s : Shape} {φ : FTy} (x : FVec Ideal s φ) (i : s.Idx) :
    Idealize.ShloMosaic.logistic x i = Ideal.logistic (x i) := rfl
/-- The exponential of a vector at an index is the exponential of the element. -/
theorem exp_apply {s : Shape} {φ : FTy} (x : FVec Ideal s φ) (i : s.Idx) :
    Idealize.ShloMosaic.exp x i = Ideal.exp (x i) := rfl
/-- The logarithm of a vector at an index is the logarithm of the element. -/
theorem log_apply {s : Shape} {φ : FTy} (x : FVec Ideal s φ) (i : s.Idx) :
    Idealize.ShloMosaic.log x i = Ideal.log (x i) := rfl

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `p` of a `1024 × 1024` array with column `k` put back is the index `(p, k)`. -/
theorem lift_row (h : S1024x1024.Reduces [1] S1024) (p k : Fin 1024) : h.lift (ix1 p) k = ix2 p k := by
  funext a
  match a with
  | ⟨0, _⟩ => exact Fin.ext rfl
  | ⟨1, _⟩ => exact Fin.ext rfl

/-- The f32 word `0xFF800000` is `-∞`. -/
theorem ofBits_neg_inf_f32 : Ideal.ofBits .f32 0xFF800000#32 = ⊥ := by
  simp [Ideal.ofBits, Ideal.ieee]

/-- The maximum over the columns of a `1024 × 1024` array, at row `p`: the fold of `max` from `-∞` over the row. -/
theorem rowMax_apply (src : FVec Ideal S1024x1024 .f32) (h : S1024x1024.Reduces [1] S1024) (hφ : FKind.Formats .f32)
    (hacc : (0xFF800000#32 : BitVec 32) = 0xFF800000#32) (p : Fin 1024) :
    multiReduction (F := Ideal) .maximumf [1] S1024 src 0xFF800000#32 h hφ hacc (ix1 p)
      = (Finset.univ : Finset (Fin 1024)).fold max ⊥ fun k => src (ix2 p k) := by
  refine (Ideal.multiReduction_maximumf_single src 0xFF800000#32 h hφ hacc (ix1 p)).trans ?_
  have e : (src ∘ h.lift (ix1 p)) = fun k : Fin 1024 => src (ix2 p k) := funext fun k => congrArg src (lift_row h p k)
  rw [e]
  exact congrArg (fun z => (Finset.univ : Finset (Fin 1024)).fold max z fun k => src (ix2 p k)) ofBits_neg_inf_f32

/-- The sum over the columns of a `1024 × 1024` array, at row `p`. -/
theorem rowSum_apply (src : FVec Ideal S1024x1024 .f32) (h : S1024x1024.Reduces [1] S1024) (hφ : FKind.Formats .f32)
    (hacc : (0x00000000#32 : BitVec 32) = 0x00000000#32) (p : Fin 1024) :
    multiReduction (F := Ideal) .add [1] S1024 src 0x00000000#32 h hφ hacc (ix1 p) = ∑ k : Fin 1024, src (ix2 p k) := by
  refine (Ideal.multiReduction_add_single src 0x00000000#32 h hφ hacc (ix1 p)).trans ?_
  exact Finset.sum_congr rfl fun k _ => congrArg src (lift_row h p k)

/-! ### The specification's row functions at an index -/

/-- The position head's array at `(p, q)` is its row function on row `p`. -/
theorem posK_apply (h : A2 1024 512) (w1 : A2 512 512) (b1 : A2 1 512) (w2 : A2 512 2) (b2 : A2 1 2) (p : Fin 1024) (q : Fin 2) :
    posK h w1 b1 w2 b2 (ix2 p q) = posCell (row h p) w1 b1 w2 b2 q := rfl
/-- The label head's array at `(p, q)` is its row function on row `p`. -/
theorem typeK_apply (h : A2 1024 512) (w1 : A2 512 512) (b1 : A2 1 512) (w2 : A2 512 1024) (b2 : A2 1 1024) (p : Fin 1024) (q : Fin 1024) :
    typeK h w1 b1 w2 b2 (ix2 p q) = typeCell (row h p) w1 b1 w2 b2 q := rfl

/-- The position head's block is the specification's position head on every row: the index goes through the
    sigmoid, the two affine layers and the rectifier down to the operands' entries. -/
theorem k1_pay1_eq (x0 : Vec Ideal S1024x512 .f32) (x5 : Vec Ideal S512x512 .f32) (x6 : Vec Ideal S1x512 .f32) (x7 : Vec Ideal S512x2 .f32) (x8 : Vec Ideal S1x2 .f32) :
    k1_pay1 (F := Ideal) (k1_pay2 (F := Ideal) x0) x5 x6 x7 x8 = Cert.Spec.posK (R := 1024) x0 x5 x6 x7 x8 := by
  funext j
  obtain ⟨p, q, rfl⟩ : ∃ (p : Fin 1024) (q : Fin 2), j = ix2 p q := ⟨j 0, j 1, eq_ix2 j⟩
  unfold k1_pay1 k1_pay2
  simp only [logistic_apply, addf_apply, matmul_pos_apply, truncf_apply, select_apply, cmpf_apply, broadcast_apply, mulf_apply,
    matmul_hid_apply, shapeCast_self, broadcastTo_1b_ab_apply]
  rw [posK_apply]
  simp only [posCell, affine, hiddenRow, leaky, row, Ideal.cmpf_def, Ideal.ofBits_def, Ideal.ofBits_zero_f32]

/-! ### The label head: the logits, then the log-softmax of each row -/

/-- The label head's logits on a block of 1024 rows: hidden layer, then the second affine layer. -/
def logitsK (v0 : Vec Ideal S1024x512 .f32) (v3 : Vec Ideal S512x512 .f32) (v7 : Vec Ideal S1x512 .f32)
    (v17 : Vec Ideal S512x1024 .f32) (v21 : Vec Ideal S1x1024 .f32) : FVec Ideal S1024x1024 .f32 :=
  have v4 : FVec Ideal S512x512 .f32 := shapeCast S512x512 v3 shapeCasts_S512x512_S512x512
  have v5 : FVec Ideal S512x512 .bf16 := truncf .bf16 v4 bitsLt_bf16_f32
  have cst : FVec Ideal S1024x512 .f32 := constant S1024x512 .f32 0x00000000#32
  have v6 : FVec Ideal S1024x512 .f32 := matmul dot_S1024x512_S512x512_S1024x512_1_0_0_1_n_n none (k1_pay2 v0) v5 cst
  have v8 : FVec Ideal S1x512 .f32 := shapeCast S1x512 v7 shapeCasts_S1x512_S1x512
  have v9 : FVec Ideal S1024x512 .f32 := broadcastTo S1024x512 v8 broadcasts_S1x512_S1024x512
  have v10 : FVec Ideal S1024x512 .f32 := addf v6 v9
  have cst_5 : Ideal .f32 := Scalar.ofBits .f32 0x3C23D70A#32
  have cst_6 : Ideal .f32 := Scalar.ofBits .f32 0x00000000#32
  have v11 : FVec Ideal S1024x512 .f32 := broadcast S1024x512 cst_6
  have v12 : IVec S1024x512 1 := cmpf .oge v10 v11
  have v13 : FVec Ideal S1024x512 .f32 := broadcast S1024x512 cst_5
  have v14 : FVec Ideal S1024x512 .f32 := mulf v13 v10
  have v15 : FVec Ideal S1024x512 .f32 := select v12 v10 v14
  have v16 : FVec Ideal S1024x512 .bf16 := truncf .bf16 v15 bitsLt_bf16_f32
  have v18 : FVec Ideal S512x1024 .f32 := shapeCast S512x1024 v17 shapeCasts_S512x1024_S512x1024
  have v19 : FVec Ideal S512x1024 .bf16 := truncf .bf16 v18 bitsLt_bf16_f32
  have cst_9 : FVec Ideal S1024x1024 .f32 := constant S1024x1024 .f32 0x00000000#32
  have v20 : FVec Ideal S1024x1024 .f32 := matmul dot_S1024x512_S512x1024_S1024x1024_1_0_0_1_n_n none v16 v19 cst_9
  have v22 : FVec Ideal S1x1024 .f32 := shapeCast S1x1024 v21 shapeCasts_S1x1024_S1x1024
  have v23 : FVec Ideal S1024x1024 .f32 := broadcastTo S1024x1024 v22 broadcasts_S1x1024_S1024x1024
  addf v20 v23

/-- The maximum of each row of a `1024 × 1024` block, kept as a column. -/
def rowMaxK (v24 : FVec Ideal S1024x1024 .f32) : FVec Ideal S1024x1 .f32 :=
  have v25 : FVec Ideal S1024 .f32 := multiReduction .maximumf [1] S1024 v24 0xFF800000#32 reduces_S1024x1024_S1024 (.inl rfl) rfl
  have cst_13 : Ideal .f32 := Scalar.ofBits .f32 0xFF800000#32
  have v26 : FVec Ideal S1024 .f32 := broadcast S1024 cst_13
  have v27 : FVec Ideal S1024 .f32 := maximumf v26 v25
  shapeCast S1024x1 v27 shapeCasts_S1024_S1024x1

/-- Each row less its maximum. -/
def shiftK (v24 : FVec Ideal S1024x1024 .f32) : FVec Ideal S1024x1024 .f32 :=
  subf v24 (broadcastTo S1024x1024 (rowMaxK v24) broadcasts_S1024x1_S1024x1024)

/-- The logarithm of each shifted row's sum of exponentials, kept as a column. -/
def logSumK (v24 : FVec Ideal S1024x1024 .f32) : FVec Ideal S1024x1 .f32 :=
  have v31 : FVec Ideal S1024x1024 .f32 := Idealize.ShloMosaic.exp (shiftK v24)
  have v32 : FVec Ideal S1024 .f32 := multiReduction .add [1] S1024 v31 0x00000000#32 reduces_S1024x1024_S1024 (.inl rfl) rfl
  have v33 : FVec Ideal S1024x1 .f32 := shapeCast S1024x1 v32 shapeCasts_S1024_S1024x1
  Idealize.ShloMosaic.log v33

/-- The log-softmax of each row of a `1024 × 1024` block: subtract the row maximum, then the logarithm of the row's
    sum of exponentials. -/
def logSoftmaxK (v24 : FVec Ideal S1024x1024 .f32) : FVec Ideal S1024x1024 .f32 :=
  subf (shiftK v24) (broadcastTo S1024x1024 (logSumK v24) broadcasts_S1024x1_S1024x1024)

/-- The label head's block is the log-softmax of its logits. -/
theorem k1_pay3_split (x0 : Vec Ideal S1024x512 .f32) (x1 : Vec Ideal S512x512 .f32) (x2 : Vec Ideal S1x512 .f32)
    (x3 : Vec Ideal S512x1024 .f32) (x4 : Vec Ideal S1x1024 .f32) :
    k1_pay3 (F := Ideal) x0 x1 x2 x3 x4 = logSoftmaxK (logitsK x0 x1 x2 x3 x4) := rfl
/-- The logits at `(p, c)` are the row function of the specification on row `p`. -/
theorem logitsK_apply (x0 : Vec Ideal S1024x512 .f32) (x1 : Vec Ideal S512x512 .f32) (x2 : Vec Ideal S1x512 .f32)
    (x3 : Vec Ideal S512x1024 .f32) (x4 : Vec Ideal S1x1024 .f32) (p c : Fin 1024) :
    logitsK x0 x1 x2 x3 x4 (ix2 p c) = logitsRow (row x0 p) x1 x2 x3 x4 c := by
  unfold logitsK k1_pay2
  simp only [addf_apply, matmul_typ_apply, truncf_apply, select_apply, cmpf_apply, broadcast_apply, mulf_apply,
    matmul_hid_apply, shapeCast_self, broadcastTo_1b_ab_apply]
  simp only [logitsRow, affine, hiddenRow, leaky, row, Ideal.cmpf_def, Ideal.ofBits_def, Ideal.ofBits_zero_f32]

/-- The maximum of row `p`: the fold of `max` from `-∞` over the row's entries. -/
theorem rowMaxK_apply (L : FVec Ideal S1024x1024 .f32) (p : Fin 1024) (u : Fin 1) :
    rowMaxK L (ix2 p u) = (Finset.univ : Finset (Fin 1024)).fold max ⊥ fun k => L (ix2 p k) := by
  unfold rowMaxK
  refine (shapeCast_a_a1_apply _ _ p u).trans ?_
  refine (maximumf_apply _ _ (ix1 p)).trans ?_
  refine (congrArg₂ max ofBits_neg_inf_f32 (rowMax_apply L _ _ _ p)).trans ?_
  exact max_bot_left _

/-- A shifted entry: the entry less its row's maximum. -/
theorem shiftK_apply (L : FVec Ideal S1024x1024 .f32) (p q : Fin 1024) :
    shiftK L (ix2 p q) = L (ix2 p q) - (Finset.univ : Finset (Fin 1024)).fold max ⊥ fun k => L (ix2 p k) := by
  unfold shiftK
  refine (subf_apply _ _ (ix2 p q)).trans ?_
  exact congrArg (L (ix2 p q) - ·) ((broadcastTo_a1_ab_apply _ _ p q).trans (rowMaxK_apply L p 0))

/-- Row `p`'s logarithm of the sum of the exponentials of its shifted entries. -/
theorem logSumK_apply (L : FVec Ideal S1024x1024 .f32) (p : Fin 1024) (u : Fin 1) :
    logSumK L (ix2 p u)
      = Ideal.log (∑ c : Fin 1024, Ideal.exp (L (ix2 p c) - (Finset.univ : Finset (Fin 1024)).fold max ⊥ fun k => L (ix2 p k))) := by
  unfold logSumK
  refine (log_apply _ (ix2 p u)).trans (congrArg Ideal.log ?_)
  refine (shapeCast_a_a1_apply _ _ p u).trans ?_
  refine (rowSum_apply _ _ _ _ p).trans ?_
  exact Finset.sum_congr rfl fun c _ => (exp_apply _ (ix2 p c)).trans (congrArg Ideal.exp (shiftK_apply L p c))

/-- The log-softmax block at `(p, q)`: with `M` the maximum of row `p`, the entry less `M`, less the logarithm of
    the row's sum of `exp (· − M)`. -/
theorem logSoftmaxK_apply (L : FVec Ideal S1024x1024 .f32) (p q : Fin 1024) :
    logSoftmaxK L (ix2 p q)
      = (L (ix2 p q) - (Finset.univ : Finset (Fin 1024)).fold max ⊥ fun k => L (ix2 p k))
        - Ideal.log (∑ c : Fin 1024, Ideal.exp (L (ix2 p c) - (Finset.univ : Finset (Fin 1024)).fold max ⊥ fun k => L (ix2 p k))) := by
  unfold logSoftmaxK
  refine (subf_apply _ _ (ix2 p q)).trans ?_
  exact congrArg₂ (· - ·) (shiftK_apply L p q) ((broadcastTo_a1_ab_apply _ _ p q).trans (logSumK_apply L p 0))

/-- The label head's block is the specification's label head on every row. -/
theorem k1_pay3_eq (x0 : Vec Ideal S1024x512 .f32) (x1 : Vec Ideal S512x512 .f32) (x2 : Vec Ideal S1x512 .f32) (x3 : Vec Ideal S512x1024 .f32) (x4 : Vec Ideal S1x1024 .f32) :
    k1_pay3 (F := Ideal) x0 x1 x2 x3 x4 = Cert.Spec.typeK (R := 1024) x0 x1 x2 x3 x4 := by
  funext j
  obtain ⟨p, q, rfl⟩ : ∃ (p : Fin 1024) (q : Fin 1024), j = ix2 p q := ⟨j 0, j 1, eq_ix2 j⟩
  rw [k1_pay3_split, logSoftmaxK_apply, typeK_apply]
  simp only [logitsK_apply]
  rfl

end Cert.Bridge.MlpPay

end
-- ==== Proof.MlpCover.lean ====
import proofs.«406328_j56736517980496_1_alg».proof.Proof.MlpBody
import proofs.«406328_j56736517980496_1_alg».proof.Proof.MlpPay
import proofs.«406328_j56736517980496_1_alg».proof.Proof.Spec
import Idealize.ShloMosaic.Lib.Pipeline.Value
import Idealize.ShloMosaic.Lib.ValueIdx

/-!
# The two heads' result arrays, from blocks to whole arrays

The second region walks 16 blocks of 1024 batch rows. Both heads are row-wise: a result row is a function of
the hidden-state row of the same number and of the weights alone. So the block of results that the point t
writes back (rows 1024 t … 1024 t + 1023 of the head computed on the block of hidden rows) is exactly block t
of the head computed on all 16384 rows at once; and since row r lies in block r / 1024, the 16 blocks tile
each result array. Hence each result array ends as one whole-array function of the arrays the region finds:
the label head `typeK` and the position head `posK` over all rows.
-/

noncomputable section

namespace Cert.Bridge.MlpCover

open Cert.KernelIdeal Cert.KernelIdeal.Gen Cert.KernelIdeal.Hand Cert.Spec Cert.Bridge.MlpPay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Where each block sits -/

/-- The hidden-state block and the two result blocks at point t are block (t, 0) of their arrays. -/
theorem grid_idx : ∀ t : Fin cfg1.N,
    win1_0.index t (0 : Fin 2) = t.val ∧ win1_0.index t (1 : Fin 2) = 0
    ∧ win1_9.index t (0 : Fin 2) = t.val ∧ win1_9.index t (1 : Fin 2) = 0
    ∧ win1_10.index t (0 : Fin 2) = t.val ∧ win1_10.index t (1 : Fin 2) = 0 :=
  (by decide +kernel : ∀ t : Fin grid1.N, _)

/-- The weight and bias blocks are block (0, 0) at every point: the whole array. -/
theorem whole_idx : ∀ t : Fin cfg1.N,
    win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-! ## The input blocks as parts of their arrays

A block's coordinate on an axis is (block index) × (block size) + 1 × (coordinate inside the block). With block
index 0 and the block as large as the array, the block is the array. -/

/-- The label head's first weight matrix, whole, at every point. -/
theorem blk_w1 (c : Dev nD) (t : Fin cfg1.N) : (iblk1 V c 1 t : Vec Ideal S512x512 .f32) = V c main_v15 := by
  obtain ⟨e0, e1, -⟩ := whole_idx t
  funext y
  unfold iblk1
  rw [View.read_apply]
  show V c main_v15 _ = V c main_v15 y
  congr 1
  funext a; apply Fin.ext
  match a with
  | ⟨0, _⟩ => show win1_1.index t (0 : Fin 2) * 512 + 1 * (y 0).val = (y 0).val; omega
  | ⟨1, _⟩ => show win1_1.index t (1 : Fin 2) * 512 + 1 * (y 1).val = (y 1).val; omega

/-- The label head's first bias row, whole, at every point. -/
theorem blk_w2 (c : Dev nD) (t : Fin cfg1.N) : (iblk1 V c 2 t : Vec Ideal S1x512 .f32) = V c main_v19 := by
  obtain ⟨-, -, e0, e1, -⟩ := whole_idx t
  funext y
  unfold iblk1
  rw [View.read_apply]
  show V c main_v19 _ = V c main_v19 y
  congr 1
  funext a; apply Fin.ext
  match a with
  | ⟨0, _⟩ => show win1_2.index t (0 : Fin 2) * 1 + 1 * (y 0).val = (y 0).val; omega
  | ⟨1, _⟩ => show win1_2.index t (1 : Fin 2) * 512 + 1 * (y 1).val = (y 1).val; omega

/-- The label head's second weight matrix, whole, at every point. -/
theorem blk_w3 (c : Dev nD) (t : Fin cfg1.N) : (iblk1 V c 3 t : Vec Ideal S512x1024 .f32) = V c main_v16 := by
  obtain ⟨-, -, -, -, e0, e1, -⟩ := whole_idx t
  funext y
  unfold iblk1
  rw [View.read_apply]
  show V c main_v16 _ = V c main_v16 y
  congr 1
  funext a; apply Fin.ext
  match a with
  | ⟨0, _⟩ => show win1_3.index t (0 : Fin 2) * 512 + 1 * (y 0).val = (y 0).val; omega
  | ⟨1, _⟩ => show win1_3.index t (1 : Fin 2) * 1024 + 1 * (y 1).val = (y 1).val; omega

/-- The label head's second bias row, whole, at every point. -/
theorem blk_w4 (c : Dev nD) (t : Fin cfg1.N) : (iblk1 V c 4 t : Vec Ideal S1x1024 .f32) = V c main_v20 := by
  obtain ⟨-, -, -, -, -, -, e0, e1, -⟩ := whole_idx t
  funext y
  unfold iblk1
  rw [View.read_apply]
  show V c main_v20 _ = V c main_v20 y
  congr 1
  funext a; apply Fin.ext
  match a with
  | ⟨0, _⟩ => show win1_4.index t (0 : Fin 2) * 1 + 1 * (y 0).val = (y 0).val; omega
  | ⟨1, _⟩ => show win1_4.index t (1 : Fin 2) * 1024 + 1 * (y 1).val = (y 1).val; omega

/-- The position head's first weight matrix, whole, at every point. -/
theorem blk_w5 (c : Dev nD) (t : Fin cfg1.N) : (iblk1 V c 5 t : Vec Ideal S512x512 .f32) = V c main_v17 := by
  obtain ⟨-, -, -, -, -, -, -, -, e0, e1, -⟩ := whole_idx t
  funext y
  unfold iblk1
  rw [View.read_apply]
  show V c main_v17 _ = V c main_v17 y
  congr 1
  funext a; apply Fin.ext
  match a with
  | ⟨0, _⟩ => show win1_5.index t (0 : Fin 2) * 512 + 1 * (y 0).val = (y 0).val; omega
  | ⟨1, _⟩ => show win1_5.index t (1 : Fin 2) * 512 + 1 * (y 1).val = (y 1).val; omega

/-- The position head's first bias row, whole, at every point. -/
theorem blk_w6 (c : Dev nD) (t : Fin cfg1.N) : (iblk1 V c 6 t : Vec Ideal S1x512 .f32) = V c main_v21 := by
  obtain ⟨-, -, -, -, -, -, -, -, -, -, e0, e1, -⟩ := whole_idx t
  funext y
  unfold iblk1
  rw [View.read_apply]
  show V c main_v21 _ = V c main_v21 y
  congr 1
  funext a; apply Fin.ext
  match a with
  | ⟨0, _⟩ => show win1_6.index t (0 : Fin 2) * 1 + 1 * (y 0).val = (y 0).val; omega
  | ⟨1, _⟩ => show win1_6.index t (1 : Fin 2) * 512 + 1 * (y 1).val = (y 1).val; omega

/-- The position head's second weight matrix, whole, at every point. -/
theorem blk_w7 (c : Dev nD) (t : Fin cfg1.N) : (iblk1 V c 7 t : Vec Ideal S512x2 .f32) = V c main_v18 := by
  obtain ⟨-, -, -, -, -, -, -, -, -, -, -, -, e0, e1, -⟩ := whole_idx t
  funext y
  unfold iblk1
  rw [View.read_apply]
  show V c main_v18 _ = V c main_v18 y
  congr 1
  funext a; apply Fin.ext
  match a with
  | ⟨0, _⟩ => show win1_7.index t (0 : Fin 2) * 512 + 1 * (y 0).val = (y 0).val; omega
  | ⟨1, _⟩ => show win1_7.index t (1 : Fin 2) * 2 + 1 * (y 1).val = (y 1).val; omega

/-- The position head's second bias row, whole, at every point. -/
theorem blk_w8 (c : Dev nD) (t : Fin cfg1.N) : (iblk1 V c 8 t : Vec Ideal S1x2 .f32) = V c main_v22 := by
  obtain ⟨-, -, -, -, -, -, -, -, -, -, -, -, -, -, e0, e1⟩ := whole_idx t
  funext y
  unfold iblk1
  rw [View.read_apply]
  show V c main_v22 _ = V c main_v22 y
  congr 1
  funext a; apply Fin.ext
  match a with
  | ⟨0, _⟩ => show win1_8.index t (0 : Fin 2) * 1 + 1 * (y 0).val = (y 0).val; omega
  | ⟨1, _⟩ => show win1_8.index t (1 : Fin 2) * 2 + 1 * (y 1).val = (y 1).val; omega

/-- Row p of the hidden-state block at point t is row 1024 t + p of the hidden-state array. -/
theorem blk_hid_row (c : Dev nD) (t : Fin cfg1.N) (p : Fin 1024) (i : Fin 16384) (hi : i.val = t.val * 1024 + p.val) :
    row (iblk1 V c 0 t : A2 1024 512) p = row (V c main_v14 : A2 16384 512) i := by
  obtain ⟨e0, e1, -⟩ := grid_idx t
  funext k
  show (iblk1 V c 0 t : A2 1024 512) (ix2 p k) = (V c main_v14 : A2 16384 512) (ix2 i k)
  unfold iblk1
  rw [View.read_apply]
  show V c main_v14 _ = V c main_v14 _
  congr 1
  funext a; apply Fin.ext
  match a with
  | ⟨0, _⟩ => show win1_0.index t (0 : Fin 2) * 1024 + 1 * p.val = i.val; omega
  | ⟨1, _⟩ => show win1_0.index t (1 : Fin 2) * 512 + 1 * k.val = k.val; omega

/-! ## The heads are row-wise

A head over a block of rows, read at (p, v), and the head over all rows, read at (r, v), agree as soon as row p
of the block is row r of the array: both are the row function of that one hidden row. -/

theorem typeK_block (h : A2 16384 512) (hb : A2 1024 512) (w1 : A2 512 512) (b1 : A2 1 512) (w2 : A2 512 1024) (b2 : A2 1 1024)
    (j : (⟨2, ![1024, 1024]⟩ : Shape).Idx) (i : (⟨2, ![16384, 1024]⟩ : Shape).Idx)
    (hrow : row hb (j 0) = row h (i 0)) (h1 : (i 1).val = (j 1).val) :
    typeK (R := 1024) hb w1 b1 w2 b2 j = typeK (R := 16384) h w1 b1 w2 b2 i := by
  have e1 : i 1 = j 1 := Fin.ext h1
  show typeCell (row hb (j 0)) w1 b1 w2 b2 (j 1) = typeCell (row h (i 0)) w1 b1 w2 b2 (i 1)
  rw [hrow, e1]

theorem posK_block (h : A2 16384 512) (hb : A2 1024 512) (w1 : A2 512 512) (b1 : A2 1 512) (w2 : A2 512 2) (b2 : A2 1 2)
    (j : (⟨2, ![1024, 2]⟩ : Shape).Idx) (i : (⟨2, ![16384, 2]⟩ : Shape).Idx)
    (hrow : row hb (j 0) = row h (i 0)) (h1 : (i 1).val = (j 1).val) :
    posK (R := 1024) hb w1 b1 w2 b2 j = posK (R := 16384) h w1 b1 w2 b2 i := by
  have e1 : i 1 = j 1 := Fin.ext h1
  show posCell (row hb (j 0)) w1 b1 w2 b2 (j 1) = posCell (row h (i 0)) w1 b1 w2 b2 (i 1)
  rw [hrow, e1]
/-! ## What each point writes back -/

/-- What point t writes back to the label array is block t of the label head over all rows. -/
theorem type_flushed (c : Dev nD) (t : Fin cfg1.N) :
    (dat1 (F := Ideal) V c).flushed 9 t = ((cfg1.win 9).blk t).view.read (Elt Ideal)
      (typeK (R := 16384) (V c main_v14) (V c main_v15) (V c main_v19) (V c main_v16) (V c main_v20)) := by
  show (cfg1.win 9).cut (grid1.coords t) ((dat1 (F := Ideal) V c).after 9 t) = _
  rw [after1_9, out1_9_eq, k1_pay3_eq, blk_w1, blk_w2, blk_w3, blk_w4]
  obtain ⟨-, -, e0, e1, -⟩ := grid_idx t
  funext j
  rw [View.read_apply]
  refine typeK_block _ _ _ _ _ _ _ _ (blk_hid_row V c t _ _ ?_) ?_
  · show win1_9.index t (0 : Fin 2) * 1024 + 1 * (j 0).val = t.val * 1024 + (j 0).val; omega
  · show win1_9.index t (1 : Fin 2) * 1024 + 1 * (j 1).val = (j 1).val; omega

/-- What point t writes back to the position array is block t of the position head over all rows. -/
theorem pos_flushed (c : Dev nD) (t : Fin cfg1.N) :
    (dat1 (F := Ideal) V c).flushed 10 t = ((cfg1.win 10).blk t).view.read (Elt Ideal)
      (posK (R := 16384) (V c main_v14) (V c main_v17) (V c main_v21) (V c main_v18) (V c main_v22)) := by
  show (cfg1.win 10).cut (grid1.coords t) ((dat1 (F := Ideal) V c).after 10 t) = _
  rw [after1_10, out1_10_eq, k1_pay1_eq, blk_w5, blk_w6, blk_w7, blk_w8]
  obtain ⟨-, -, -, -, e0, e1⟩ := grid_idx t
  funext j
  rw [View.read_apply]
  refine posK_block _ _ _ _ _ _ _ _ (blk_hid_row V c t _ _ ?_) ?_
  · show win1_10.index t (0 : Fin 2) * 1024 + 1 * (j 0).val = t.val * 1024 + (j 0).val; omega
  · show win1_10.index t (1 : Fin 2) * 2 + 1 * (j 1).val = (j 1).val; omega

/-! ## The blocks tile the arrays -/

/-- An index of the label array is in point t's block iff each coordinate is in the block's range on its axis. -/
theorem type_mem_blk (t : Fin cfg1.N) (i : S16384x1024.Idx) :
    i ∈ ((cfg1.win 9).blk t).view.set ↔ ∀ a : Fin 2, win1_9.index t a * S1024x1024.size a ≤ (i a).val ∧ (i a).val < win1_9.index t a * S1024x1024.size a + S1024x1024.size a := by
  show i ∈ ((View.whole main_v23_0).slice (win1_9.rect t)).set ↔ _
  rw [View.set_slice_whole, Rect.mem_set_unit]
  exact Iff.rfl

/-- The same for the position array. -/
theorem pos_mem_blk (t : Fin cfg1.N) (i : S16384x2.Idx) :
    i ∈ ((cfg1.win 10).blk t).view.set ↔ ∀ a : Fin 2, win1_10.index t a * S1024x2.size a ≤ (i a).val ∧ (i a).val < win1_10.index t a * S1024x2.size a + S1024x2.size a := by
  show i ∈ ((View.whole main_v23_1).slice (win1_10.rect t)).set ↔ _
  rw [View.set_slice_whole, Rect.mem_set_unit]
  exact Iff.rfl

/-- Every index of the label array is in the block of the point its row falls in: row r is in block r / 1024,
    since 1024 (r / 1024) ≤ r < 1024 (r / 1024) + 1024. -/
theorem type_cover (i : S16384x1024.Idx) :
    ∃ t : Fin cfg1.N, (cfg1.win 9).flush t = true ∧ i ∈ ((cfg1.win 9).blk t).view.set := by
  have hi0 : (i 0).val < 16384 := (i 0).isLt
  have hi1 : (i 1).val < 1024 := (i 1).isLt
  have hN : cfg1.N = 16 := N_1
  let t : Fin cfg1.N := ⟨(i 0).val / 1024, by rw [hN]; omega⟩
  obtain ⟨-, -, e0, e1, -⟩ := grid_idx t
  have ht : t.val = (i 0).val / 1024 := rfl
  refine ⟨t, flush1_9 t, ?_⟩
  rw [type_mem_blk]
  intro a
  match a with
  | ⟨0, _⟩ => show win1_9.index t (0 : Fin 2) * 1024 ≤ (i 0).val ∧ (i 0).val < win1_9.index t (0 : Fin 2) * 1024 + 1024; omega
  | ⟨1, _⟩ => show win1_9.index t (1 : Fin 2) * 1024 ≤ (i 1).val ∧ (i 1).val < win1_9.index t (1 : Fin 2) * 1024 + 1024; omega

/-- The same for the position array. -/
theorem pos_cover (i : S16384x2.Idx) :
    ∃ t : Fin cfg1.N, (cfg1.win 10).flush t = true ∧ i ∈ ((cfg1.win 10).blk t).view.set := by
  have hi0 : (i 0).val < 16384 := (i 0).isLt
  have hi1 : (i 1).val < 2 := (i 1).isLt
  have hN : cfg1.N = 16 := N_1
  let t : Fin cfg1.N := ⟨(i 0).val / 1024, by rw [hN]; omega⟩
  obtain ⟨-, -, -, -, e0, e1⟩ := grid_idx t
  have ht : t.val = (i 0).val / 1024 := rfl
  refine ⟨t, flush1_10 t, ?_⟩
  rw [pos_mem_blk]
  intro a
  match a with
  | ⟨0, _⟩ => show win1_10.index t (0 : Fin 2) * 1024 ≤ (i 0).val ∧ (i 0).val < win1_10.index t (0 : Fin 2) * 1024 + 1024; omega
  | ⟨1, _⟩ => show win1_10.index t (1 : Fin 2) * 2 ≤ (i 1).val ∧ (i 1).val < win1_10.index t (1 : Fin 2) * 2 + 2; omega

/-! ## The result arrays after the region -/

/-- The label array ends holding the label head of all 16384 hidden rows. -/
theorem type_arr (c : Dev nD) :
    (dat1 (F := Ideal) V c).arrAt 9 cfg1.N = Cert.Spec.typeK (R := 16384) (V c main_v14) (V c main_v15) (V c main_v19) (V c main_v16) (V c main_v20) :=
  (dat1 (F := Ideal) V c).arrAt_eq_of_cover 9 _ (fun t _ => type_flushed V c t) type_cover

/-- The position array ends holding the position head of all 16384 hidden rows. -/
theorem pos_arr (c : Dev nD) :
    (dat1 (F := Ideal) V c).arrAt 10 cfg1.N = Cert.Spec.posK (R := 16384) (V c main_v14) (V c main_v17) (V c main_v21) (V c main_v18) (V c main_v22) :=
  (dat1 (F := Ideal) V c).arrAt_eq_of_cover 10 _ (fun t _ => pos_flushed V c t) pos_cover

end Cert.Bridge.MlpCover

end
-- ==== Proof.HostTerms.lean ====
/-
  The input row of the network, as each program computes it before anything else.

  Both programs build x = [ emb_table[label] | pos_table[pos mod 8192] | ho_pos · w_hpᵀ + b_hp | cond ] on all
  16384 rows at once, 1282 features a row. A table lookup first wraps a negative index by the table's length and
  then gathers the row. The kernel's lookups also test the wrapped index against the table's bounds and put a NaN
  row where the test fails; the reference's do not. The remainder pos mod 8192 is the truncated remainder moved
  into the divisor's sign.

  This file writes the two computations as pure terms of the arguments, one binding per operation in the order
  the programs state them: kEmb, kRem, kPos, kHo, kX for the kernel and rEmb, rRem, rPos, rHo, rX for the
  reference.
-/
import proofs.«406328_j56736517980496_1_alg».proof.KernelIdeal
import proofs.«406328_j56736517980496_1_alg».proof.ReferenceIdeal
import Idealize.ShloMosaic.PureOps.Ideal

noncomputable section

namespace Cert.Bridge

open Idealize.ShloMosaic

variable [Cert.KernelIdeal.Facts] [Cert.ReferenceIdeal.Facts]

/-! ## The kernel's input row -/

section Kernel

open Cert.KernelIdeal Cert.KernelIdeal.Facts₀ Cert.KernelIdeal.Facts

/-- emb_table[label]: the label wrapped by +1024 where negative, the row gathered, and the gathered row kept
    where 0 ≤ wrapped ≤ 1023, a NaN row elsewhere. -/
def kEmb (embT : FVec Ideal S1024x256 .f32) (tl : IVec S16384 32) : FVec Ideal S16384x256 .f32 :=
  -- the wrapped label
  let c : IVec S_ 32 := constantI S_ 32 0#32
  let v0 : IVec S16384 32 := broadcastInDim S16384 ![] bcast_S_S16384 c
  let v1 : IVec S16384 1 := cmpi .slt tl v0
  let c_0 : IVec S_ 32 := constantI S_ 32 1024#32
  let v2 : IVec S16384 32 := broadcastInDim S16384 ![] bcast_S_S16384 c_0
  let v3 : IVec S16384 32 := addi tl v2
  let v4 : IVec S16384 32 := select v1 v3 tl
  let v5 : IVec S16384x1 32 := broadcastInDim S16384x1 ![0] bcast_S16384_S16384x1_0 v4
  -- the bounds test 0 ≤ wrapped ≤ 1023, and-reduced over the index vector's one component
  let c_1 : IVec S1 32 := constantI S1 32 1023#32
  let c_2 : IVec S_ 32 := constantI S_ 32 0#32
  let v6 : IVec S16384x1 32 := broadcastInDim S16384x1 ![] bcast_S_S16384x1 c_2
  let v7 : IVec S16384x1 1 := cmpi .sge v5 v6
  let v8 : IVec S1x1 32 := broadcastInDim S1x1 ![1] bcast_S1_S1x1_1 c_1
  let v9 : IVec S16384x1 32 := broadcastInDim S16384x1 ![0, 1] bcast_S1x1_S16384x1_0_1 v8
  let v10 : IVec S16384x1 1 := cmpi .sle v5 v9
  let v11 : IVec S16384x1 1 := andi v7 v10
  let c_3 : IVec S_ 1 := constantI S_ 1 1#1
  let v12 : IVec S16384 1 := Host.reduce IntOp.andi v11 c_3 reducesTo_S16384x1_S16384_d1 h_S_
  -- the gathered rows, kept where the test holds
  let v13 : FVec Ideal S16384x256 .f32 := Host.gather gather_S1024x256_S16384x1_S16384x256_1_0_n_n_0_1_1256 embT v5
  let v14 : IVec S16384x256 1 := broadcastInDim S16384x256 ![0] bcast_S16384_S16384x256_0 v12
  let cst : FVec Ideal S_ .f32 := constant S_ .f32 0x7FC00000#32
  let v15 : FVec Ideal S16384x256 .f32 := broadcastInDim S16384x256 ![] bcast_S_S16384x256 cst
  select v14 v13 v15

/-- pos mod 8192: the truncated remainder r = pos rem 8192, moved by +8192 where r ≠ 0 and r's sign is not the
    divisor's (a zero divisor is first replaced by 1). -/
def kRem (pos : IVec S16384 32) : IVec S16384 32 :=
  let mc : IVec S_ 32 := constantI S_ 32 8192#32
  let v0 : IVec S_ 32 := id mc
  let c : IVec S_ 32 := constantI S_ 32 0#32
  let v1 : IVec S_ 1 := cmpi .eq v0 c
  let c_0 : IVec S_ 32 := constantI S_ 32 1#32
  let v2 : IVec S_ 32 := select v1 c_0 v0
  let v3 : IVec S16384 32 := broadcastInDim S16384 ![] bcast_S_S16384 v2
  let v4 : IVec S16384 32 := Host.remsi pos v3
  let c_1 : IVec S_ 32 := constantI S_ 32 0#32
  let v5 : IVec S16384 32 := broadcastInDim S16384 ![] bcast_S_S16384 c_1
  let v6 : IVec S16384 1 := cmpi .ne v4 v5
  let c_2 : IVec S_ 32 := constantI S_ 32 0#32
  let v7 : IVec S16384 32 := broadcastInDim S16384 ![] bcast_S_S16384 c_2
  let v8 : IVec S16384 1 := cmpi .slt v4 v7
  let c_3 : IVec S_ 32 := constantI S_ 32 0#32
  let v9 : IVec S_ 1 := cmpi .slt v2 c_3
  let v10 : IVec S16384 1 := broadcastInDim S16384 ![] bcast_S_S16384 v9
  let v11 : IVec S16384 1 := cmpi .ne v8 v10
  let v12 : IVec S16384 1 := andi v11 v6
  let v13 : IVec S16384 32 := broadcastInDim S16384 ![] bcast_S_S16384 v2
  let v14 : IVec S16384 32 := addi v4 v13
  select v12 v14 v4

/-- pos_table[r] for a remainder vector r: wrapped by +8192 where negative, gathered, kept where
    0 ≤ wrapped ≤ 8191, a NaN row elsewhere. -/
def kPos (posT : FVec Ideal S8192x256 .f32) (r : IVec S16384 32) : FVec Ideal S16384x256 .f32 :=
  let c : IVec S_ 32 := constantI S_ 32 0#32
  let v0 : IVec S16384 32 := broadcastInDim S16384 ![] bcast_S_S16384 c
  let v1 : IVec S16384 1 := cmpi .slt r v0
  let c_0 : IVec S_ 32 := constantI S_ 32 8192#32
  let v2 : IVec S16384 32 := broadcastInDim S16384 ![] bcast_S_S16384 c_0
  let v3 : IVec S16384 32 := addi r v2
  let v4 : IVec S16384 32 := select v1 v3 r
  let v5 : IVec S16384x1 32 := broadcastInDim S16384x1 ![0] bcast_S16384_S16384x1_0 v4
  let c_1 : IVec S1 32 := constantI S1 32 8191#32
  let c_2 : IVec S_ 32 := constantI S_ 32 0#32
  let v6 : IVec S16384x1 32 := broadcastInDim S16384x1 ![] bcast_S_S16384x1 c_2
  let v7 : IVec S16384x1 1 := cmpi .sge v5 v6
  let v8 : IVec S1x1 32 := broadcastInDim S1x1 ![1] bcast_S1_S1x1_1 c_1
  let v9 : IVec S16384x1 32 := broadcastInDim S16384x1 ![0, 1] bcast_S1x1_S16384x1_0_1 v8
  let v10 : IVec S16384x1 1 := cmpi .sle v5 v9
  let v11 : IVec S16384x1 1 := andi v7 v10
  let c_3 : IVec S_ 1 := constantI S_ 1 1#1
  let v12 : IVec S16384 1 := Host.reduce IntOp.andi v11 c_3 reducesTo_S16384x1_S16384_d1 h_S_
  let v13 : FVec Ideal S16384x256 .f32 := Host.gather gather_S8192x256_S16384x1_S16384x256_1_0_n_n_0_1_1256 posT v5
  let v14 : IVec S16384x256 1 := broadcastInDim S16384x256 ![0] bcast_S16384_S16384x256_0 v12
  let cst : FVec Ideal S_ .f32 := constant S_ .f32 0x7FC00000#32
  let v15 : FVec Ideal S16384x256 .f32 := broadcastInDim S16384x256 ![] bcast_S_S16384x256 cst
  select v14 v13 v15

/-- ho_pos · w_hpᵀ + b_hp, the bias row repeated down the rows. -/
def kHo (hop : FVec Ideal S16384x2 .f32) (whp : FVec Ideal S256x2 .f32) (bhp : FVec Ideal S256 .f32) :
    FVec Ideal S16384x256 .f32 :=
  let v3 : FVec Ideal S2x256 .f32 := transpose S2x256 [1, 0] whp transposes_S256x2_S2x256_1_0
  let v4 : FVec Ideal S16384x256 .f32 := Host.dotGeneral dot_S16384x2_S2x256_S16384x256_1_0_0_1_n_n none hop v3
  let v5 : FVec Ideal S1x256 .f32 := broadcastInDim S1x256 ![1] bcast_S256_S1x256_1 bhp
  let v6 : FVec Ideal S16384x256 .f32 := broadcastInDim S16384x256 ![0, 1] bcast_S1x256_S16384x256_0_1 v5
  addf v4 v6

/-- The kernel's input row: the four blocks side by side. -/
def kX (cond : FVec Ideal S16384x514 .f32) (hop : FVec Ideal S16384x2 .f32) (embT : FVec Ideal S1024x256 .f32)
    (posT : FVec Ideal S8192x256 .f32) (whp : FVec Ideal S256x2 .f32) (bhp : FVec Ideal S256 .f32)
    (tl pos : IVec S16384 32) : FVec Ideal S16384x1282 .f32 :=
  let v0 : FVec Ideal S16384x256 .f32 := kEmb embT tl
  let v1 : IVec S16384 32 := kRem pos
  let v2 : FVec Ideal S16384x256 .f32 := kPos posT v1
  let v7 : FVec Ideal S16384x256 .f32 := kHo hop whp bhp
  concatenate S16384x1282 1 [⟨S16384x256, v0⟩, ⟨S16384x256, v2⟩, ⟨S16384x256, v7⟩, ⟨S16384x514, cond⟩]
    concatenates_S16384x256_S16384x256_S16384x256_S16384x514_S16384x1282_d1

end Kernel

/-! ## The reference's input row -/

section Reference

open Cert.ReferenceIdeal Cert.ReferenceIdeal.Facts₀ Cert.ReferenceIdeal.Facts

/-- emb_table[label]: the label wrapped by +1024 where negative, the row gathered. -/
def rEmb (embT : FVec Ideal S1024x256 .f32) (tl : IVec S16384 32) : FVec Ideal S16384x256 .f32 :=
  let c : IVec S_ 32 := constantI S_ 32 0#32
  let v0 : IVec S16384 32 := broadcastInDim S16384 ![] bcast_S_S16384 c
  let v1 : IVec S16384 1 := cmpi .slt tl v0
  let c_0 : IVec S_ 32 := constantI S_ 32 1024#32
  let v2 : IVec S16384 32 := broadcastInDim S16384 ![] bcast_S_S16384 c_0
  let v3 : IVec S16384 32 := addi tl v2
  let v4 : IVec S16384 32 := select v1 v3 tl
  let v5 : IVec S16384x1 32 := broadcastInDim S16384x1 ![0] bcast_S16384_S16384x1_0 v4
  Host.gather gather_S1024x256_S16384x1_S16384x256_1_0_n_n_0_1_1256 embT v5

/-- pos mod 8192, as the kernel spells it. -/
def rRem (pos : IVec S16384 32) : IVec S16384 32 :=
  let mc : IVec S_ 32 := constantI S_ 32 8192#32
  let v0 : IVec S_ 32 := id mc
  let c : IVec S_ 32 := constantI S_ 32 0#32
  let v1 : IVec S_ 1 := cmpi .eq v0 c
  let c_0 : IVec S_ 32 := constantI S_ 32 1#32
  let v2 : IVec S_ 32 := select v1 c_0 v0
  let v3 : IVec S16384 32 := broadcastInDim S16384 ![] bcast_S_S16384 v2
  let v4 : IVec S16384 32 := Host.remsi pos v3
  let c_1 : IVec S_ 32 := constantI S_ 32 0#32
  let v5 : IVec S16384 32 := broadcastInDim S16384 ![] bcast_S_S16384 c_1
  let v6 : IVec S16384 1 := cmpi .ne v4 v5
  let c_2 : IVec S_ 32 := constantI S_ 32 0#32
  let v7 : IVec S16384 32 := broadcastInDim S16384 ![] bcast_S_S16384 c_2
  let v8 : IVec S16384 1 := cmpi .slt v4 v7
  let c_3 : IVec S_ 32 := constantI S_ 32 0#32
  let v9 : IVec S_ 1 := cmpi .slt v2 c_3
  let v10 : IVec S16384 1 := broadcastInDim S16384 ![] bcast_S_S16384 v9
  let v11 : IVec S16384 1 := cmpi .ne v8 v10
  let v12 : IVec S16384 1 := andi v11 v6
  let v13 : IVec S16384 32 := broadcastInDim S16384 ![] bcast_S_S16384 v2
  let v14 : IVec S16384 32 := addi v4 v13
  select v12 v14 v4

/-- pos_table[r] for a remainder vector r: wrapped by +8192 where negative, gathered. -/
def rPos (posT : FVec Ideal S8192x256 .f32) (r : IVec S16384 32) : FVec Ideal S16384x256 .f32 :=
  let c_2 : IVec S_ 32 := constantI S_ 32 0#32
  let v8 : IVec S16384 32 := broadcastInDim S16384 ![] bcast_S_S16384 c_2
  let v9 : IVec S16384 1 := cmpi .slt r v8
  let c_3 : IVec S_ 32 := constantI S_ 32 8192#32
  let v10 : IVec S16384 32 := broadcastInDim S16384 ![] bcast_S_S16384 c_3
  let v11 : IVec S16384 32 := addi r v10
  let v12 : IVec S16384 32 := select v9 v11 r
  let v13 : IVec S16384x1 32 := broadcastInDim S16384x1 ![0] bcast_S16384_S16384x1_0 v12
  Host.gather gather_S8192x256_S16384x1_S16384x256_1_0_n_n_0_1_1256 posT v13

/-- ho_pos · w_hpᵀ + b_hp, the bias row repeated down the rows. -/
def rHo (hop : FVec Ideal S16384x2 .f32) (whp : FVec Ideal S256x2 .f32) (bhp : FVec Ideal S256 .f32) :
    FVec Ideal S16384x256 .f32 :=
  let v15 : FVec Ideal S2x256 .f32 := transpose S2x256 [1, 0] whp transposes_S256x2_S2x256_1_0
  let v16 : FVec Ideal S16384x256 .f32 := Host.dotGeneral dot_S16384x2_S2x256_S16384x256_1_0_0_1_n_n none hop v15
  let v17 : FVec Ideal S1x256 .f32 := broadcastInDim S1x256 ![1] bcast_S256_S1x256_1 bhp
  let v18 : FVec Ideal S16384x256 .f32 := broadcastInDim S16384x256 ![0, 1] bcast_S1x256_S16384x256_0_1 v17
  addf v16 v18

/-- The reference's input row: the four blocks side by side. -/
def rX (cond : FVec Ideal S16384x514 .f32) (hop : FVec Ideal S16384x2 .f32) (embT : FVec Ideal S1024x256 .f32)
    (posT : FVec Ideal S8192x256 .f32) (whp : FVec Ideal S256x2 .f32) (bhp : FVec Ideal S256 .f32)
    (tl pos : IVec S16384 32) : FVec Ideal S16384x1282 .f32 :=
  let v6 : FVec Ideal S16384x256 .f32 := rEmb embT tl
  let v7 : IVec S16384 32 := rRem pos
  let v14 : FVec Ideal S16384x256 .f32 := rPos posT v7
  let v19 : FVec Ideal S16384x256 .f32 := rHo hop whp bhp
  concatenate S16384x1282 1 [⟨S16384x256, v6⟩, ⟨S16384x256, v14⟩, ⟨S16384x256, v19⟩, ⟨S16384x514, cond⟩]
    concatenates_S16384x256_S16384x256_S16384x256_S16384x514_S16384x1282_d1

end Reference

end Cert.Bridge

end
-- ==== Proof.KHost.lean ====
/-
  The kernel program's host stretches, read as pure terms.

  Between the launch and the first kernel region the program prepares the GRU's operands: the input rows (the two
  gathered embeddings, the affine image of the hand-over position and the conditioning data, side by side), the
  previous hidden state with its leading unit axis dropped, the two weight matrices transposed so that the contraction
  axis comes first, and the two biases as one-row arrays. Between the two regions it prepares the heads' operands the
  same way (four transposed weight matrices, four one-row biases); after the second region it puts the leading unit
  axis back on the new hidden state. Each lemma below says what one of these arrays holds, as a function of the
  buffers before the stretch; the last lemmas say that a stretch leaves every buffer it does not write as it was.
-/
import proofs.«406328_j56736517980496_1_alg».proof.Proof.Gen.KernelIdeal.Regions
import proofs.«406328_j56736517980496_1_alg».proof.Proof.HostTerms
import proofs.«406328_j56736517980496_1_alg».proof.Proof.Spec
import Idealize.ShloMosaic.Lib.StableHlo.Run
import Idealize.ShloMosaic.Lib.Pipeline.Value
import Idealize.ShloMosaic.Lib.ValueIdx
import Idealize.ShloMosaic.Lib.ValueLayout

-- membership among the program's 136 references is decided by a recursion past the default depth
set_option maxRecDepth 1056

noncomputable section

namespace Cert.Bridge.KHost

open Cert.KernelIdeal Idealize.ShloMosaic Idealize.ShloMosaic.StableHlo Idealize.ShloMosaic.ValueIdx
open Cert.KernelIdeal.Gen (hostOps0 hostOps0_1 hostOps0_2 hostOps0_3 hostOps0_4 hostOps1 hostOps2
  hostOps0_W hostOps0_1_W hostOps0_2_W hostOps0_3_W hostOps0_4_W hostOps1_W hostOps2_W
  hostOps0_writes hostOps0_1_writes hostOps0_2_writes hostOps0_3_writes hostOps0_4_writes hostOps1_writes hostOps2_writes)

variable [Cert.KernelIdeal.Facts]
open Cert.KernelIdeal.Facts₀ Cert.KernelIdeal.Facts

/-! ## A rank-1 array recast as one row -/

/-- A rank-1 array recast to one row holds, at `[0, c]`, the array's entry `c`. -/
theorem shapeCast_row {N : Nat} (b : (⟨1, ![N]⟩ : Shape).Idx → EReal) (h : (⟨1, ![N]⟩ : Shape).ShapeCasts ⟨2, ![1, N]⟩) :
    shapeCast ⟨2, ![1, N]⟩ b h = Cert.Spec.rowOf b := by
  funext idx
  rw [eq_ix2 idx]
  exact shapeCast_a_1a_apply b h (idx 0) (idx 1)

/-! ## Before the first region -/

/-- The buffers once the first four stretches (the two embedding look-ups and the position's remainder) have run. -/
abbrev pre4 (M : Valuation τ sig (Elt Ideal)) : Valuation τ sig (Elt Ideal) :=
  StableHlo.after hostOps0_3 (StableHlo.after hostOps0_2 (StableHlo.after hostOps0_1 (StableHlo.after hostOps0 M)))

/-- The buffers when the first region starts: all five stretches have run. -/
abbrev pre5 (M : Valuation τ sig (Elt Ideal)) : Valuation τ sig (Elt Ideal) :=
  StableHlo.after hostOps0_4 (StableHlo.after hostOps0_3 (StableHlo.after hostOps0_2 (StableHlo.after hostOps0_1 (StableHlo.after hostOps0 M))))

/-- The first four stretches leave a buffer none of them writes as it was. -/
theorem pre4_keep (M : Valuation τ sig (Elt Ideal)) (b : Ref sig .tc) (h0 : b ∉ hostOps0_W) (h1 : b ∉ hostOps0_1_W)
    (h2 : b ∉ hostOps0_2_W) (h3 : b ∉ hostOps0_3_W) : pre4 M (Proc.devRef .tc b) = M (Proc.devRef .tc b) :=
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  StableHlo.after_of_writes_sub hostOps0 _ hostOps0_writes h0

/-- No stretch before the first region writes an argument of the program. -/
theorem pre5_arg (M : Valuation τ sig (Elt Ideal)) (b : Ref sig .tc)
    (hb : b ∈ ([main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20] : List (Ref sig .tc))) :
    pre5 M (Proc.devRef .tc b) = M (Proc.devRef .tc b) :=
  (StableHlo.after_of_writes_sub hostOps0_4 _ hostOps0_4_writes
    ((by decide : ∀ r ∈ ([main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20] : List (Ref sig .tc)), r ∉ hostOps0_4_W) b hb)).trans <|
  pre4_keep M b
    ((by decide : ∀ r ∈ ([main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20] : List (Ref sig .tc)), r ∉ hostOps0_W) b hb)
    ((by decide : ∀ r ∈ ([main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20] : List (Ref sig .tc)), r ∉ hostOps0_1_W) b hb)
    ((by decide : ∀ r ∈ ([main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20] : List (Ref sig .tc)), r ∉ hostOps0_2_W) b hb)
    ((by decide : ∀ r ∈ ([main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20] : List (Ref sig .tc)), r ∉ hostOps0_3_W) b hb)

/-- The label embedding: the first stretch's result is the look-up of the labels in the label table. -/
theorem take0 (M : Valuation τ sig (Elt Ideal)) :
    StableHlo.after hostOps0 M (Proc.devRef .tc main_v0)
      = kEmb (M (Proc.devRef .tc main_arg3) : FVec Ideal S1024x256 .f32) (M (Proc.devRef .tc main_arg19) : IVec S16384 32) := by
  after_results_simp
  simp only [cast_eq]
  rfl

/-- The positions modulo 8192: the divisor's stretch and the remainder's stretch together. -/
theorem rem2 (W : Valuation τ sig (Elt Ideal)) :
    StableHlo.after hostOps0_2 (StableHlo.after hostOps0_1 W) (Proc.devRef .tc main_v1)
      = kRem (W (Proc.devRef .tc main_arg20) : IVec S16384 32) := by
  after_results_simp
  simp only [cast_eq]
  rfl

/-- The position embedding: the fourth stretch's result is the look-up of the remainders in the position table. -/
theorem take3 (W : Valuation τ sig (Elt Ideal)) :
    StableHlo.after hostOps0_3 W (Proc.devRef .tc main_v2)
      = kPos (W (Proc.devRef .tc main_arg4) : FVec Ideal S8192x256 .f32) (W (Proc.devRef .tc main_v1) : IVec S16384 32) := by
  after_results_simp
  simp only [cast_eq]
  rfl

/-- The label embedding is still there when the fifth stretch starts: the three stretches between do not write it. -/
theorem pre4_v0 (M : Valuation τ sig (Elt Ideal)) :
    pre4 M (Proc.devRef .tc main_v0)
      = kEmb (M (Proc.devRef .tc main_arg3) : FVec Ideal S1024x256 .f32) (M (Proc.devRef .tc main_arg19) : IVec S16384 32) :=
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <| take0 M

/-- The position embedding when the fifth stretch starts: the look-up, in the position table, of the positions modulo 8192. -/
theorem pre4_v2 (M : Valuation τ sig (Elt Ideal)) :
    pre4 M (Proc.devRef .tc main_v2)
      = kPos (M (Proc.devRef .tc main_arg4) : FVec Ideal S8192x256 .f32) (kRem (M (Proc.devRef .tc main_arg20) : IVec S16384 32)) := by
  show StableHlo.after hostOps0_3 (StableHlo.after hostOps0_2 (StableHlo.after hostOps0_1 (StableHlo.after hostOps0 M))) (Proc.devRef .tc main_v2) = _
  rw [take3, rem2,
    StableHlo.after_of_writes_sub hostOps0 M hostOps0_writes (by decide : main_arg20 ∉ hostOps0_W),
    StableHlo.after_of_writes_sub hostOps0_2 _ hostOps0_2_writes (by decide : main_arg4 ∉ hostOps0_2_W),
    StableHlo.after_of_writes_sub hostOps0_1 _ hostOps0_1_writes (by decide : main_arg4 ∉ hostOps0_1_W),
    StableHlo.after_of_writes_sub hostOps0 M hostOps0_writes (by decide : main_arg4 ∉ hostOps0_W)]

/-- The input rows are the four blocks side by side. -/
theorem kX_eq (cond : FVec Ideal S16384x514 .f32) (hop : FVec Ideal S16384x2 .f32) (embT : FVec Ideal S1024x256 .f32)
    (posT : FVec Ideal S8192x256 .f32) (whp : FVec Ideal S256x2 .f32) (bhp : FVec Ideal S256 .f32) (tl pos : IVec S16384 32) :
    kX cond hop embT posT whp bhp tl pos
      = concatenate S16384x1282 1 [⟨S16384x256, kEmb embT tl⟩, ⟨S16384x256, kPos posT (kRem pos)⟩,
          ⟨S16384x256, kHo hop whp bhp⟩, ⟨S16384x514, cond⟩]
          concatenates_S16384x256_S16384x256_S16384x256_S16384x514_S16384x1282_d1 := rfl

/-- The hand-over block is the product with the transposed weights plus the bias row repeated down the rows. -/
theorem kHo_eq (hop : FVec Ideal S16384x2 .f32) (whp : FVec Ideal S256x2 .f32) (bhp : FVec Ideal S256 .f32) :
    kHo hop whp bhp
      = addf (Host.dotGeneral dot_S16384x2_S2x256_S16384x256_1_0_0_1_n_n none hop (transpose S2x256 [1, 0] whp transposes_S256x2_S2x256_1_0))
          (broadcastInDim S16384x256 ![0, 1] bcast_S1x256_S16384x256_0_1 (broadcastInDim S1x256 ![1] bcast_S256_S1x256_1 bhp)) := rfl

/-- The input rows: the label embedding, the position embedding, the affine image of the hand-over position and the
    conditioning data, side by side. -/
theorem pre5_v8 (M : Valuation τ sig (Elt Ideal)) :
    pre5 M (Proc.devRef .tc main_v8)
      = kX (M (Proc.devRef .tc main_arg0)) (M (Proc.devRef .tc main_arg1)) (M (Proc.devRef .tc main_arg3))
          (M (Proc.devRef .tc main_arg4)) (M (Proc.devRef .tc main_arg5)) (M (Proc.devRef .tc main_arg6))
          (M (Proc.devRef .tc main_arg19)) (M (Proc.devRef .tc main_arg20)) := by
  have e0 := pre4_v0 M
  have e2 := pre4_v2 M
  have a0 := pre4_keep M main_arg0 (by decide) (by decide) (by decide) (by decide)
  have a1 := pre4_keep M main_arg1 (by decide) (by decide) (by decide) (by decide)
  have a5 := pre4_keep M main_arg5 (by decide) (by decide) (by decide) (by decide)
  have a6 := pre4_keep M main_arg6 (by decide) (by decide) (by decide) (by decide)
  rw [kX_eq, kHo_eq, ← e0, ← e2, ← a0, ← a1, ← a5, ← a6]
  show StableHlo.after hostOps0_4 (pre4 M) (Proc.devRef .tc main_v8) = _
  generalize pre4 M = W
  simp only [after_cons, after_nil]
  -- the five operations after the concatenation write other arrays
  rw [reshape_result_ne]; rotate_left; decide
  rw [reshape_result_ne]; rotate_left; decide
  rw [unary_result_ne]; rotate_left; decide
  rw [unary_result_ne]; rotate_left; decide
  rw [reshape_result_ne]; rotate_left; decide
  -- the concatenation of its four operands, each read where it was written
  rw [nary4_result]
  repeat (first
    | rw [binary_result] | rw [unary_result]
    | (rw [binary_result_ne]; rotate_left; decide)
    | (rw [unary_result_ne]; rotate_left; decide))
  -- a family listed entry by entry, read at 0 … 3, is its entries
  generalize W (Proc.devRef .tc main_v0) = A
  generalize W (Proc.devRef .tc main_v2) = B
  generalize (addf _ _ : FVec Ideal S16384x256 .f32) = C
  generalize W (Proc.devRef .tc main_arg0) = D
  rfl

/-- The previous hidden state: the argument with its leading unit axis dropped. -/
theorem pre5_v9 (M : Valuation τ sig (Elt Ideal)) :
    pre5 M (Proc.devRef .tc main_v9)
      = shapeCast S16384x512 (M (Proc.devRef .tc main_arg2) : FVec Ideal S1x16384x512 .f32) shapeCasts_S1x16384x512_S16384x512 := by
  rw [← pre4_keep M main_arg2 (by decide) (by decide) (by decide) (by decide)]
  show StableHlo.after hostOps0_4 (pre4 M) (Proc.devRef .tc main_v9) = _
  generalize pre4 M = W
  after_results
  rfl

/-- The input weights with the contraction axis first. -/
theorem pre5_v10 (M : Valuation τ sig (Elt Ideal)) :
    pre5 M (Proc.devRef .tc main_v10)
      = (transpose S1282x1536 [1, 0] · transposes_S1536x1282_S1282x1536_1_0) (M (Proc.devRef .tc main_arg7) : FVec Ideal S1536x1282 .f32) := by
  rw [← pre4_keep M main_arg7 (by decide) (by decide) (by decide) (by decide)]
  show StableHlo.after hostOps0_4 (pre4 M) (Proc.devRef .tc main_v10) = _
  generalize pre4 M = W
  after_results

/-- The recurrent weights with the contraction axis first. -/
theorem pre5_v11 (M : Valuation τ sig (Elt Ideal)) :
    pre5 M (Proc.devRef .tc main_v11)
      = (transpose S512x1536 [1, 0] · transposes_S1536x512_S512x1536_1_0) (M (Proc.devRef .tc main_arg8) : FVec Ideal S1536x512 .f32) := by
  rw [← pre4_keep M main_arg8 (by decide) (by decide) (by decide) (by decide)]
  show StableHlo.after hostOps0_4 (pre4 M) (Proc.devRef .tc main_v11) = _
  generalize pre4 M = W
  after_results

/-- The input bias as one row. -/
theorem pre5_v12 (M : Valuation τ sig (Elt Ideal)) :
    pre5 M (Proc.devRef .tc main_v12) = Cert.Spec.rowOf (M (Proc.devRef .tc main_arg9) : FVec Ideal S1536 .f32) := by
  rw [← pre4_keep M main_arg9 (by decide) (by decide) (by decide) (by decide)]
  show StableHlo.after hostOps0_4 (pre4 M) (Proc.devRef .tc main_v12) = _
  generalize pre4 M = W
  after_results
  exact shapeCast_row (W (Proc.devRef .tc main_arg9) : FVec Ideal S1536 .f32) shapeCasts_S1536_S1x1536

/-- The recurrent bias as one row. -/
theorem pre5_v13 (M : Valuation τ sig (Elt Ideal)) :
    pre5 M (Proc.devRef .tc main_v13) = Cert.Spec.rowOf (M (Proc.devRef .tc main_arg10) : FVec Ideal S1536 .f32) := by
  rw [← pre4_keep M main_arg10 (by decide) (by decide) (by decide) (by decide)]
  show StableHlo.after hostOps0_4 (pre4 M) (Proc.devRef .tc main_v13) = _
  generalize pre4 M = W
  after_results
  exact shapeCast_row (W (Proc.devRef .tc main_arg10) : FVec Ideal S1536 .f32) shapeCasts_S1536_S1x1536

/-! ## Between the two regions -/

/-- The label head's hidden-layer weights with the contraction axis first. -/
theorem mid_v15 (W : Valuation τ sig (Elt Ideal)) :
    StableHlo.after hostOps1 W (Proc.devRef .tc main_v15)
      = (transpose S512x512 [1, 0] · transposes_S512x512_S512x512_1_0) (W (Proc.devRef .tc main_arg11) : FVec Ideal S512x512 .f32) := by
  after_results

/-- The label head's output weights with the contraction axis first. -/
theorem mid_v16 (W : Valuation τ sig (Elt Ideal)) :
    StableHlo.after hostOps1 W (Proc.devRef .tc main_v16)
      = (transpose S512x1024 [1, 0] · transposes_S1024x512_S512x1024_1_0) (W (Proc.devRef .tc main_arg13) : FVec Ideal S1024x512 .f32) := by
  after_results

/-- The position head's hidden-layer weights with the contraction axis first. -/
theorem mid_v17 (W : Valuation τ sig (Elt Ideal)) :
    StableHlo.after hostOps1 W (Proc.devRef .tc main_v17)
      = (transpose S512x512 [1, 0] · transposes_S512x512_S512x512_1_0) (W (Proc.devRef .tc main_arg15) : FVec Ideal S512x512 .f32) := by
  after_results

/-- The position head's output weights with the contraction axis first. -/
theorem mid_v18 (W : Valuation τ sig (Elt Ideal)) :
    StableHlo.after hostOps1 W (Proc.devRef .tc main_v18)
      = (transpose S512x2 [1, 0] · transposes_S2x512_S512x2_1_0) (W (Proc.devRef .tc main_arg17) : FVec Ideal S2x512 .f32) := by
  after_results

/-- The label head's hidden-layer bias as one row. -/
theorem mid_v19 (W : Valuation τ sig (Elt Ideal)) :
    StableHlo.after hostOps1 W (Proc.devRef .tc main_v19) = Cert.Spec.rowOf (W (Proc.devRef .tc main_arg12) : FVec Ideal S512 .f32) := by
  after_results
  exact shapeCast_row (W (Proc.devRef .tc main_arg12) : FVec Ideal S512 .f32) shapeCasts_S512_S1x512

/-- The label head's output bias as one row. -/
theorem mid_v20 (W : Valuation τ sig (Elt Ideal)) :
    StableHlo.after hostOps1 W (Proc.devRef .tc main_v20) = Cert.Spec.rowOf (W (Proc.devRef .tc main_arg14) : FVec Ideal S1024 .f32) := by
  after_results
  exact shapeCast_row (W (Proc.devRef .tc main_arg14) : FVec Ideal S1024 .f32) shapeCasts_S1024_S1x1024

/-- The position head's hidden-layer bias as one row. -/
theorem mid_v21 (W : Valuation τ sig (Elt Ideal)) :
    StableHlo.after hostOps1 W (Proc.devRef .tc main_v21) = Cert.Spec.rowOf (W (Proc.devRef .tc main_arg16) : FVec Ideal S512 .f32) := by
  after_results
  exact shapeCast_row (W (Proc.devRef .tc main_arg16) : FVec Ideal S512 .f32) shapeCasts_S512_S1x512

/-- The position head's output bias as one row. -/
theorem mid_v22 (W : Valuation τ sig (Elt Ideal)) :
    StableHlo.after hostOps1 W (Proc.devRef .tc main_v22) = Cert.Spec.rowOf (W (Proc.devRef .tc main_arg18) : FVec Ideal S2 .f32) := by
  after_results
  exact shapeCast_row (W (Proc.devRef .tc main_arg18) : FVec Ideal S2 .f32) shapeCasts_S2_S1x2

/-- The stretch between the regions leaves a buffer it does not write as it was. -/
theorem mid_keep (W : Valuation τ sig (Elt Ideal)) (b : Ref sig .tc) (hb : b ∉ hostOps1_W) :
    StableHlo.after hostOps1 W (Proc.devRef .tc b) = W (Proc.devRef .tc b) :=
  StableHlo.after_of_writes_sub hostOps1 W hostOps1_writes hb

/-! ## After the second region -/

/-- The returned hidden state: the first region's result with a leading unit axis put in front. -/
theorem post_v24 (W : Valuation τ sig (Elt Ideal)) :
    StableHlo.after hostOps2 W (Proc.devRef .tc main_v24)
      = broadcastInDim S1x16384x512 ![1, 2] bcast_S16384x512_S1x16384x512_1_2 (W (Proc.devRef .tc main_v14) : FVec Ideal S16384x512 .f32) := by
  after_results

/-- The last stretch leaves a buffer it does not write as it was. -/
theorem post_keep (W : Valuation τ sig (Elt Ideal)) (b : Ref sig .tc) (hb : b ∉ hostOps2_W) :
    StableHlo.after hostOps2 W (Proc.devRef .tc b) = W (Proc.devRef .tc b) :=
  StableHlo.after_of_writes_sub hostOps2 W hostOps2_writes hb

end Cert.Bridge.KHost

end
-- ==== Proof.Masks.lean ====
/-
  The kernel's input row is the reference's.

  The two programs differ in the table lookups alone: the kernel tests each wrapped index against the table's
  bounds and puts a NaN row where the test fails, the reference gathers without a test. A label in [-1024, 1024)
  wraps into [0, 1024), and pos mod 8192 lies in [0, 8192) for every 32-bit pos (the truncated remainder lies in
  (-8192, 8192) and is moved by +8192 exactly when negative), so both tests hold at every row, both masks are all
  ones, and each select returns the gathered rows. The ho_pos layer and the concatenation are the same operations
  on both sides.
-/
import proofs.«406328_j56736517980496_1_alg».proof.Proof.HostTerms
import Idealize.ShloMosaic.Lib.Affine
import Idealize.ShloMosaic.Lib.ReduceAll
import Idealize.ShloMosaic.Lib.ValueIdx

noncomputable section

namespace Cert.Bridge.Masks

open Idealize.ShloMosaic Cert.Bridge

variable [Cert.KernelIdeal.Facts] [Cert.ReferenceIdeal.Facts]

/-! ## Words -/

/-- A one-bit word is 1 or 0. -/
theorem bit_cases (c : BitVec 1) : c = 1#1 ∨ c = 0#1 := by revert c; decide

theorem toInt_zero32 : (0#32 : BitVec 32).toInt = 0 := by decide

/-- A signed "less than" that came out 0 says "not less". -/
theorem not_slt_of_zero {x y : BitVec 32} (h : IntOp.cmpi .slt x y = 0#1) : ¬ x.toInt < y.toInt := fun hh => by
  have := IntOp.cmpi_slt.2 hh; rw [h] at this; exact absurd this (by decide)

/-- The wrapped index: n added where the word is negative. -/
def wrapW (n w : BitVec 32) : BitVec 32 := Scalar.select (IntOp.cmpi .slt w 0#32) (IntOp.addi w n) w

/-- A word in [-N, N) wraps into [0, N). -/
theorem toInt_wrapW (n : BitVec 32) (N : Int) (hn : n.toInt = N) (hN : 0 < N ∧ N < 2 ^ 30) (w : BitVec 32)
    (h : -N ≤ w.toInt ∧ w.toInt < N) : 0 ≤ (wrapW n w).toInt ∧ (wrapW n w).toInt < N := by
  unfold wrapW
  rcases bit_cases (IntOp.cmpi .slt w 0#32) with hc | hc
  · rw [hc, ValueIdx.select_one]
    have hlt := IntOp.cmpi_slt.1 hc
    rw [toInt_zero32] at hlt
    rw [IntOp.addi, BitVec.toInt_add, hn, Int.bmod_eq_of_le_mul_two (by omega) (by omega)]
    omega
  · rw [hc, ValueIdx.select_zero]
    have hlt := not_slt_of_zero hc
    rw [toInt_zero32] at hlt
    omega

/-- The bounds test lo ≤ v ≤ hi, the two compares and their conjunction, is 1 where it holds. -/
theorem test_one (v lo hi : BitVec 32) (hlo : lo.toInt ≤ v.toInt) (hhi : v.toInt ≤ hi.toInt) :
    IntOp.andi (IntOp.cmpi .sge v lo) (IntOp.cmpi .sle v hi) = 1#1 :=
  IntOp.andi_eq_one.2 ⟨IntOp.cmpi_sge.2 hlo, IntOp.cmpi_sle.2 hhi⟩

/-- The remainder moved into the divisor's sign, at one word, for the divisor d: r = p rem d, and r + d where
    r ≠ 0 and exactly one of r, d is negative. -/
def remW (d p : BitVec 32) : BitVec 32 :=
  Scalar.select
    (IntOp.andi (IntOp.cmpi .ne (IntOp.cmpi .slt (IntOp.remsi .host p d) 0#32) (IntOp.cmpi .slt d 0#32))
      (IntOp.cmpi .ne (IntOp.remsi .host p d) 0#32))
    (IntOp.addi (IntOp.remsi .host p d) d) (IntOp.remsi .host p d)

theorem toInt_8192 : (8192#32 : BitVec 32).toInt = 8192 := by decide

/-- The remainder by 8192 lies in [0, 8192) for every word: the truncated remainder lies in (-8192, 8192), and
    8192 is added exactly when it is negative. -/
theorem toInt_remW (p : BitVec 32) : 0 ≤ (remW 8192#32 p).toInt ∧ (remW 8192#32 p).toInt < 8192 := by
  have hr : IntOp.remsi .host p 8192#32 = p.srem 8192#32 := IntOp.remsi_of_pos _ (by rw [toInt_8192]; omega)
  have hd : IntOp.cmpi .slt (8192#32 : BitVec 32) 0#32 = 0#1 := by decide
  unfold remW
  rw [hr, hd]
  have ht : (p.srem 8192#32).toInt = p.toInt.tmod 8192 := by rw [BitVec.toInt_srem, toInt_8192]
  have h1 := Int.tmod_lt_of_pos p.toInt (b := 8192) (by omega)
  have h2 := Int.lt_tmod_of_pos p.toInt (b := 8192) (by omega)
  rcases bit_cases (IntOp.cmpi .slt (p.srem 8192#32) 0#32) with hc | hc
  · -- a negative remainder is not zero, and 8192 is added
    have hlt := IntOp.cmpi_slt.1 hc
    rw [toInt_zero32] at hlt
    have hne : IntOp.cmpi .ne (p.srem 8192#32) 0#32 = 1#1 :=
      IntOp.cmpi_ne.2 (fun h0 => by rw [h0, toInt_zero32] at hlt; omega)
    rw [hc, hne, show IntOp.andi (IntOp.cmpi .ne (1#1 : BitVec 1) 0#1) 1#1 = 1#1 from by decide, ValueIdx.select_one,
      IntOp.addi, BitVec.toInt_add, toInt_8192, Int.bmod_eq_of_le_mul_two (by omega) (by omega)]
    omega
  · -- a nonnegative remainder stays
    have hlt := not_slt_of_zero hc
    rw [toInt_zero32] at hlt
    rw [hc, show IntOp.cmpi .ne (0#1 : BitVec 1) 0#1 = 0#1 from by decide,
      show ∀ c : BitVec 1, IntOp.andi 0#1 c = 0#1 from by decide, ValueIdx.select_zero]
    omega

/-! ## Vectors -/

/-- A fold of "and" from 1 over ones is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_one f hf l

/-- An and-reduction from 1 of an all-ones array is all ones. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_one x hx _

/-- What holds of every element of an array holds of every element of a broadcast of it. -/
theorem bcast_all {s t : Shape} {α : Type} (dims : Fin s.rank → Fin t.rank) (h : s.BroadcastsInDim t dims)
    (x : s.Idx → α) (P : α → Prop) (hx : ∀ i, P (x i)) (j : t.Idx) : P (broadcastInDim t dims h x j) := hx _

/-- A select under an all-ones mask is its first branch. -/
theorem select_of_all_one {s : Shape} {α : Type} (c : IVec s 1) (a b : s.Idx → α) (hc : ∀ i, c i = 1#1) :
    select c a b = a := by
  funext i; rw [ValueIdx.select_apply, hc, ValueIdx.select_one]

/-! ## The kernel's two lookups -/

section Kernel

open Cert.KernelIdeal Cert.KernelIdeal.Facts₀ Cert.KernelIdeal.Facts

/-- The index vector wrapped by n where negative. -/
def kWrap (n : BitVec 32) (x : IVec S16384 32) : IVec S16384 32 :=
  let c : IVec S_ 32 := constantI S_ 32 0#32
  let v0 : IVec S16384 32 := broadcastInDim S16384 ![] bcast_S_S16384 c
  let v1 : IVec S16384 1 := cmpi .slt x v0
  let c_0 : IVec S_ 32 := constantI S_ 32 n
  let v2 : IVec S16384 32 := broadcastInDim S16384 ![] bcast_S_S16384 c_0
  let v3 : IVec S16384 32 := addi x v2
  select v1 v3 x

theorem kWrap_apply (n : BitVec 32) (x : IVec S16384 32) (i : S16384.Idx) : kWrap n x i = wrapW n (x i) := rfl

/-- The kernel's mask for a lookup of the index vector x in a table of hi + 1 rows, wrapped by n. -/
def kMask (n hi : BitVec 32) (x : IVec S16384 32) : IVec S16384x256 1 :=
  let v5 : IVec S16384x1 32 := broadcastInDim S16384x1 ![0] bcast_S16384_S16384x1_0 (kWrap n x)
  let c_1 : IVec S1 32 := constantI S1 32 hi
  let c_2 : IVec S_ 32 := constantI S_ 32 0#32
  let v6 : IVec S16384x1 32 := broadcastInDim S16384x1 ![] bcast_S_S16384x1 c_2
  let v7 : IVec S16384x1 1 := cmpi .sge v5 v6
  let v8 : IVec S1x1 32 := broadcastInDim S1x1 ![1] bcast_S1_S1x1_1 c_1
  let v9 : IVec S16384x1 32 := broadcastInDim S16384x1 ![0, 1] bcast_S1x1_S16384x1_0_1 v8
  let v10 : IVec S16384x1 1 := cmpi .sle v5 v9
  let v11 : IVec S16384x1 1 := andi v7 v10
  let c_3 : IVec S_ 1 := constantI S_ 1 1#1
  let v12 : IVec S16384 1 := Host.reduce IntOp.andi v11 c_3 reducesTo_S16384x1_S16384_d1 h_S_
  broadcastInDim S16384x256 ![0] bcast_S16384_S16384x256_0 v12

/-- The mask is all ones when every index lies in [-N, N), N the table's length. -/
theorem kMask_one (n hi : BitVec 32) (N : Int) (hn : n.toInt = N) (hhi : hi.toInt = N - 1) (hN : 0 < N ∧ N < 2 ^ 30)
    (x : IVec S16384 32) (hx : ∀ i, -N ≤ (x i).toInt ∧ (x i).toInt < N) (j : S16384x256.Idx) :
    kMask n hi x j = 1#1 := by
  unfold kMask
  refine bcast_all _ _ _ (fun b => b = 1#1) (fun i => ?_) j
  refine reduce_andi_one _ _ _ _ (fun k => ?_) (fun _ => rfl) i
  have h5 := bcast_all ![0] bcast_S16384_S16384x1_0 (kWrap n x) (fun v => 0 ≤ v.toInt ∧ v.toInt < N)
    (fun i => by rw [kWrap_apply]; exact toInt_wrapW n N hn hN (x i) (hx i)) k
  refine test_one _ _ _ ?_ ?_
  · show (0#32 : BitVec 32).toInt ≤ _
    rw [toInt_zero32]; exact h5.1
  · show _ ≤ hi.toInt
    rw [hhi]; have := h5.2; omega

/-- The label lookup: under the label range the kernel's select returns the gathered rows, which are the
    reference's. -/
theorem kEmb_eq (embT : FVec Ideal S1024x256 .f32) (tl : IVec S16384 32)
    (htl : ∀ i, (-1024 : Int) ≤ (tl i).toInt ∧ (tl i).toInt < 1024) : kEmb embT tl = rEmb embT tl := by
  have hm : ∀ j, kMask 1024#32 1023#32 tl j = 1#1 :=
    kMask_one 1024#32 1023#32 1024 (by decide) (by decide) (by omega) tl htl
  refine (select_of_all_one (kMask 1024#32 1023#32 tl) _ _ hm).trans ?_
  rfl

/-- The position lookup, for an index vector in [-8192, 8192). -/
theorem kPos_eq (posT : FVec Ideal S8192x256 .f32) (r : IVec S16384 32)
    (hr : ∀ i, (-8192 : Int) ≤ (r i).toInt ∧ (r i).toInt < 8192) : kPos posT r = rPos posT r := by
  have hm : ∀ j, kMask 8192#32 8191#32 r j = 1#1 :=
    kMask_one 8192#32 8191#32 8192 (by decide) (by decide) (by omega) r hr
  refine (select_of_all_one (kMask 8192#32 8191#32 r) _ _ hm).trans ?_
  rfl

/-- The divisor the remainder is taken by: 8192, which is not zero. -/
theorem divisor_eq : Scalar.select (IntOp.cmpi .eq (8192#32 : BitVec 32) 0#32) 1#32 8192#32 = 8192#32 := by decide

/-- Each row's remainder is the word remainder by 8192. -/
theorem kRem_apply (pos : IVec S16384 32) (i : S16384.Idx) : kRem pos i = remW 8192#32 (pos i) := by
  show remW (Scalar.select (IntOp.cmpi .eq (8192#32 : BitVec 32) 0#32) 1#32 8192#32) (pos i) = _
  rw [divisor_eq]

end Kernel

/-! ## The input row -/

/-- The kernel's input row is the reference's, for labels in [-1024, 1024). -/
theorem kX_eq (cond : FVec Ideal Cert.KernelIdeal.S16384x514 .f32) (hop : FVec Ideal Cert.KernelIdeal.S16384x2 .f32)
    (embT : FVec Ideal Cert.KernelIdeal.S1024x256 .f32) (posT : FVec Ideal Cert.KernelIdeal.S8192x256 .f32)
    (whp : FVec Ideal Cert.KernelIdeal.S256x2 .f32) (bhp : FVec Ideal Cert.KernelIdeal.S256 .f32)
    (tl pos : IVec Cert.KernelIdeal.S16384 32)
    (htl : ∀ i, (-1024 : Int) ≤ (tl i).toInt ∧ (tl i).toInt < 1024) :
    kX cond hop embT posT whp bhp tl pos = rX cond hop embT posT whp bhp tl pos := by
  have h1 : kEmb embT tl = rEmb embT tl := kEmb_eq embT tl htl
  have h2 : kPos posT (kRem pos) = rPos posT (rRem pos) :=
    (kPos_eq posT (kRem pos) (fun i => by rw [kRem_apply]; have := toInt_remW (pos i); omega)).trans rfl
  have h3 : kHo hop whp bhp = rHo hop whp bhp := rfl
  -- the same four blocks side by side
  have key : ∀ (a b c : FVec Ideal Cert.KernelIdeal.S16384x256 .f32) (a' b' c' : FVec Ideal Cert.ReferenceIdeal.S16384x256 .f32),
      a = a' → b = b' → c = c' →
      concatenate Cert.KernelIdeal.S16384x1282 1
          [⟨Cert.KernelIdeal.S16384x256, a⟩, ⟨Cert.KernelIdeal.S16384x256, b⟩, ⟨Cert.KernelIdeal.S16384x256, c⟩,
            ⟨Cert.KernelIdeal.S16384x514, cond⟩]
          Cert.KernelIdeal.Facts₀.concatenates_S16384x256_S16384x256_S16384x256_S16384x514_S16384x1282_d1
        = concatenate Cert.ReferenceIdeal.S16384x1282 1
          [⟨Cert.ReferenceIdeal.S16384x256, a'⟩, ⟨Cert.ReferenceIdeal.S16384x256, b'⟩,
            ⟨Cert.ReferenceIdeal.S16384x256, c'⟩, ⟨Cert.ReferenceIdeal.S16384x514, cond⟩]
          Cert.ReferenceIdeal.Facts₀.concatenates_S16384x256_S16384x256_S16384x256_S16384x514_S16384x1282_d1 := by
    intro a b c a' b' c' ha hb hc
    subst ha hb hc
    rfl
  exact key _ _ _ _ _ _ h1 h2 h3

end Cert.Bridge.Masks

end
-- ==== Proof.PreRange.lean ====
/-
  The precondition read at the label words.

  The precondition is a conjunction, the "and" of one word per conjunct, and the claim's hypothesis says the
  conjunction is 1. Its last two conjuncts say that every label word, read signed, is at least −1024 and below
  1024: each is the "and" over all 16384 positions of a signed comparison of the label with a constant. A
  conjunction that is 1 has every conjunct 1; an "and" over all positions that is 1 is 1 at every position; and a
  signed comparison that is 1 is the order of the signed values. The constant −1024 is carried as the 32-bit word
  2³² − 1024, whose signed value is −1024.
-/
import proofs.«406328_j56736517980496_1_alg».proof.Defs
import Idealize.ShloMosaic.Lib.ReduceAll
import Idealize.ShloMosaic.Lib.StableHlo.Predicate
import Idealize.ShloMosaic.Lib.ValueIdx

noncomputable section

namespace Cert.Bridge.PreRange

open Idealize.ShloMosaic Idealize.ShloMosaic.ValueIdx Idealize.ShloMosaic.TcCoe Idealize.SL.Sem

/-- The scalar shape has one index. -/
instance : Subsingleton Cert.Pre_finite_inputs.S_.Idx := ⟨fun a b => funext fun d => d.elim0⟩

/-- The word 2³² − 1024 read signed is −1024. -/
theorem toInt_lo : (4294966272#32 : BitVec 32).toInt = -1024 := by decide

/-- The word 1024 read signed is 1024. -/
theorem toInt_hi : (1024#32 : BitVec 32).toInt = 1024 := by decide

/-- The last part of the precondition being 1 says every label word lies in [−1024, 1024), signed. -/
theorem part5_range [Cert.Pre_finite_inputs.Facts]
    (a18 : FVec Ideal Cert.Pre_finite_inputs.S2 .f32) (a19 : IVec Cert.Pre_finite_inputs.S16384 32)
    (v83 : IVec Cert.Pre_finite_inputs.S_ 1) (v84 : FVec Ideal Cert.Pre_finite_inputs.S2x512 .f32)
    (c32 : FVec Ideal Cert.Pre_finite_inputs.S_ .f32)
    (e : Cert.Pre_finite_inputs.fn_part5 (F := Ideal) a18 a19 v83 v84 c32 ix0 = 1#1)
    (i : Cert.Pre_finite_inputs.S16384.Idx) : (-1024 : Int) ≤ (a19 i).toInt ∧ (a19 i).toInt < 1024 := by
  dsimp only [Cert.Pre_finite_inputs.fn_part5] at e
  -- the conjunction is 1: so are its last two conjuncts
  obtain ⟨e1, hlt⟩ := IntOp.andi_eq_one.1 e
  obtain ⟨-, hge⟩ := IntOp.andi_eq_one.1 e1
  -- an "and" over all positions that is 1 is 1 at position i
  have hge' := Host.reduce_andi_all _ _ _ _ _ hge i
  have hlt' := Host.reduce_andi_all _ _ _ _ _ hlt i
  -- a signed comparison that is 1 orders the signed values; the constant is the same word at every position
  have g : (4294966272#32 : BitVec 32).toInt ≤ (a19 i).toInt := IntOp.cmpi_sge.1 hge'
  have l : (a19 i).toInt < (1024#32 : BitVec 32).toInt := IntOp.cmpi_slt.1 hlt'
  rw [toInt_lo] at g
  rw [toInt_hi] at l
  exact ⟨g, l⟩

/-- THE PRECONDITION DECODED at the label words: on every device, every label word lies in [−1024, 1024), signed.
    The precondition's chain of conjuncts ends in its last part, applied to the label array unchanged. -/
theorem range_of_pre [Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    ∀ i, (-1024 : Int) ≤ ((m ((c.tc : Thread Cert.KernelIdeal.nD Cert.KernelIdeal.τ).loc Cert.KernelIdeal.main_arg19) : IVec Cert.KernelIdeal.S16384 32) i).toInt ∧ ((m ((c.tc : Thread Cert.KernelIdeal.nD Cert.KernelIdeal.τ).loc Cert.KernelIdeal.main_arg19) : IVec Cert.KernelIdeal.S16384 32) i).toInt < 1024 := by
  intro i
  have e := congrFun (h c) ix0
  exact part5_range _ _ _ _ _ e i

end Cert.Bridge.PreRange

end
-- ==== Proof.RefRun.lean ====
import proofs.«406328_j56736517980496_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The operations

The reference function as one straight line of host operations, in program order, each function it calls listed
at the call over that call's own buffers; cut in four consecutive stretches. -/

/-- The input row: the label embedding gathered at the wrapped label (the label plus 1024 where it is negative), the position embedding gathered at the position modulo 8192 (the floor remainder with its sign correction, inline, and the wrap of a negative index), the affine image of the hand-over position, their concatenation with the conditioning data (%20), and the previous hidden state read as a matrix (%21). -/
abbrev opsA : List (HloOp τ sig (Elt F)) :=
  [ StableHlo.nullary main_c (constantI S_ 32 0#32),
    StableHlo.unary main_c main_v0 (broadcastInDim S16384 ![] bcast_S_S16384 : (⟨S_, .i32⟩ : BufTy).Contents (Elt F) → (⟨S16384, .i32⟩ : BufTy).Contents (Elt F)),
    StableHlo.binary main_arg19 main_v0 main_v1 (cmpi .slt : (⟨S16384, .i32⟩ : BufTy).Contents (Elt F) → (⟨S16384, .i32⟩ : BufTy).Contents (Elt F) → (⟨S16384, .i1⟩ : BufTy).Contents (Elt F)),
    StableHlo.nullary main_c_0 (constantI S_ 32 1024#32),
    StableHlo.unary main_c_0 main_v2 (broadcastInDim S16384 ![] bcast_S_S16384 : (⟨S_, .i32⟩ : BufTy).Contents (Elt F) → (⟨S16384, .i32⟩ : BufTy).Contents (Elt F)),
    StableHlo.binary main_arg19 main_v2 main_v3 (addi : (⟨S16384, .i32⟩ : BufTy).Contents (Elt F) → (⟨S16384, .i32⟩ : BufTy).Contents (Elt F) → (⟨S16384, .i32⟩ : BufTy).Contents (Elt F)),
    StableHlo.ternary main_v1 main_v3 main_arg19 main_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v4 main_v5 (broadcastInDim S16384x1 ![0] bcast_S16384_S16384x1_0 : (⟨S16384, .i32⟩ : BufTy).Contents (Elt F) → (⟨S16384x1, .i32⟩ : BufTy).Contents (Elt F)),
    StableHlo.binary main_arg3 main_v5 main_v6 ((fun x i => Host.gather gather_S1024x256_S16384x1_S16384x256_1_0_n_n_0_1_1256 x i) : (⟨S1024x256, .f32⟩ : BufTy).Contents (Elt F) → (⟨S16384x1, .i32⟩ : BufTy).Contents (Elt F) → (⟨S16384x256, .f32⟩ : BufTy).Contents (Elt F)),
    StableHlo.nullary main_c_1 (constantI S_ 32 8192#32),
    StableHlo.TRef.unary (.of main_c_1 : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S16384 ![] bcast_S_S16384),
    StableHlo.TRef.binary (.of main_arg20 : StableHlo.TRef sig ⟨S16384, .i32⟩) main_call0.v3 main_call0.v4 Host.remsi,
    StableHlo.TRef.nullary main_call0.c_1 (constantI S_ 32 0#32),
    StableHlo.TRef.unary main_call0.c_1 main_call0.v5 (broadcastInDim S16384 ![] bcast_S_S16384),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S16384 ![] bcast_S_S16384),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S16384 ![] bcast_S_S16384),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S16384 ![] bcast_S_S16384),
    StableHlo.TRef.binary main_call0.v4 main_call0.v13 main_call0.v14 addi,
    StableHlo.TRef.ternary main_call0.v12 main_call0.v14 main_call0.v4 main_call0.v15 select,
    StableHlo.nullary main_c_2 (constantI S_ 32 0#32),
    StableHlo.unary main_c_2 main_v8 (broadcastInDim S16384 ![] bcast_S_S16384 : (⟨S_, .i32⟩ : BufTy).Contents (Elt F) → (⟨S16384, .i32⟩ : BufTy).Contents (Elt F)),
    StableHlo.binary main_v7 main_v8 main_v9 (cmpi .slt : (⟨S16384, .i32⟩ : BufTy).Contents (Elt F) → (⟨S16384, .i32⟩ : BufTy).Contents (Elt F) → (⟨S16384, .i1⟩ : BufTy).Contents (Elt F)),
    StableHlo.nullary main_c_3 (constantI S_ 32 8192#32),
    StableHlo.unary main_c_3 main_v10 (broadcastInDim S16384 ![] bcast_S_S16384 : (⟨S_, .i32⟩ : BufTy).Contents (Elt F) → (⟨S16384, .i32⟩ : BufTy).Contents (Elt F)),
    StableHlo.binary main_v7 main_v10 main_v11 (addi : (⟨S16384, .i32⟩ : BufTy).Contents (Elt F) → (⟨S16384, .i32⟩ : BufTy).Contents (Elt F) → (⟨S16384, .i32⟩ : BufTy).Contents (Elt F)),
    StableHlo.ternary main_v9 main_v11 main_v7 main_v12 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v12 main_v13 (broadcastInDim S16384x1 ![0] bcast_S16384_S16384x1_0 : (⟨S16384, .i32⟩ : BufTy).Contents (Elt F) → (⟨S16384x1, .i32⟩ : BufTy).Contents (Elt F)),
    StableHlo.binary main_arg4 main_v13 main_v14 ((fun x i => Host.gather gather_S8192x256_S16384x1_S16384x256_1_0_n_n_0_1_1256 x i) : (⟨S8192x256, .f32⟩ : BufTy).Contents (Elt F) → (⟨S16384x1, .i32⟩ : BufTy).Contents (Elt F) → (⟨S16384x256, .f32⟩ : BufTy).Contents (Elt F)),
    StableHlo.unary main_arg5 main_v15 ((transpose S2x256 [1, 0] · transposes_S256x2_S2x256_1_0) : (⟨S256x2, .f32⟩ : BufTy).Contents (Elt F) → (⟨S2x256, .f32⟩ : BufTy).Contents (Elt F)),
    StableHlo.binary main_arg1 main_v15 main_v16 ((fun l r => Host.dotGeneral dot_S16384x2_S2x256_S16384x256_1_0_0_1_n_n none l r) : (⟨S16384x2, .f32⟩ : BufTy).Contents (Elt F) → (⟨S2x256, .f32⟩ : BufTy).Contents (Elt F) → (⟨S16384x256, .f32⟩ : BufTy).Contents (Elt F)),
    StableHlo.unary main_arg6 main_v17 (broadcastInDim S1x256 ![1] bcast_S256_S1x256_1 : (⟨S256, .f32⟩ : BufTy).Contents (Elt F) → (⟨S1x256, .f32⟩ : BufTy).Contents (Elt F)),
    StableHlo.unary main_v17 main_v18 (broadcastInDim S16384x256 ![0, 1] bcast_S1x256_S16384x256_0_1 : (⟨S1x256, .f32⟩ : BufTy).Contents (Elt F) → (⟨S16384x256, .f32⟩ : BufTy).Contents (Elt F)),
    StableHlo.binary main_v16 main_v18 main_v19 (addf : (⟨S16384x256, .f32⟩ : BufTy).Contents (Elt F) → (⟨S16384x256, .f32⟩ : BufTy).Contents (Elt F) → (⟨S16384x256, .f32⟩ : BufTy).Contents (Elt F)),
    StableHlo.nary ![main_v6, main_v14, main_v19, main_arg0] main_v20 (fun u => concatenate S16384x1282 1 [⟨S16384x256, u 0⟩, ⟨S16384x256, u 1⟩, ⟨S16384x256, u 2⟩, ⟨S16384x514, u 3⟩] concatenates_S16384x256_S16384x256_S16384x256_S16384x514_S16384x1282_d1),
    StableHlo.reshape main_arg2 main_v21 rfl shapeCasts_S1x16384x512_S16384x512 ]

/-- The recurrent cell: the affine images of the input row and of the hidden state, their three column blocks, the two logistic gates, the candidate through the hyperbolic tangent, and the convex mix of candidate and previous hidden state (%59). -/
abbrev opsB : List (HloOp τ sig (Elt F)) :=
  [ StableHlo.unary main_arg7 main_v22 ((transpose S1282x1536 [1, 0] · transposes_S1536x1282_S1282x1536_1_0) : (⟨S1536x1282, .f32⟩ : BufTy).Contents (Elt F) → (⟨S1282x1536, .f32⟩ : BufTy).Contents (Elt F)),
    StableHlo.binary main_v20 main_v22 main_v23 ((fun l r => Host.dotGeneral dot_S16384x1282_S1282x1536_S16384x1536_1_0_0_1_n_n none l r) : (⟨S16384x1282, .f32⟩ : BufTy).Contents (Elt F) → (⟨S1282x1536, .f32⟩ : BufTy).Contents (Elt F) → (⟨S16384x1536, .f32⟩ : BufTy).Contents (Elt F)),
    StableHlo.unary main_arg9 main_v24 (broadcastInDim S1x1536 ![1] bcast_S1536_S1x1536_1 : (⟨S1536, .f32⟩ : BufTy).Contents (Elt F) → (⟨S1x1536, .f32⟩ : BufTy).Contents (Elt F)),
    StableHlo.unary main_v24 main_v25 (broadcastInDim S16384x1536 ![0, 1] bcast_S1x1536_S16384x1536_0_1 : (⟨S1x1536, .f32⟩ : BufTy).Contents (Elt F) → (⟨S16384x1536, .f32⟩ : BufTy).Contents (Elt F)),
    StableHlo.binary main_v23 main_v25 main_v26 (addf : (⟨S16384x1536, .f32⟩ : BufTy).Contents (Elt F) → (⟨S16384x1536, .f32⟩ : BufTy).Contents (Elt F) → (⟨S16384x1536, .f32⟩ : BufTy).Contents (Elt F)),
    StableHlo.unary main_arg8 main_v27 ((transpose S512x1536 [1, 0] · transposes_S1536x512_S512x1536_1_0) : (⟨S1536x512, .f32⟩ : BufTy).Contents (Elt F) → (⟨S512x1536, .f32⟩ : BufTy).Contents (Elt F)),
    StableHlo.binary main_v21 main_v27 main_v28 ((fun l r => Host.dotGeneral dot_S16384x512_S512x1536_S16384x1536_1_0_0_1_n_n none l r) : (⟨S16384x512, .f32⟩ : BufTy).Contents (Elt F) → (⟨S512x1536, .f32⟩ : BufTy).Contents (Elt F) → (⟨S16384x1536, .f32⟩ : BufTy).Contents (Elt F)),
    StableHlo.unary main_arg10 main_v29 (broadcastInDim S1x1536 ![1] bcast_S1536_S1x1536_1 : (⟨S1536, .f32⟩ : BufTy).Contents (Elt F) → (⟨S1x1536, .f32⟩ : BufTy).Contents (Elt F)),
    StableHlo.unary main_v29 main_v30 (broadcastInDim S16384x1536 ![0, 1] bcast_S1x1536_S16384x1536_0_1 : (⟨S1x1536, .f32⟩ : BufTy).Contents (Elt F) → (⟨S16384x1536, .f32⟩ : BufTy).Contents (Elt F)),
    StableHlo.binary main_v28 main_v30 main_v31 (addf : (⟨S16384x1536, .f32⟩ : BufTy).Contents (Elt F) → (⟨S16384x1536, .f32⟩ : BufTy).Contents (Elt F) → (⟨S16384x1536, .f32⟩ : BufTy).Contents (Elt F)),
    StableHlo.unary main_v26 main_v32 ((extractStridedSlice S16384x512 ![0, 0] · slices_S16384x1536_S16384x512_0_0) : (⟨S16384x1536, .f32⟩ : BufTy).Contents (Elt F) → (⟨S16384x512, .f32⟩ : BufTy).Contents (Elt F)),
    StableHlo.unary main_v26 main_v33 ((extractStridedSlice S16384x512 ![0, 512] · slices_S16384x1536_S16384x512_0_512) : (⟨S16384x1536, .f32⟩ : BufTy).Contents (Elt F) → (⟨S16384x512, .f32⟩ : BufTy).Contents (Elt F)),
    StableHlo.unary main_v26 main_v34 ((extractStridedSlice S16384x512 ![0, 1024] · slices_S16384x1536_S16384x512_0_1024) : (⟨S16384x1536, .f32⟩ : BufTy).Contents (Elt F) → (⟨S16384x512, .f32⟩ : BufTy).Contents (Elt F)),
    StableHlo.unary main_v31 main_v35 ((extractStridedSlice S16384x512 ![0, 0] · slices_S16384x1536_S16384x512_0_0) : (⟨S16384x1536, .f32⟩ : BufTy).Contents (Elt F) → (⟨S16384x512, .f32⟩ : BufTy).Contents (Elt F)),
    StableHlo.unary main_v31 main_v36 ((extractStridedSlice S16384x512 ![0, 512] · slices_S16384x1536_S16384x512_0_512) : (⟨S16384x1536, .f32⟩ : BufTy).Contents (Elt F) → (⟨S16384x512, .f32⟩ : BufTy).Contents (Elt F)),
    StableHlo.unary main_v31 main_v37 ((extractStridedSlice S16384x512 ![0, 1024] · slices_S16384x1536_S16384x512_0_1024) : (⟨S16384x1536, .f32⟩ : BufTy).Contents (Elt F) → (⟨S16384x512, .f32⟩ : BufTy).Contents (Elt F)),
    StableHlo.binary main_v32 main_v35 main_v38 (addf : (⟨S16384x512, .f32⟩ : BufTy).Contents (Elt F) → (⟨S16384x512, .f32⟩ : BufTy).Contents (Elt F) → (⟨S16384x512, .f32⟩ : BufTy).Contents (Elt F)),
    StableHlo.unary main_v38 main_v39 (Host.negf : (⟨S16384x512, .f32⟩ : BufTy).Contents (Elt F) → (⟨S16384x512, .f32⟩ : BufTy).Contents (Elt F)),
    StableHlo.unary main_v39 main_v40 (Host.exp : (⟨S16384x512, .f32⟩ : BufTy).Contents (Elt F) → (⟨S16384x512, .f32⟩ : BufTy).Contents (Elt F)),
    StableHlo.nullary main_cst (constant S_ .f32 0x3F800000#32),
    StableHlo.unary main_cst main_v41 (broadcastInDim S16384x512 ![] bcast_S_S16384x512 : (⟨S_, .f32⟩ : BufTy).Contents (Elt F) → (⟨S16384x512, .f32⟩ : BufTy).Contents (Elt F)),
    StableHlo.binary main_v41 main_v40 main_v42 (addf : (⟨S16384x512, .f32⟩ : BufTy).Contents (Elt F) → (⟨S16384x512, .f32⟩ : BufTy).Contents (Elt F) → (⟨S16384x512, .f32⟩ : BufTy).Contents (Elt F)),
    StableHlo.nullary main_cst_4 (constant S_ .f32 0x3F800000#32),
    StableHlo.unary main_cst_4 main_v43 (broadcastInDim S16384x512 ![] bcast_S_S16384x512 : (⟨S_, .f32⟩ : BufTy).Contents (Elt F) → (⟨S16384x512, .f32⟩ : BufTy).Contents (Elt F)),
    StableHlo.binary main_v43 main_v42 main_v44 (Host.divf : (⟨S16384x512, .f32⟩ : BufTy).Contents (Elt F) → (⟨S16384x512, .f32⟩ : BufTy).Contents (Elt F) → (⟨S16384x512, .f32⟩ : BufTy).Contents (Elt F)),
    StableHlo.binary main_v33 main_v36 main_v45 (addf : (⟨S16384x512, .f32⟩ : BufTy).Contents (Elt F) → (⟨S16384x512, .f32⟩ : BufTy).Contents (Elt F) → (⟨S16384x512, .f32⟩ : BufTy).Contents (Elt F)),
    StableHlo.unary main_v45 main_v46 (Host.negf : (⟨S16384x512, .f32⟩ : BufTy).Contents (Elt F) → (⟨S16384x512, .f32⟩ : BufTy).Contents (Elt F)),
    StableHlo.unary main_v46 main_v47 (Host.exp : (⟨S16384x512, .f32⟩ : BufTy).Contents (Elt F) → (⟨S16384x512, .f32⟩ : BufTy).Contents (Elt F)),
    StableHlo.nullary main_cst_5 (constant S_ .f32 0x3F800000#32),
    StableHlo.unary main_cst_5 main_v48 (broadcastInDim S16384x512 ![] bcast_S_S16384x512 : (⟨S_, .f32⟩ : BufTy).Contents (Elt F) → (⟨S16384x512, .f32⟩ : BufTy).Contents (Elt F)),
    StableHlo.binary main_v48 main_v47 main_v49 (addf : (⟨S16384x512, .f32⟩ : BufTy).Contents (Elt F) → (⟨S16384x512, .f32⟩ : BufTy).Contents (Elt F) → (⟨S16384x512, .f32⟩ : BufTy).Contents (Elt F)),
    StableHlo.nullary main_cst_6 (constant S_ .f32 0x3F800000#32),
    StableHlo.unary main_cst_6 main_v50 (broadcastInDim S16384x512 ![] bcast_S_S16384x512 : (⟨S_, .f32⟩ : BufTy).Contents (Elt F) → (⟨S16384x512, .f32⟩ : BufTy).Contents (Elt F)),
    StableHlo.binary main_v50 main_v49 main_v51 (Host.divf : (⟨S16384x512, .f32⟩ : BufTy).Contents (Elt F) → (⟨S16384x512, .f32⟩ : BufTy).Contents (Elt F) → (⟨S16384x512, .f32⟩ : BufTy).Contents (Elt F)),
    StableHlo.binary main_v44 main_v37 main_v52 (mulf : (⟨S16384x512, .f32⟩ : BufTy).Contents (Elt F) → (⟨S16384x512, .f32⟩ : BufTy).Contents (Elt F) → (⟨S16384x512, .f32⟩ : BufTy).Contents (Elt F)),
    StableHlo.binary main_v34 main_v52 main_v53 (addf : (⟨S16384x512, .f32⟩ : BufTy).Contents (Elt F) → (⟨S16384x512, .f32⟩ : BufTy).Contents (Elt F) → (⟨S16384x512, .f32⟩ : BufTy).Contents (Elt F)),
    StableHlo.unary main_v53 main_v54 (Host.tanh : (⟨S16384x512, .f32⟩ : BufTy).Contents (Elt F) → (⟨S16384x512, .f32⟩ : BufTy).Contents (Elt F)),
    StableHlo.nullary main_cst_7 (constant S_ .f32 0x3F800000#32),
    StableHlo.unary main_cst_7 main_v55 (broadcastInDim S16384x512 ![] bcast_S_S16384x512 : (⟨S_, .f32⟩ : BufTy).Contents (Elt F) → (⟨S16384x512, .f32⟩ : BufTy).Contents (Elt F)),
    StableHlo.binary main_v55 main_v51 main_v56 (subf : (⟨S16384x512, .f32⟩ : BufTy).Contents (Elt F) → (⟨S16384x512, .f32⟩ : BufTy).Contents (Elt F) → (⟨S16384x512, .f32⟩ : BufTy).Contents (Elt F)),
    StableHlo.binary main_v56 main_v54 main_v57 (mulf : (⟨S16384x512, .f32⟩ : BufTy).Contents (Elt F) → (⟨S16384x512, .f32⟩ : BufTy).Contents (Elt F) → (⟨S16384x512, .f32⟩ : BufTy).Contents (Elt F)),
    StableHlo.binary main_v51 main_v21 main_v58 (mulf : (⟨S16384x512, .f32⟩ : BufTy).Contents (Elt F) → (⟨S16384x512, .f32⟩ : BufTy).Contents (Elt F) → (⟨S16384x512, .f32⟩ : BufTy).Contents (Elt F)),
    StableHlo.binary main_v57 main_v58 main_v59 (addf : (⟨S16384x512, .f32⟩ : BufTy).Contents (Elt F) → (⟨S16384x512, .f32⟩ : BufTy).Contents (Elt F) → (⟨S16384x512, .f32⟩ : BufTy).Contents (Elt F)) ]

/-- The label head: affine, leaky rectifier (inline: the comparison with zero, the scaled copy, the selection), affine, and the logarithm of the softmax along each row (inline: the row maximum, the shifted exponentials, their sum, its logarithm) (%71). -/
abbrev opsC : List (HloOp τ sig (Elt F)) :=
  [ StableHlo.unary main_arg11 main_v60 ((transpose S512x512 [1, 0] · transposes_S512x512_S512x512_1_0) : (⟨S512x512, .f32⟩ : BufTy).Contents (Elt F) → (⟨S512x512, .f32⟩ : BufTy).Contents (Elt F)),
    StableHlo.binary main_v59 main_v60 main_v61 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    StableHlo.unary main_arg12 main_v62 (broadcastInDim S1x512 ![1] bcast_S512_S1x512_1 : (⟨S512, .f32⟩ : BufTy).Contents (Elt F) → (⟨S1x512, .f32⟩ : BufTy).Contents (Elt F)),
    StableHlo.unary main_v62 main_v63 (broadcastInDim S16384x512 ![0, 1] bcast_S1x512_S16384x512_0_1 : (⟨S1x512, .f32⟩ : BufTy).Contents (Elt F) → (⟨S16384x512, .f32⟩ : BufTy).Contents (Elt F)),
    StableHlo.binary main_v61 main_v63 main_v64 (addf : (⟨S16384x512, .f32⟩ : BufTy).Contents (Elt F) → (⟨S16384x512, .f32⟩ : BufTy).Contents (Elt F) → (⟨S16384x512, .f32⟩ : BufTy).Contents (Elt F)),
    StableHlo.nullary main_cst_8 (constant S_ .f32 0x3C23D70A#32),
    StableHlo.TRef.nullary main_call1.cst (constant S_ .f32 0x00000000#32),
    StableHlo.TRef.unary main_call1.cst main_call1.v0 (broadcastInDim S16384x512 ![] bcast_S_S16384x512),
    StableHlo.TRef.binary (.of main_v64 : StableHlo.TRef sig ⟨S16384x512, .f32⟩) main_call1.v0 main_call1.v1 (cmpf .oge),
    StableHlo.TRef.unary (.of main_cst_8 : StableHlo.TRef sig ⟨S_, .f32⟩) main_call1.v2 id,
    StableHlo.TRef.unary main_call1.v2 main_call1.v3 (broadcastInDim S16384x512 ![] bcast_S_S16384x512),
    StableHlo.TRef.binary main_call1.v3 (.of main_v64 : StableHlo.TRef sig ⟨S16384x512, .f32⟩) main_call1.v4 mulf,
    StableHlo.TRef.ternary main_call1.v1 (.of main_v64 : StableHlo.TRef sig ⟨S16384x512, .f32⟩) main_call1.v4 main_call1.call0.v0 select,
    StableHlo.unary main_arg13 main_v66 ((transpose S512x1024 [1, 0] · transposes_S1024x512_S512x1024_1_0) : (⟨S1024x512, .f32⟩ : BufTy).Contents (Elt F) → (⟨S512x1024, .f32⟩ : BufTy).Contents (Elt F)),
    StableHlo.binary main_v65 main_v66 main_v67 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    StableHlo.unary main_arg14 main_v68 (broadcastInDim S1x1024 ![1] bcast_S1024_S1x1024_1 : (⟨S1024, .f32⟩ : BufTy).Contents (Elt F) → (⟨S1x1024, .f32⟩ : BufTy).Contents (Elt F)),
    StableHlo.unary main_v68 main_v69 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v67 main_v69 main_v70 (addf : (⟨S16384x1024, .f32⟩ : BufTy).Contents (Elt F) → (⟨S16384x1024, .f32⟩ : BufTy).Contents (Elt F) → (⟨S16384x1024, .f32⟩ : BufTy).Contents (Elt F)),
    StableHlo.TRef.nullary main_call2.cst (constant S_ .f32 0xFF800000#32),
    StableHlo.TRef.binary (.of main_v70 : StableHlo.TRef sig ⟨S16384x1024, .f32⟩) main_call2.cst main_call2.v0 (fun x v => Host.reduce FloatOps.maximumf x v reducesTo_S16384x1024_S16384_d1 h_S_),
    StableHlo.TRef.nullary main_call2.cst_0 (constant S_ .f32 0xFF800000#32),
    StableHlo.TRef.unary main_call2.cst_0 main_call2.v1 (broadcastInDim S16384 ![] bcast_S_S16384),
    StableHlo.TRef.binary main_call2.v1 main_call2.v0 main_call2.v2 maximumf,
    StableHlo.TRef.unary main_call2.v2 main_call2.v3 (broadcastInDim S16384x1 ![0] bcast_S16384_S16384x1_0),
    StableHlo.TRef.unary main_call2.v3 main_call2.v4 (broadcastInDim S16384x1024 ![0, 1] bcast_S16384x1_S16384x1024_0_1),
    StableHlo.TRef.binary (.of main_v70 : StableHlo.TRef sig ⟨S16384x1024, .f32⟩) main_call2.v4 main_call2.v5 subf,
    StableHlo.TRef.unary main_call2.v5 main_call2.v6 Host.exp,
    StableHlo.TRef.nullary main_call2.cst_1 (constant S_ .f32 0x00000000#32),
    StableHlo.TRef.binary main_call2.v6 main_call2.cst_1 main_call2.v7 (fun x v => Host.reduceAdd x v reducesTo_S16384x1024_S16384_d1 h_S_),
    StableHlo.TRef.unary main_call2.v7 main_call2.v8 (broadcastInDim S16384x1 ![0] bcast_S16384_S16384x1_0),
    StableHlo.TRef.unary main_call2.v8 main_call2.v9 Host.log,
    StableHlo.TRef.unary main_call2.v9 main_call2.v10 (broadcastInDim S16384x1024 ![0, 1] bcast_S16384x1_S16384x1024_0_1),
    StableHlo.TRef.binary main_call2.v5 main_call2.v10 main_call2.v11 subf ]

/-- The position head: affine, leaky rectifier (inline), affine, the logistic function (%88); and the new hidden state under a leading unit axis (%89). -/
abbrev opsD : List (HloOp τ sig (Elt F)) :=
  [ StableHlo.unary main_arg15 main_v72 ((transpose S512x512 [1, 0] · transposes_S512x512_S512x512_1_0) : (⟨S512x512, .f32⟩ : BufTy).Contents (Elt F) → (⟨S512x512, .f32⟩ : BufTy).Contents (Elt F)),
    StableHlo.binary main_v59 main_v72 main_v73 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    StableHlo.unary main_arg16 main_v74 (broadcastInDim S1x512 ![1] bcast_S512_S1x512_1 : (⟨S512, .f32⟩ : BufTy).Contents (Elt F) → (⟨S1x512, .f32⟩ : BufTy).Contents (Elt F)),
    StableHlo.unary main_v74 main_v75 (broadcastInDim S16384x512 ![0, 1] bcast_S1x512_S16384x512_0_1 : (⟨S1x512, .f32⟩ : BufTy).Contents (Elt F) → (⟨S16384x512, .f32⟩ : BufTy).Contents (Elt F)),
    StableHlo.binary main_v73 main_v75 main_v76 (addf : (⟨S16384x512, .f32⟩ : BufTy).Contents (Elt F) → (⟨S16384x512, .f32⟩ : BufTy).Contents (Elt F) → (⟨S16384x512, .f32⟩ : BufTy).Contents (Elt F)),
    StableHlo.nullary main_cst_9 (constant S_ .f32 0x3C23D70A#32),
    StableHlo.TRef.nullary main_call3.cst (constant S_ .f32 0x00000000#32),
    StableHlo.TRef.unary main_call3.cst main_call3.v0 (broadcastInDim S16384x512 ![] bcast_S_S16384x512),
    StableHlo.TRef.binary (.of main_v76 : StableHlo.TRef sig ⟨S16384x512, .f32⟩) main_call3.v0 main_call3.v1 (cmpf .oge),
    StableHlo.TRef.unary (.of main_cst_9 : StableHlo.TRef sig ⟨S_, .f32⟩) main_call3.v2 id,
    StableHlo.TRef.unary main_call3.v2 main_call3.v3 (broadcastInDim S16384x512 ![] bcast_S_S16384x512),
    StableHlo.TRef.binary main_call3.v3 (.of main_v76 : StableHlo.TRef sig ⟨S16384x512, .f32⟩) main_call3.v4 mulf,
    StableHlo.TRef.ternary main_call3.v1 (.of main_v76 : StableHlo.TRef sig ⟨S16384x512, .f32⟩) main_call3.v4 main_call3.call0.v0 select,
    StableHlo.unary main_arg17 main_v78 ((transpose S512x2 [1, 0] · transposes_S2x512_S512x2_1_0) : (⟨S2x512, .f32⟩ : BufTy).Contents (Elt F) → (⟨S512x2, .f32⟩ : BufTy).Contents (Elt F)),
    StableHlo.binary main_v77 main_v78 main_v79 ((fun l r => Host.dotGeneral dot_S16384x512_S512x2_S16384x2_1_0_0_1_n_n none l r) : (⟨S16384x512, .f32⟩ : BufTy).Contents (Elt F) → (⟨S512x2, .f32⟩ : BufTy).Contents (Elt F) → (⟨S16384x2, .f32⟩ : BufTy).Contents (Elt F)),
    StableHlo.unary main_arg18 main_v80 (broadcastInDim S1x2 ![1] bcast_S2_S1x2_1 : (⟨S2, .f32⟩ : BufTy).Contents (Elt F) → (⟨S1x2, .f32⟩ : BufTy).Contents (Elt F)),
    StableHlo.unary main_v80 main_v81 (broadcastInDim S16384x2 ![0, 1] bcast_S1x2_S16384x2_0_1 : (⟨S1x2, .f32⟩ : BufTy).Contents (Elt F) → (⟨S16384x2, .f32⟩ : BufTy).Contents (Elt F)),
    StableHlo.binary main_v79 main_v81 main_v82 (addf : (⟨S16384x2, .f32⟩ : BufTy).Contents (Elt F) → (⟨S16384x2, .f32⟩ : BufTy).Contents (Elt F) → (⟨S16384x2, .f32⟩ : BufTy).Contents (Elt F)),
    StableHlo.unary main_v82 main_v83 (Host.negf : (⟨S16384x2, .f32⟩ : BufTy).Contents (Elt F) → (⟨S16384x2, .f32⟩ : BufTy).Contents (Elt F)),
    StableHlo.unary main_v83 main_v84 (Host.exp : (⟨S16384x2, .f32⟩ : BufTy).Contents (Elt F) → (⟨S16384x2, .f32⟩ : BufTy).Contents (Elt F)),
    StableHlo.nullary main_cst_10 (constant S_ .f32 0x3F800000#32),
    StableHlo.unary main_cst_10 main_v85 (broadcastInDim S16384x2 ![] bcast_S_S16384x2 : (⟨S_, .f32⟩ : BufTy).Contents (Elt F) → (⟨S16384x2, .f32⟩ : BufTy).Contents (Elt F)),
    StableHlo.binary main_v85 main_v84 main_v86 (addf : (⟨S16384x2, .f32⟩ : BufTy).Contents (Elt F) → (⟨S16384x2, .f32⟩ : BufTy).Contents (Elt F) → (⟨S16384x2, .f32⟩ : BufTy).Contents (Elt F)),
    StableHlo.nullary main_cst_11 (constant S_ .f32 0x3F800000#32),
    StableHlo.unary main_cst_11 main_v87 (broadcastInDim S16384x2 ![] bcast_S_S16384x2 : (⟨S_, .f32⟩ : BufTy).Contents (Elt F) → (⟨S16384x2, .f32⟩ : BufTy).Contents (Elt F)),
    StableHlo.binary main_v87 main_v86 main_v88 (Host.divf : (⟨S16384x2, .f32⟩ : BufTy).Contents (Elt F) → (⟨S16384x2, .f32⟩ : BufTy).Contents (Elt F) → (⟨S16384x2, .f32⟩ : BufTy).Contents (Elt F)),
    StableHlo.unary main_v59 main_v89 (broadcastInDim S1x16384x512 ![1, 2] bcast_S16384x512_S1x16384x512_1_2 : (⟨S16384x512, .f32⟩ : BufTy).Contents (Elt F) → (⟨S1x16384x512, .f32⟩ : BufTy).Contents (Elt F)) ]

/-- The whole line: the four stretches in order. -/
abbrev ops : List (HloOp τ sig (Elt F)) := opsA ++ opsB ++ opsC ++ opsD

set_option maxRecDepth 8192 in
/-- The program is that straight line: with the called functions unfolded at their calls and the program's two
    windows joined, both sides are one chain of one hundred and fifty steps once sequencing is re-associated
    (sequencing is associative, and a return followed by a step is that step). -/
theorem main_eq (c : Dev nD) : main (F := F) c = seq ops := by
  simp only [main, main_part0, main_part1, fn_remainder.body, fn_where.body, fn_leaky_relu.body, fn_where_0.body,
    fn_log_softmax.body, ops, opsA, opsB, opsC, opsD, List.cons_append, List.nil_append, seq, bind_assoc, pure_bind]

/-! ## Lists of operations, piecewise -/

/-- A property of every element of two lists holds of every element of their concatenation. -/
theorem forall_app {α : Type _} {p : α → Prop} {l₁ l₂ : List α} (h₁ : l₁.Forall p) (h₂ : l₂.Forall p) :
    (l₁ ++ l₂).Forall p := by
  rw [List.forall_iff_forall_mem] at *
  intro x hx
  rcases List.mem_append.1 hx with h | h
  · exact h₁ x h
  · exact h₂ x h

/-- The contents after two lines in a row: the second line run from what the first leaves. -/
theorem after_app {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- The contents after the whole line, stretch by stretch. -/
theorem after_chunks (M : Valuation τ sig (Elt F)) :
    after ops M = after opsD (after opsC (after opsB (after opsA M))) := by
  show after (opsA ++ opsB ++ opsC ++ opsD) M = _
  rw [after_app, after_app, after_app]

/-! ## Every operation stays among the TensorCore's references and determines its results -/

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
    unary_bufs_sub .., binary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub .., binary_bufs_sub ..,
    unary_bufs_sub .., binary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., unary_bufs_sub .., binary_bufs_sub ..,
    unary_bufs_sub .., unary_bufs_sub .., binary_bufs_sub .., nary_bufs_sub .., reshape_bufs_sub ..⟩
theorem opsB_sub : (opsB : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub ..,
    unary_bufs_sub .., unary_bufs_sub .., binary_bufs_sub .., unary_bufs_sub .., unary_bufs_sub .., unary_bufs_sub .., unary_bufs_sub ..,
    unary_bufs_sub .., unary_bufs_sub .., binary_bufs_sub .., unary_bufs_sub .., unary_bufs_sub .., nullary_bufs_sub .., unary_bufs_sub ..,
    binary_bufs_sub .., nullary_bufs_sub .., unary_bufs_sub .., binary_bufs_sub .., binary_bufs_sub .., unary_bufs_sub .., unary_bufs_sub ..,
    nullary_bufs_sub .., unary_bufs_sub .., binary_bufs_sub .., nullary_bufs_sub .., unary_bufs_sub .., binary_bufs_sub .., binary_bufs_sub ..,
    binary_bufs_sub .., unary_bufs_sub .., nullary_bufs_sub .., unary_bufs_sub .., binary_bufs_sub .., binary_bufs_sub .., binary_bufs_sub ..,
    binary_bufs_sub ..⟩
theorem opsC_sub : (opsC : List (HloOp τ sig (Elt F))).Forall fun op => op.bufs ⊆ tcRefs τ sig :=
  ⟨unary_bufs_sub .., binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub .., unary_bufs_sub ..,
    binary_bufs_sub .., unary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub .., nullary_bufs_sub ..,
    binary_bufs_sub .., unary_bufs_sub .., unary_bufs_sub .., unary_bufs_sub .., binary_bufs_sub ..⟩
theorem opsD_sub : (opsD : List (HloOp τ sig (Elt F))).Forall fun op => op.bufs ⊆ tcRefs τ sig :=
  ⟨unary_bufs_sub .., binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub .., unary_bufs_sub ..,
    binary_bufs_sub .., unary_bufs_sub .., unary_bufs_sub .., binary_bufs_sub .., unary_bufs_sub .., unary_bufs_sub .., nullary_bufs_sub ..,
    unary_bufs_sub .., binary_bufs_sub .., nullary_bufs_sub .., unary_bufs_sub .., binary_bufs_sub .., unary_bufs_sub ..⟩

theorem ops_sub : (ops : List (HloOp τ sig (Elt F))).Forall fun op => op.bufs ⊆ tcRefs τ sig :=
  forall_app (forall_app (forall_app opsA_sub opsB_sub) opsC_sub) opsD_sub

theorem opsA_fresh : (opsA : List (HloOp τ sig (Elt F))).Forall fun op => op.fresh = ∅ := by
  simp only [List.Forall]; repeat' constructor
theorem opsB_fresh : (opsB : List (HloOp τ sig (Elt F))).Forall fun op => op.fresh = ∅ := by
  simp only [List.Forall]; repeat' constructor
theorem opsC_fresh : (opsC : List (HloOp τ sig (Elt F))).Forall fun op => op.fresh = ∅ := by
  simp only [List.Forall]; repeat' constructor
theorem opsD_fresh : (opsD : List (HloOp τ sig (Elt F))).Forall fun op => op.fresh = ∅ := by
  simp only [List.Forall]; repeat' constructor

theorem ops_fresh : ∀ op ∈ (ops : List (HloOp τ sig (Elt F))), op.fresh = ∅ :=
  List.forall_iff_forall_mem.1 (forall_app (forall_app (forall_app opsA_fresh opsB_fresh) opsC_fresh) opsD_fresh)

/-! ## The run -/

/-- On every device, for any float values, from any memory with zero counters: every weakly fair execution of the
    program terminates, and every final state has each buffer at the fold of the operations' results over the
    launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## The arguments are never written

Every operation writes one buffer, the one of the value it defines; the twenty-one arguments are among none of the
four stretches' written references, so each keeps its launch contents through the whole line. -/

/-- An operation whose only written buffer is the reference `y`, a member of the list `W`, writes inside `W`. -/
theorem writes_sub_of {Val : EltTy → Type} {op : HloOp τ sig Val} {W : List (Ref sig .tc)} (y : Ref sig .tc)
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

/-- The references stretch A writes, in order. -/
abbrev WA : List (Ref sig .tc) :=
  [main_c, main_v0, main_v1, main_c_0, main_v2, main_v3, main_v4, main_v5, main_v6, main_c_1, main_call0_v0, main_call0_c, main_call0_v1, main_call0_c_0,
   main_call0_v2, main_call0_v3, main_call0_v4, main_call0_c_1, main_call0_v5, main_call0_v6, main_call0_c_2, main_call0_v7, main_call0_v8,
   main_call0_c_3, main_call0_v9, main_call0_v10, main_call0_v11, main_call0_v12, main_call0_v13, main_call0_v14, main_v7, main_c_2, main_v8, main_v9,
   main_c_3, main_v10, main_v11, main_v12, main_v13, main_v14, main_v15, main_v16, main_v17, main_v18, main_v19, main_v20, main_v21]
/-- The references stretch B writes, in order. -/
abbrev WB : List (Ref sig .tc) :=
  [main_v22, main_v23, main_v24, main_v25, main_v26, main_v27, main_v28, main_v29, main_v30, main_v31, main_v32, main_v33, main_v34, main_v35, main_v36,
   main_v37, main_v38, main_v39, main_v40, main_cst, main_v41, main_v42, main_cst_4, main_v43, main_v44, main_v45, main_v46, main_v47, main_cst_5,
   main_v48, main_v49, main_cst_6, main_v50, main_v51, main_v52, main_v53, main_v54, main_cst_7, main_v55, main_v56, main_v57, main_v58, main_v59]
/-- The references stretch C writes, in order. -/
abbrev WC : List (Ref sig .tc) :=
  [main_v60, main_v61, main_v62, main_v63, main_v64, main_cst_8, main_call1_cst, main_call1_v0, main_call1_v1, main_call1_v2, main_call1_v3,
   main_call1_v4, main_v65, main_v66, main_v67, main_v68, main_v69, main_v70, main_call2_cst, main_call2_v0, main_call2_cst_0, main_call2_v1,
   main_call2_v2, main_call2_v3, main_call2_v4, main_call2_v5, main_call2_v6, main_call2_cst_1, main_call2_v7, main_call2_v8, main_call2_v9,
   main_call2_v10, main_v71]
/-- The references stretch D writes, in order. -/
abbrev WD : List (Ref sig .tc) :=
  [main_v72, main_v73, main_v74, main_v75, main_v76, main_cst_9, main_call3_cst, main_call3_v0, main_call3_v1, main_call3_v2, main_call3_v3,
   main_call3_v4, main_v77, main_v78, main_v79, main_v80, main_v81, main_v82, main_v83, main_v84, main_cst_10, main_v85, main_v86, main_cst_11, main_v87,
   main_v88, main_v89]

theorem opsA_writes : (opsA : List (HloOp τ sig (Elt F))).Forall fun op => op.writes ⊆ (WA.map (Proc.devRef (τ := τ) .tc)).toFinset :=
  ⟨writes_sub_of main_c rfl (by decide), writes_sub_of main_v0 rfl (by decide), writes_sub_of main_v1 rfl (by decide),
    writes_sub_of main_c_0 rfl (by decide), writes_sub_of main_v2 rfl (by decide), writes_sub_of main_v3 rfl (by decide),
    writes_sub_of main_v4 rfl (by decide), writes_sub_of main_v5 rfl (by decide), writes_sub_of main_v6 rfl (by decide),
    writes_sub_of main_c_1 rfl (by decide), writes_sub_of main_call0_v0 rfl (by decide), writes_sub_of main_call0_c rfl (by decide),
    writes_sub_of main_call0_v1 rfl (by decide), writes_sub_of main_call0_c_0 rfl (by decide), writes_sub_of main_call0_v2 rfl (by decide),
    writes_sub_of main_call0_v3 rfl (by decide), writes_sub_of main_call0_v4 rfl (by decide), writes_sub_of main_call0_c_1 rfl (by decide),
    writes_sub_of main_call0_v5 rfl (by decide), writes_sub_of main_call0_v6 rfl (by decide), writes_sub_of main_call0_c_2 rfl (by decide),
    writes_sub_of main_call0_v7 rfl (by decide), writes_sub_of main_call0_v8 rfl (by decide), writes_sub_of main_call0_c_3 rfl (by decide),
    writes_sub_of main_call0_v9 rfl (by decide), writes_sub_of main_call0_v10 rfl (by decide), writes_sub_of main_call0_v11 rfl (by decide),
    writes_sub_of main_call0_v12 rfl (by decide), writes_sub_of main_call0_v13 rfl (by decide), writes_sub_of main_call0_v14 rfl (by decide),
    writes_sub_of main_v7 rfl (by decide), writes_sub_of main_c_2 rfl (by decide), writes_sub_of main_v8 rfl (by decide),
    writes_sub_of main_v9 rfl (by decide), writes_sub_of main_c_3 rfl (by decide), writes_sub_of main_v10 rfl (by decide),
    writes_sub_of main_v11 rfl (by decide), writes_sub_of main_v12 rfl (by decide), writes_sub_of main_v13 rfl (by decide),
    writes_sub_of main_v14 rfl (by decide), writes_sub_of main_v15 rfl (by decide), writes_sub_of main_v16 rfl (by decide),
    writes_sub_of main_v17 rfl (by decide), writes_sub_of main_v18 rfl (by decide), writes_sub_of main_v19 rfl (by decide),
    writes_sub_of main_v20 rfl (by decide), writes_sub_of main_v21 rfl (by decide)⟩
theorem opsB_writes : (opsB : List (HloOp τ sig (Elt F))).Forall fun op => op.writes ⊆ (WB.map (Proc.devRef (τ := τ) .tc)).toFinset :=
  ⟨writes_sub_of main_v22 rfl (by decide), writes_sub_of main_v23 rfl (by decide), writes_sub_of main_v24 rfl (by decide),
    writes_sub_of main_v25 rfl (by decide), writes_sub_of main_v26 rfl (by decide), writes_sub_of main_v27 rfl (by decide),
    writes_sub_of main_v28 rfl (by decide), writes_sub_of main_v29 rfl (by decide), writes_sub_of main_v30 rfl (by decide),
    writes_sub_of main_v31 rfl (by decide), writes_sub_of main_v32 rfl (by decide), writes_sub_of main_v33 rfl (by decide),
    writes_sub_of main_v34 rfl (by decide), writes_sub_of main_v35 rfl (by decide), writes_sub_of main_v36 rfl (by decide),
    writes_sub_of main_v37 rfl (by decide), writes_sub_of main_v38 rfl (by decide), writes_sub_of main_v39 rfl (by decide),
    writes_sub_of main_v40 rfl (by decide), writes_sub_of main_cst rfl (by decide), writes_sub_of main_v41 rfl (by decide),
    writes_sub_of main_v42 rfl (by decide), writes_sub_of main_cst_4 rfl (by decide), writes_sub_of main_v43 rfl (by decide),
    writes_sub_of main_v44 rfl (by decide), writes_sub_of main_v45 rfl (by decide), writes_sub_of main_v46 rfl (by decide),
    writes_sub_of main_v47 rfl (by decide), writes_sub_of main_cst_5 rfl (by decide), writes_sub_of main_v48 rfl (by decide),
    writes_sub_of main_v49 rfl (by decide), writes_sub_of main_cst_6 rfl (by decide), writes_sub_of main_v50 rfl (by decide),
    writes_sub_of main_v51 rfl (by decide), writes_sub_of main_v52 rfl (by decide), writes_sub_of main_v53 rfl (by decide),
    writes_sub_of main_v54 rfl (by decide), writes_sub_of main_cst_7 rfl (by decide), writes_sub_of main_v55 rfl (by decide),
    writes_sub_of main_v56 rfl (by decide), writes_sub_of main_v57 rfl (by decide), writes_sub_of main_v58 rfl (by decide),
    writes_sub_of main_v59 rfl (by decide)⟩
theorem opsC_writes : (opsC : List (HloOp τ sig (Elt F))).Forall fun op => op.writes ⊆ (WC.map (Proc.devRef (τ := τ) .tc)).toFinset :=
  ⟨writes_sub_of main_v60 rfl (by decide), writes_sub_of main_v61 rfl (by decide), writes_sub_of main_v62 rfl (by decide),
    writes_sub_of main_v63 rfl (by decide), writes_sub_of main_v64 rfl (by decide), writes_sub_of main_cst_8 rfl (by decide),
    writes_sub_of main_call1_cst rfl (by decide), writes_sub_of main_call1_v0 rfl (by decide), writes_sub_of main_call1_v1 rfl (by decide),
    writes_sub_of main_call1_v2 rfl (by decide), writes_sub_of main_call1_v3 rfl (by decide), writes_sub_of main_call1_v4 rfl (by decide),
    writes_sub_of main_v65 rfl (by decide), writes_sub_of main_v66 rfl (by decide), writes_sub_of main_v67 rfl (by decide),
    writes_sub_of main_v68 rfl (by decide), writes_sub_of main_v69 rfl (by decide), writes_sub_of main_v70 rfl (by decide),
    writes_sub_of main_call2_cst rfl (by decide), writes_sub_of main_call2_v0 rfl (by decide), writes_sub_of main_call2_cst_0 rfl (by decide),
    writes_sub_of main_call2_v1 rfl (by decide), writes_sub_of main_call2_v2 rfl (by decide), writes_sub_of main_call2_v3 rfl (by decide),
    writes_sub_of main_call2_v4 rfl (by decide), writes_sub_of main_call2_v5 rfl (by decide), writes_sub_of main_call2_v6 rfl (by decide),
    writes_sub_of main_call2_cst_1 rfl (by decide), writes_sub_of main_call2_v7 rfl (by decide), writes_sub_of main_call2_v8 rfl (by decide),
    writes_sub_of main_call2_v9 rfl (by decide), writes_sub_of main_call2_v10 rfl (by decide), writes_sub_of main_v71 rfl (by decide)⟩
theorem opsD_writes : (opsD : List (HloOp τ sig (Elt F))).Forall fun op => op.writes ⊆ (WD.map (Proc.devRef (τ := τ) .tc)).toFinset :=
  ⟨writes_sub_of main_v72 rfl (by decide), writes_sub_of main_v73 rfl (by decide), writes_sub_of main_v74 rfl (by decide),
    writes_sub_of main_v75 rfl (by decide), writes_sub_of main_v76 rfl (by decide), writes_sub_of main_cst_9 rfl (by decide),
    writes_sub_of main_call3_cst rfl (by decide), writes_sub_of main_call3_v0 rfl (by decide), writes_sub_of main_call3_v1 rfl (by decide),
    writes_sub_of main_call3_v2 rfl (by decide), writes_sub_of main_call3_v3 rfl (by decide), writes_sub_of main_call3_v4 rfl (by decide),
    writes_sub_of main_v77 rfl (by decide), writes_sub_of main_v78 rfl (by decide), writes_sub_of main_v79 rfl (by decide),
    writes_sub_of main_v80 rfl (by decide), writes_sub_of main_v81 rfl (by decide), writes_sub_of main_v82 rfl (by decide),
    writes_sub_of main_v83 rfl (by decide), writes_sub_of main_v84 rfl (by decide), writes_sub_of main_cst_10 rfl (by decide),
    writes_sub_of main_v85 rfl (by decide), writes_sub_of main_v86 rfl (by decide), writes_sub_of main_cst_11 rfl (by decide),
    writes_sub_of main_v87 rfl (by decide), writes_sub_of main_v88 rfl (by decide), writes_sub_of main_v89 rfl (by decide)⟩

/-- A reference none of the four stretches writes keeps its contents through the whole line. -/
theorem after_of_not_written (M : Valuation τ sig (Elt F)) (r : Ref sig .tc)
    (hA : r ∉ WA) (hB : r ∉ WB) (hC : r ∉ WC) (hD : r ∉ WD) :
    after ops M (Proc.devRef .tc r) = M (Proc.devRef .tc r) := by
  rw [after_chunks, after_of_writes_sub opsD _ opsD_writes hD, after_of_writes_sub opsC _ opsC_writes hC,
    after_of_writes_sub opsB _ opsB_writes hB, after_of_writes_sub opsA _ opsA_writes hA]

/-- The frame: every execution terminates with the twenty-one arguments at their launch contents. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c =>
    ⟨(h c main_arg0).trans (after_of_not_written _ main_arg0 (by decide) (by decide) (by decide) (by decide)),
     (h c main_arg1).trans (after_of_not_written _ main_arg1 (by decide) (by decide) (by decide) (by decide)),
     (h c main_arg2).trans (after_of_not_written _ main_arg2 (by decide) (by decide) (by decide) (by decide)),
     (h c main_arg3).trans (after_of_not_written _ main_arg3 (by decide) (by decide) (by decide) (by decide)),
     (h c main_arg4).trans (after_of_not_written _ main_arg4 (by decide) (by decide) (by decide) (by decide)),
     (h c main_arg5).trans (after_of_not_written _ main_arg5 (by decide) (by decide) (by decide) (by decide)),
     (h c main_arg6).trans (after_of_not_written _ main_arg6 (by decide) (by decide) (by decide) (by decide)),
     (h c main_arg7).trans (after_of_not_written _ main_arg7 (by decide) (by decide) (by decide) (by decide)),
     (h c main_arg8).trans (after_of_not_written _ main_arg8 (by decide) (by decide) (by decide) (by decide)),
     (h c main_arg9).trans (after_of_not_written _ main_arg9 (by decide) (by decide) (by decide) (by decide)),
     (h c main_arg10).trans (after_of_not_written _ main_arg10 (by decide) (by decide) (by decide) (by decide)),
     (h c main_arg11).trans (after_of_not_written _ main_arg11 (by decide) (by decide) (by decide) (by decide)),
     (h c main_arg12).trans (after_of_not_written _ main_arg12 (by decide) (by decide) (by decide) (by decide)),
     (h c main_arg13).trans (after_of_not_written _ main_arg13 (by decide) (by decide) (by decide) (by decide)),
     (h c main_arg14).trans (after_of_not_written _ main_arg14 (by decide) (by decide) (by decide) (by decide)),
     (h c main_arg15).trans (after_of_not_written _ main_arg15 (by decide) (by decide) (by decide) (by decide)),
     (h c main_arg16).trans (after_of_not_written _ main_arg16 (by decide) (by decide) (by decide) (by decide)),
     (h c main_arg17).trans (after_of_not_written _ main_arg17 (by decide) (by decide) (by decide) (by decide)),
     (h c main_arg18).trans (after_of_not_written _ main_arg18 (by decide) (by decide) (by decide) (by decide)),
     (h c main_arg19).trans (after_of_not_written _ main_arg19 (by decide) (by decide) (by decide) (by decide)),
     (h c main_arg20).trans (after_of_not_written _ main_arg20 (by decide) (by decide) (by decide) (by decide))⟩)
    (run m ρ)

end Cert.ReferenceIdeal.Hand

end
-- ==== Proof.RefGru.lean ====
/-
  The reference's GRU stretch as one pure term, and that it is the row-wise GRU cell.

  The reference forms the two affine layers gx = x·W₁ + b₁ and gh = h·W₂ + b₂ on all 16384 rows at once (a matrix
  product plus a bias row repeated down the rows), cuts each into its reset, update and candidate thirds (columns
  0–511, 512–1023, 1024–1535), and combines them: r = 1/(1 + exp(−(gxᵣ + ghᵣ))), z likewise, n = tanh(gxₙ + r·ghₙ),
  new state (1 − z)·n + z·h. Read at an index (i, j) every step touches row i alone, and the term is the GRU cell of
  row i at column j.
-/
import proofs.«406328_j56736517980496_1_alg».proof.ReferenceIdeal
import proofs.«406328_j56736517980496_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.Bridge.RefGru

open Cert.ReferenceIdeal Cert.Spec Idealize.ShloMosaic Idealize.ShloMosaic.ValueIdx
open Cert.ReferenceIdeal.Facts₀ Cert.ReferenceIdeal.Facts

variable [Facts]

/-- The reference's operations %23 … %59 composed: the new hidden state of all rows as a function of the
    concatenated input `x`, the previous state `h0`, the two transposed weight matrices and the two bias vectors. -/
def refGru (x : FVec Ideal S16384x1282 .f32) (h0 : FVec Ideal S16384x512 .f32) (w1 : FVec Ideal S1282x1536 .f32)
    (w2 : FVec Ideal S512x1536 .f32) (bih bhh : FVec Ideal S1536 .f32) : FVec Ideal S16384x512 .f32 :=
  -- gx = x·W₁ + b₁
  let v23 : FVec Ideal S16384x1536 .f32 := Host.dotGeneral dot_S16384x1282_S1282x1536_S16384x1536_1_0_0_1_n_n none x w1
  let v24 : FVec Ideal S1x1536 .f32 := broadcastInDim S1x1536 ![1] bcast_S1536_S1x1536_1 bih
  let v25 : FVec Ideal S16384x1536 .f32 := broadcastInDim S16384x1536 ![0, 1] bcast_S1x1536_S16384x1536_0_1 v24
  let v26 : FVec Ideal S16384x1536 .f32 := addf v23 v25
  -- gh = h·W₂ + b₂
  let v28 : FVec Ideal S16384x1536 .f32 := Host.dotGeneral dot_S16384x512_S512x1536_S16384x1536_1_0_0_1_n_n none h0 w2
  let v29 : FVec Ideal S1x1536 .f32 := broadcastInDim S1x1536 ![1] bcast_S1536_S1x1536_1 bhh
  let v30 : FVec Ideal S16384x1536 .f32 := broadcastInDim S16384x1536 ![0, 1] bcast_S1x1536_S16384x1536_0_1 v29
  let v31 : FVec Ideal S16384x1536 .f32 := addf v28 v30
  -- the reset, update and candidate thirds of each
  let v32 : FVec Ideal S16384x512 .f32 := extractStridedSlice S16384x512 ![0, 0] v26 slices_S16384x1536_S16384x512_0_0
  let v33 : FVec Ideal S16384x512 .f32 := extractStridedSlice S16384x512 ![0, 512] v26 slices_S16384x1536_S16384x512_0_512
  let v34 : FVec Ideal S16384x512 .f32 := extractStridedSlice S16384x512 ![0, 1024] v26 slices_S16384x1536_S16384x512_0_1024
  let v35 : FVec Ideal S16384x512 .f32 := extractStridedSlice S16384x512 ![0, 0] v31 slices_S16384x1536_S16384x512_0_0
  let v36 : FVec Ideal S16384x512 .f32 := extractStridedSlice S16384x512 ![0, 512] v31 slices_S16384x1536_S16384x512_0_512
  let v37 : FVec Ideal S16384x512 .f32 := extractStridedSlice S16384x512 ![0, 1024] v31 slices_S16384x1536_S16384x512_0_1024
  -- r = 1 / (1 + exp (−(gxᵣ + ghᵣ)))
  let v38 : FVec Ideal S16384x512 .f32 := addf v32 v35
  let v39 : FVec Ideal S16384x512 .f32 := Host.negf v38
  let v40 : FVec Ideal S16384x512 .f32 := Host.exp v39
  let cst : FVec Ideal S_ .f32 := constant S_ .f32 0x3F800000#32
  let v41 : FVec Ideal S16384x512 .f32 := broadcastInDim S16384x512 ![] bcast_S_S16384x512 cst
  let v42 : FVec Ideal S16384x512 .f32 := addf v41 v40
  let cst_4 : FVec Ideal S_ .f32 := constant S_ .f32 0x3F800000#32
  let v43 : FVec Ideal S16384x512 .f32 := broadcastInDim S16384x512 ![] bcast_S_S16384x512 cst_4
  let v44 : FVec Ideal S16384x512 .f32 := Host.divf v43 v42
  -- z = 1 / (1 + exp (−(gx_z + gh_z)))
  let v45 : FVec Ideal S16384x512 .f32 := addf v33 v36
  let v46 : FVec Ideal S16384x512 .f32 := Host.negf v45
  let v47 : FVec Ideal S16384x512 .f32 := Host.exp v46
  let cst_5 : FVec Ideal S_ .f32 := constant S_ .f32 0x3F800000#32
  let v48 : FVec Ideal S16384x512 .f32 := broadcastInDim S16384x512 ![] bcast_S_S16384x512 cst_5
  let v49 : FVec Ideal S16384x512 .f32 := addf v48 v47
  let cst_6 : FVec Ideal S_ .f32 := constant S_ .f32 0x3F800000#32
  let v50 : FVec Ideal S16384x512 .f32 := broadcastInDim S16384x512 ![] bcast_S_S16384x512 cst_6
  let v51 : FVec Ideal S16384x512 .f32 := Host.divf v50 v49
  -- n = tanh (gxₙ + r · ghₙ)
  let v52 : FVec Ideal S16384x512 .f32 := mulf v44 v37
  let v53 : FVec Ideal S16384x512 .f32 := addf v34 v52
  let v54 : FVec Ideal S16384x512 .f32 := Host.tanh v53
  -- (1 − z) · n + z · h
  let cst_7 : FVec Ideal S_ .f32 := constant S_ .f32 0x3F800000#32
  let v55 : FVec Ideal S16384x512 .f32 := broadcastInDim S16384x512 ![] bcast_S_S16384x512 cst_7
  let v56 : FVec Ideal S16384x512 .f32 := subf v55 v51
  let v57 : FVec Ideal S16384x512 .f32 := mulf v56 v54
  let v58 : FVec Ideal S16384x512 .f32 := mulf v51 h0
  addf v57 v58

/-! ## The operations read at an index -/

/-- The f32 word `0x3F800000` is the extended real one. -/
theorem one_f32 : Ideal.ofBits .f32 0x3F800000#32 = 1 := Ideal.ofBits_one_f32

section Pointwise
variable {s : Shape} {φ : FTy}

/-- The host's exponential, hyperbolic tangent and negation act on each element. -/
theorem hostExp_apply (a : FVec Ideal s φ) (i : s.Idx) : Host.exp a i = Ideal.exp (a i) := rfl
theorem hostTanh_apply (a : FVec Ideal s φ) (i : s.Idx) : Host.tanh a i = Ideal.tanh (a i) := rfl
theorem hostNegf_apply (a : FVec Ideal s φ) (i : s.Idx) : Host.negf a i = -(a i) := rfl

end Pointwise

/-- The constant one repeated over all rows and columns reads one everywhere. -/
theorem ones_apply (i : S16384x512.Idx) :
    broadcastInDim S16384x512 ![] bcast_S_S16384x512 (constant (F := Ideal) S_ .f32 0x3F800000#32) i = 1 := by
  rw [broadcastInDim_scalar_apply, constant_apply, one_f32]

/-- The three column thirds of a 1536-wide array: columns `j`, `512 + j`, `1024 + j`. -/
theorem sliceR_apply (X : FVec Ideal S16384x1536 .f32) (i : Fin 16384) (j : Fin 512) :
    extractStridedSlice S16384x512 ![0, 0] X slices_S16384x1536_S16384x512_0_0 (ix2 i j) = X (ix2 i (colR j)) :=
  slice2_axis1_apply 0 X _ i j (colR j) (Nat.zero_add _).symm
theorem sliceZ_apply (X : FVec Ideal S16384x1536 .f32) (i : Fin 16384) (j : Fin 512) :
    extractStridedSlice S16384x512 ![0, 512] X slices_S16384x1536_S16384x512_0_512 (ix2 i j) = X (ix2 i (colZ j)) :=
  slice2_axis1_apply 512 X _ i j (colZ j) rfl
theorem sliceN_apply (X : FVec Ideal S16384x1536 .f32) (i : Fin 16384) (j : Fin 512) :
    extractStridedSlice S16384x512 ![0, 1024] X slices_S16384x1536_S16384x512_0_1024 (ix2 i j) = X (ix2 i (colN j)) :=
  slice2_axis1_apply 1024 X _ i j (colN j) rfl

/-- A bias vector laid out as one row and repeated down the rows reads, at `(i, c)`, the vector at `c`. -/
theorem bias_apply (b : FVec Ideal S1536 .f32) (i : Fin 16384) (c : Fin 1536) :
    broadcastInDim S16384x1536 ![0, 1] bcast_S1x1536_S16384x1536_0_1 (broadcastInDim S1x1536 ![1] bcast_S1536_S1x1536_1 b) (ix2 i c)
      = b (ix1 c) := by
  refine (broadcastInDim_apply _ _ _ (ix2 i c) (ix2 0 c) fun a => ?_).trans
    (broadcastInDim_apply _ _ _ (ix2 0 c) (ix1 c) fun a => ?_)
  · match a with
    | ⟨0, _⟩ => rfl
    | ⟨1, _⟩ => rfl
  · match a with
    | ⟨0, _⟩ => rfl

/-! ### The two matrix products -/

/-- The operand indices of the product `x·W₁`, axis by axis: the left operand is read at (row of the result,
    contraction position), the right at (contraction position, column of the result). -/
theorem lhs_v23_0 (i : S16384x1536.Idx) (q : dot_S16384x1282_S1282x1536_S16384x1536_1_0_0_1_n_n.contr.Idx) :
    (dot_S16384x1282_S1282x1536_S16384x1536_1_0_0_1_n_n.lhsIdx i q 0).val = (i 0).val := by
  unfold DotDims.lhsIdx
  rw [dif_neg (show ¬(0 : Fin S16384x1282.rank) ∈ dot_S16384x1282_S1282x1536_S16384x1536_1_0_0_1_n_n.lhsBatch from List.not_mem_nil),
    dif_pos (show (0 : Fin S16384x1282.rank) ∈ dot_S16384x1282_S1282x1536_S16384x1536_1_0_0_1_n_n.lhsNonContracting from List.mem_singleton.mpr rfl)]
  rfl
theorem lhs_v23_1 (i : S16384x1536.Idx) (q : dot_S16384x1282_S1282x1536_S16384x1536_1_0_0_1_n_n.contr.Idx) :
    (dot_S16384x1282_S1282x1536_S16384x1536_1_0_0_1_n_n.lhsIdx i q 1).val = (q ⟨0, Nat.one_pos⟩).val :=
  dot_S16384x1282_S1282x1536_S16384x1536_1_0_0_1_n_n.lhsIdx_val_of_single rfl i q
theorem rhs_v23_0 (i : S16384x1536.Idx) (q : dot_S16384x1282_S1282x1536_S16384x1536_1_0_0_1_n_n.contr.Idx) :
    (dot_S16384x1282_S1282x1536_S16384x1536_1_0_0_1_n_n.rhsIdx i q 0).val = (q ⟨0, Nat.one_pos⟩).val :=
  dot_S16384x1282_S1282x1536_S16384x1536_1_0_0_1_n_n.rhsIdx_val_of_single rfl i q
theorem rhs_v23_1 (i : S16384x1536.Idx) (q : dot_S16384x1282_S1282x1536_S16384x1536_1_0_0_1_n_n.contr.Idx) :
    (dot_S16384x1282_S1282x1536_S16384x1536_1_0_0_1_n_n.rhsIdx i q 1).val = (i 1).val := by
  unfold DotDims.rhsIdx
  rw [dif_neg (show ¬(1 : Fin S1282x1536.rank) ∈ dot_S16384x1282_S1282x1536_S16384x1536_1_0_0_1_n_n.rhsBatch from List.not_mem_nil),
    dif_pos (show (1 : Fin S1282x1536.rank) ∈ dot_S16384x1282_S1282x1536_S16384x1536_1_0_0_1_n_n.rhsNonContracting from List.mem_singleton.mpr rfl)]
  rfl

/-- The product `x·W₁` at `(i, c)` is the sum over the 1282 input features of row `i` of `x` against column `c` of `W₁`. -/
theorem dotX_apply (x : FVec Ideal S16384x1282 .f32) (w : FVec Ideal S1282x1536 .f32) (i : Fin 16384) (c : Fin 1536) :
    Host.dotGeneral dot_S16384x1282_S1282x1536_S16384x1536_1_0_0_1_n_n none x w (ix2 i c)
      = ∑ k : Fin 1282, x (ix2 i k) * w (ix2 k c) := by
  simp only [Host.dotGeneral]
  rw [Ideal.dotGeneral_apply,
    ← Equiv.sum_comp (contrEquiv1 dot_S16384x1282_S1282x1536_S16384x1536_1_0_0_1_n_n 1282 rfl rfl).symm]
  refine Finset.sum_congr rfl fun k _ => ?_
  have hk := contrEquiv1_symm_val dot_S16384x1282_S1282x1536_S16384x1536_1_0_0_1_n_n 1282 rfl rfl k
  have el : dot_S16384x1282_S1282x1536_S16384x1536_1_0_0_1_n_n.lhsIdx (ix2 i c)
      ((contrEquiv1 dot_S16384x1282_S1282x1536_S16384x1536_1_0_0_1_n_n 1282 rfl rfl).symm k) = ix2 i k :=
    funext fun a => Fin.ext (by
      match a with
      | ⟨0, _⟩ => exact lhs_v23_0 _ _
      | ⟨1, _⟩ => exact (lhs_v23_1 _ _).trans hk)
  have er : dot_S16384x1282_S1282x1536_S16384x1536_1_0_0_1_n_n.rhsIdx (ix2 i c)
      ((contrEquiv1 dot_S16384x1282_S1282x1536_S16384x1536_1_0_0_1_n_n 1282 rfl rfl).symm k) = ix2 k c :=
    funext fun a => Fin.ext (by
      match a with
      | ⟨0, _⟩ => exact (rhs_v23_0 _ _).trans hk
      | ⟨1, _⟩ => exact rhs_v23_1 _ _)
  rw [el, er]

/-- The same for the product `h·W₂`, whose contraction runs over the 512 hidden units. -/
theorem lhs_v28_0 (i : S16384x1536.Idx) (q : dot_S16384x512_S512x1536_S16384x1536_1_0_0_1_n_n.contr.Idx) :
    (dot_S16384x512_S512x1536_S16384x1536_1_0_0_1_n_n.lhsIdx i q 0).val = (i 0).val := by
  unfold DotDims.lhsIdx
  rw [dif_neg (show ¬(0 : Fin S16384x512.rank) ∈ dot_S16384x512_S512x1536_S16384x1536_1_0_0_1_n_n.lhsBatch from List.not_mem_nil),
    dif_pos (show (0 : Fin S16384x512.rank) ∈ dot_S16384x512_S512x1536_S16384x1536_1_0_0_1_n_n.lhsNonContracting from List.mem_singleton.mpr rfl)]
  rfl
theorem lhs_v28_1 (i : S16384x1536.Idx) (q : dot_S16384x512_S512x1536_S16384x1536_1_0_0_1_n_n.contr.Idx) :
    (dot_S16384x512_S512x1536_S16384x1536_1_0_0_1_n_n.lhsIdx i q 1).val = (q ⟨0, Nat.one_pos⟩).val :=
  dot_S16384x512_S512x1536_S16384x1536_1_0_0_1_n_n.lhsIdx_val_of_single rfl i q
theorem rhs_v28_0 (i : S16384x1536.Idx) (q : dot_S16384x512_S512x1536_S16384x1536_1_0_0_1_n_n.contr.Idx) :
    (dot_S16384x512_S512x1536_S16384x1536_1_0_0_1_n_n.rhsIdx i q 0).val = (q ⟨0, Nat.one_pos⟩).val :=
  dot_S16384x512_S512x1536_S16384x1536_1_0_0_1_n_n.rhsIdx_val_of_single rfl i q
theorem rhs_v28_1 (i : S16384x1536.Idx) (q : dot_S16384x512_S512x1536_S16384x1536_1_0_0_1_n_n.contr.Idx) :
    (dot_S16384x512_S512x1536_S16384x1536_1_0_0_1_n_n.rhsIdx i q 1).val = (i 1).val := by
  unfold DotDims.rhsIdx
  rw [dif_neg (show ¬(1 : Fin S512x1536.rank) ∈ dot_S16384x512_S512x1536_S16384x1536_1_0_0_1_n_n.rhsBatch from List.not_mem_nil),
    dif_pos (show (1 : Fin S512x1536.rank) ∈ dot_S16384x512_S512x1536_S16384x1536_1_0_0_1_n_n.rhsNonContracting from List.mem_singleton.mpr rfl)]
  rfl

theorem dotH_apply (h : FVec Ideal S16384x512 .f32) (w : FVec Ideal S512x1536 .f32) (i : Fin 16384) (c : Fin 1536) :
    Host.dotGeneral dot_S16384x512_S512x1536_S16384x1536_1_0_0_1_n_n none h w (ix2 i c)
      = ∑ k : Fin 512, h (ix2 i k) * w (ix2 k c) := by
  simp only [Host.dotGeneral]
  rw [Ideal.dotGeneral_apply,
    ← Equiv.sum_comp (contrEquiv1 dot_S16384x512_S512x1536_S16384x1536_1_0_0_1_n_n 512 rfl rfl).symm]
  refine Finset.sum_congr rfl fun k _ => ?_
  have hk := contrEquiv1_symm_val dot_S16384x512_S512x1536_S16384x1536_1_0_0_1_n_n 512 rfl rfl k
  have el : dot_S16384x512_S512x1536_S16384x1536_1_0_0_1_n_n.lhsIdx (ix2 i c)
      ((contrEquiv1 dot_S16384x512_S512x1536_S16384x1536_1_0_0_1_n_n 512 rfl rfl).symm k) = ix2 i k :=
    funext fun a => Fin.ext (by
      match a with
      | ⟨0, _⟩ => exact lhs_v28_0 _ _
      | ⟨1, _⟩ => exact (lhs_v28_1 _ _).trans hk)
  have er : dot_S16384x512_S512x1536_S16384x1536_1_0_0_1_n_n.rhsIdx (ix2 i c)
      ((contrEquiv1 dot_S16384x512_S512x1536_S16384x1536_1_0_0_1_n_n 512 rfl rfl).symm k) = ix2 k c :=
    funext fun a => Fin.ext (by
      match a with
      | ⟨0, _⟩ => exact (rhs_v28_0 _ _).trans hk
      | ⟨1, _⟩ => exact rhs_v28_1 _ _)
  rw [el, er]

/-- The first affine layer at `(i, c)`: the product plus the repeated bias is the affine layer of row `i` at column `c`. -/
theorem affineX_apply (x : FVec Ideal S16384x1282 .f32) (w : FVec Ideal S1282x1536 .f32) (b : FVec Ideal S1536 .f32)
    (i : Fin 16384) (c : Fin 1536) :
    addf (Host.dotGeneral dot_S16384x1282_S1282x1536_S16384x1536_1_0_0_1_n_n none x w)
        (broadcastInDim S16384x1536 ![0, 1] bcast_S1x1536_S16384x1536_0_1 (broadcastInDim S1x1536 ![1] bcast_S1536_S1x1536_1 b)) (ix2 i c)
      = affine (row x i) w (rowOf b) c := by
  rw [addf_apply, dotX_apply, bias_apply]; rfl

/-- The second affine layer likewise. -/
theorem affineH_apply (h : FVec Ideal S16384x512 .f32) (w : FVec Ideal S512x1536 .f32) (b : FVec Ideal S1536 .f32)
    (i : Fin 16384) (c : Fin 1536) :
    addf (Host.dotGeneral dot_S16384x512_S512x1536_S16384x1536_1_0_0_1_n_n none h w)
        (broadcastInDim S16384x1536 ![0, 1] bcast_S1x1536_S16384x1536_0_1 (broadcastInDim S1x1536 ![1] bcast_S1536_S1x1536_1 b)) (ix2 i c)
      = affine (row h i) w (rowOf b) c := by
  rw [addf_apply, dotH_apply, bias_apply]; rfl

/-! ## The stretch is the cell on every row -/

/-- The reference's GRU stretch is the GRU cell applied to every row. -/
theorem refGru_eq (x : FVec Ideal S16384x1282 .f32) (h0 : FVec Ideal S16384x512 .f32) (w1 : FVec Ideal S1282x1536 .f32)
    (w2 : FVec Ideal S512x1536 .f32) (bih bhh : FVec Ideal S1536 .f32) :
    refGru x h0 w1 w2 bih bhh = Cert.Spec.gruK (R := 16384) x h0 w1 w2 (Cert.Spec.rowOf bih) (Cert.Spec.rowOf bhh) := by
  funext idx
  obtain ⟨i, j, rfl⟩ : ∃ i j, idx = ix2 i j := ⟨idx 0, idx 1, eq_ix2 idx⟩
  unfold refGru
  simp only [addf_apply, mulf_apply, subf_apply, hostDivf_apply, hostExp_apply, hostTanh_apply, hostNegf_apply,
    sliceR_apply, sliceZ_apply, sliceN_apply, dotX_apply, dotH_apply]
  rw [ones_apply, bias_apply bih i (colR j), bias_apply bih i (colZ j), bias_apply bih i (colN j),
    bias_apply bhh i (colR j), bias_apply bhh i (colZ j), bias_apply bhh i (colN j)]
  rfl

end Cert.Bridge.RefGru

end
-- ==== Proof.RefMlp.lean ====
/-
  The reference's two heads as pure terms, and that they are the row-wise specification.

  The label head is an affine layer, the leaky rectifier, a second affine layer, and a log-softmax along each row;
  the position head is an affine layer, the leaky rectifier, a second affine layer, and the logistic function written
  as 1 / (1 + exp (−v)). Read at an index (i, c), each operation is its textbook formula on row i, so each head is
  the specification's row function applied to row i of the hidden states.
-/
import proofs.«406328_j56736517980496_1_alg».proof.ReferenceIdeal
import proofs.«406328_j56736517980496_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import Idealize.ShloMosaic.Lib.KernelVsHost
import Idealize.ShloMosaic.Lib.StackMember

noncomputable section

namespace Cert.Bridge.RefMlp

open Cert.ReferenceIdeal Cert.Spec Idealize.ShloMosaic Idealize.ShloMosaic.ValueIdx

variable [Facts]
open Facts₀ Facts

/-- The label head: the two affine layers with the leaky rectifier between them, then the log-softmax of each row. -/
def refType (h : FVec Ideal S16384x512 .f32) (w1 : FVec Ideal S512x512 .f32) (bl1 : FVec Ideal S512 .f32)
    (w2 : FVec Ideal S512x1024 .f32) (bl2 : FVec Ideal S1024 .f32) : FVec Ideal S16384x1024 .f32 :=
  let v61 : FVec Ideal S16384x512 .f32 := Host.dotGeneral dot_S16384x512_S512x512_S16384x512_1_0_0_1_n_n none h w1
  let v62 : FVec Ideal S1x512 .f32 := broadcastInDim S1x512 ![1] bcast_S512_S1x512_1 bl1
  let v63 : FVec Ideal S16384x512 .f32 := broadcastInDim S16384x512 ![0, 1] bcast_S1x512_S16384x512_0_1 v62
  let v64 : FVec Ideal S16384x512 .f32 := addf v61 v63
  let cst8 : FVec Ideal S_ .f32 := constant (F := Ideal) S_ .f32 0x3C23D70A#32
  let a0 : FVec Ideal S_ .f32 := constant (F := Ideal) S_ .f32 0x00000000#32
  let a1 : FVec Ideal S16384x512 .f32 := broadcastInDim S16384x512 ![] bcast_S_S16384x512 a0
  let a2 : IVec S16384x512 1 := cmpf .oge v64 a1
  let a3 : FVec Ideal S_ .f32 := id cst8
  let a4 : FVec Ideal S16384x512 .f32 := broadcastInDim S16384x512 ![] bcast_S_S16384x512 a3
  let a5 : FVec Ideal S16384x512 .f32 := mulf a4 v64
  let v65 : FVec Ideal S16384x512 .f32 := select a2 v64 a5
  let v67 : FVec Ideal S16384x1024 .f32 := Host.dotGeneral dot_S16384x512_S512x1024_S16384x1024_1_0_0_1_n_n none v65 w2
  let v68 : FVec Ideal S1x1024 .f32 := broadcastInDim S1x1024 ![1] bcast_S1024_S1x1024_1 bl2
  let v69 : FVec Ideal S16384x1024 .f32 := broadcastInDim S16384x1024 ![0, 1] bcast_S1x1024_S16384x1024_0_1 v68
  let v70 : FVec Ideal S16384x1024 .f32 := addf v67 v69
  let s0 : FVec Ideal S_ .f32 := constant (F := Ideal) S_ .f32 0xFF800000#32
  let s1 : FVec Ideal S16384 .f32 := Host.reduce FloatOps.maximumf v70 s0 reducesTo_S16384x1024_S16384_d1 h_S_
  let s2 : FVec Ideal S_ .f32 := constant (F := Ideal) S_ .f32 0xFF800000#32
  let s3 : FVec Ideal S16384 .f32 := broadcastInDim S16384 ![] bcast_S_S16384 s2
  let s4 : FVec Ideal S16384 .f32 := maximumf s3 s1
  let s5 : FVec Ideal S16384x1 .f32 := broadcastInDim S16384x1 ![0] bcast_S16384_S16384x1_0 s4
  let s6 : FVec Ideal S16384x1024 .f32 := broadcastInDim S16384x1024 ![0, 1] bcast_S16384x1_S16384x1024_0_1 s5
  let s7 : FVec Ideal S16384x1024 .f32 := subf v70 s6
  let s8 : FVec Ideal S16384x1024 .f32 := Host.exp s7
  let s9 : FVec Ideal S_ .f32 := constant (F := Ideal) S_ .f32 0x00000000#32
  let s10 : FVec Ideal S16384 .f32 := Host.reduceAdd s8 s9 reducesTo_S16384x1024_S16384_d1 h_S_
  let s11 : FVec Ideal S16384x1 .f32 := broadcastInDim S16384x1 ![0] bcast_S16384_S16384x1_0 s10
  let s12 : FVec Ideal S16384x1 .f32 := Host.log s11
  let s13 : FVec Ideal S16384x1024 .f32 := broadcastInDim S16384x1024 ![0, 1] bcast_S16384x1_S16384x1024_0_1 s12
  subf s7 s13

/-- The position head: the two affine layers with the leaky rectifier between them, then 1 / (1 + exp (−v)). -/
def refPos (h : FVec Ideal S16384x512 .f32) (w1 : FVec Ideal S512x512 .f32) (bp1 : FVec Ideal S512 .f32)
    (w2 : FVec Ideal S512x2 .f32) (bp2 : FVec Ideal S2 .f32) : FVec Ideal S16384x2 .f32 :=
  let v73 : FVec Ideal S16384x512 .f32 := Host.dotGeneral dot_S16384x512_S512x512_S16384x512_1_0_0_1_n_n none h w1
  let v74 : FVec Ideal S1x512 .f32 := broadcastInDim S1x512 ![1] bcast_S512_S1x512_1 bp1
  let v75 : FVec Ideal S16384x512 .f32 := broadcastInDim S16384x512 ![0, 1] bcast_S1x512_S16384x512_0_1 v74
  let v76 : FVec Ideal S16384x512 .f32 := addf v73 v75
  let cst9 : FVec Ideal S_ .f32 := constant (F := Ideal) S_ .f32 0x3C23D70A#32
  let a0 : FVec Ideal S_ .f32 := constant (F := Ideal) S_ .f32 0x00000000#32
  let a1 : FVec Ideal S16384x512 .f32 := broadcastInDim S16384x512 ![] bcast_S_S16384x512 a0
  let a2 : IVec S16384x512 1 := cmpf .oge v76 a1
  let a3 : FVec Ideal S_ .f32 := id cst9
  let a4 : FVec Ideal S16384x512 .f32 := broadcastInDim S16384x512 ![] bcast_S_S16384x512 a3
  let a5 : FVec Ideal S16384x512 .f32 := mulf a4 v76
  let v77 : FVec Ideal S16384x512 .f32 := select a2 v76 a5
  let v79 : FVec Ideal S16384x2 .f32 := Host.dotGeneral dot_S16384x512_S512x2_S16384x2_1_0_0_1_n_n none v77 w2
  let v80 : FVec Ideal S1x2 .f32 := broadcastInDim S1x2 ![1] bcast_S2_S1x2_1 bp2
  let v81 : FVec Ideal S16384x2 .f32 := broadcastInDim S16384x2 ![0, 1] bcast_S1x2_S16384x2_0_1 v80
  let v82 : FVec Ideal S16384x2 .f32 := addf v79 v81
  let v83 : FVec Ideal S16384x2 .f32 := Host.negf v82
  let v84 : FVec Ideal S16384x2 .f32 := Host.exp v83
  let cst10 : FVec Ideal S_ .f32 := constant (F := Ideal) S_ .f32 0x3F800000#32
  let v85 : FVec Ideal S16384x2 .f32 := broadcastInDim S16384x2 ![] bcast_S_S16384x2 cst10
  let v86 : FVec Ideal S16384x2 .f32 := addf v85 v84
  let cst11 : FVec Ideal S_ .f32 := constant (F := Ideal) S_ .f32 0x3F800000#32
  let v87 : FVec Ideal S16384x2 .f32 := broadcastInDim S16384x2 ![] bcast_S_S16384x2 cst11
  Host.divf v87 v86

/-! ## Each operation read at an index -/

section ReadAtIndex
variable {R K N : Nat}

/-- A matrix product at (i, c): the sum over the contracted coordinate of the products of the entries. -/
theorem dot_apply (wf : DotDims.WF (⟨2, ![R, K]⟩ : Shape) ⟨2, ![K, N]⟩ ⟨2, ![R, N]⟩ [1] [0] [0] [1] [] [])
    (x : FVec Ideal ⟨2, ![R, K]⟩ .f32) (w : FVec Ideal ⟨2, ![K, N]⟩ .f32) (i : Fin R) (c : Fin N) :
    Host.dotGeneral (⟨[1], [0], [0], [1], [], [], wf⟩ : DotDims _ _ _) none x w (ix2 i c)
      = ∑ k : Fin K, x (ix2 i k) * w (ix2 k c) :=
  StackMember.dotGeneral_plain_apply none x w i c

/-- A vector laid out as one row, read at (0, c), is its entry c. -/
theorem bias_row_apply (hb : (⟨1, ![N]⟩ : Shape).BroadcastsInDim ⟨2, ![1, N]⟩ ![1])
    (b : FVec Ideal ⟨1, ![N]⟩ .f32) (c : Fin N) :
    broadcastInDim ⟨2, ![1, N]⟩ ![1] hb b (ix2 (0 : Fin 1) c) = b (ix1 c) := by
  refine broadcastInDim_apply ![1] hb b (ix2 (0 : Fin 1) c) (ix1 c) ?_
  intro a
  match a with
  | ⟨0, _⟩ =>
    show c.val = if N = 1 then 0 else c.val
    split
    · have := c.isLt; omega
    · rfl

/-- An affine layer at (i, c): the product's sum plus the bias entry, which is the specification's affine layer on row i. -/
theorem affine_apply (wf : DotDims.WF (⟨2, ![R, K]⟩ : Shape) ⟨2, ![K, N]⟩ ⟨2, ![R, N]⟩ [1] [0] [0] [1] [] [])
    (hb1 : (⟨1, ![N]⟩ : Shape).BroadcastsInDim ⟨2, ![1, N]⟩ ![1])
    (hb2 : (⟨2, ![1, N]⟩ : Shape).BroadcastsInDim ⟨2, ![R, N]⟩ ![0, 1])
    (x : FVec Ideal ⟨2, ![R, K]⟩ .f32) (w : FVec Ideal ⟨2, ![K, N]⟩ .f32) (b : FVec Ideal ⟨1, ![N]⟩ .f32)
    (i : Fin R) (c : Fin N) :
    addf (Host.dotGeneral (⟨[1], [0], [0], [1], [], [], wf⟩ : DotDims _ _ _) none x w)
        (broadcastInDim ⟨2, ![R, N]⟩ ![0, 1] hb2 (broadcastInDim ⟨2, ![1, N]⟩ ![1] hb1 b)) (ix2 i c)
      = affine (row x i) w (rowOf b) c := by
  rw [addf_apply, dot_apply, broadcastInDim_oneRow_apply, bias_row_apply]
  rfl

/-- The leaky rectifier at an index: the select on "x ≥ 0" between x and slope · x. -/
theorem leaky_apply {T : Shape} (hb : (⟨0, ![]⟩ : Shape).BroadcastsInDim T ![]) (v : FVec Ideal T .f32) (j : T.Idx) :
    select (cmpf .oge v (broadcastInDim T ![] hb (constant (F := Ideal) ⟨0, ![]⟩ .f32 0x00000000#32))) v
        (mulf (broadcastInDim T ![] hb (id (constant (F := Ideal) ⟨0, ![]⟩ .f32 0x3C23D70A#32))) v) j
      = leaky (v j) := by
  rw [select_apply, cmpf_apply, mulf_apply, broadcastInDim_scalar_apply, broadcastInDim_scalar_apply]
  show Scalar.select (Ideal.cmp .oge (v j) (Ideal.ofBits .f32 0x00000000#32)) (v j) (Ideal.ofBits .f32 0x3C23D70A#32 * v j) = _
  rw [Ideal.ofBits_zero_f32]
  rfl

/-- A column vector of R entries, read at (i, 0), is entry i. -/
theorem col_apply {α : Type} (hb : (⟨1, ![R]⟩ : Shape).BroadcastsInDim ⟨2, ![R, 1]⟩ ![0])
    (y : (⟨1, ![R]⟩ : Shape).Idx → α) (i : Fin R) :
    broadcastInDim ⟨2, ![R, 1]⟩ ![0] hb y (ix2 i (0 : Fin 1)) = y (ix1 i) := by
  refine broadcastInDim_apply ![0] hb y (ix2 i (0 : Fin 1)) (ix1 i) ?_
  intro a
  match a with
  | ⟨0, _⟩ =>
    show i.val = if R = 1 then 0 else i.val
    split
    · have := i.isLt; omega
    · rfl

/-- A column broadcast along N columns, read at (i, v), is the column at (i, 0). -/
theorem cols_apply {α : Type} (hb : (⟨2, ![R, 1]⟩ : Shape).BroadcastsInDim ⟨2, ![R, N]⟩ ![0, 1])
    (z : (⟨2, ![R, 1]⟩ : Shape).Idx → α) (i : Fin R) (v : Fin N) :
    broadcastInDim ⟨2, ![R, N]⟩ ![0, 1] hb z (ix2 i v) = z (ix2 i (0 : Fin 1)) := by
  refine broadcastInDim_apply ![0, 1] hb z (ix2 i v) (ix2 i (0 : Fin 1)) ?_
  intro a
  match a with
  | ⟨0, _⟩ =>
    show i.val = if R = 1 then 0 else i.val
    split
    · have := i.isLt; omega
    · rfl
  | ⟨1, _⟩ =>
    show (0 : ℕ) = if (1 : ℕ) = 1 then 0 else v.val
    simp

/-- The reduced index i with column k put back is (i, k). -/
theorem lift_row (h : (⟨2, ![R, N]⟩ : Shape).Reduces [1] (⟨1, ![R]⟩ : Shape)) (i : Fin R)
    (k : Fin ((⟨2, ![R, N]⟩ : Shape).size 1)) : h.lift (ix1 i) k = ix2 i (⟨k.val, k.isLt⟩ : Fin N) := by
  funext c; apply Fin.ext
  fin_cases c <;> rfl

/-- The f32 pattern of −∞ is the bottom of the extended reals. -/
theorem ofBits_neg_inf_f32 : Ideal.ofBits .f32 0xFF800000#32 = ⊥ := by simp [Ideal.ofBits, Ideal.ieee]

/-- From −∞ the maximum over each row, at row i, is the fold of max from ⊥ over that row. -/
theorem rowMax_apply (x : FVec Ideal ⟨2, ![R, N]⟩ .f32) (h' : (⟨2, ![R, N]⟩ : Shape).ReducesTo [1] (⟨1, ![R]⟩ : Shape))
    (h : (⟨2, ![R, N]⟩ : Shape).Reduces [1] (⟨1, ![R]⟩ : Shape)) (hu : 0 < (⟨0, ![]⟩ : Shape).numel) (i : Fin R) :
    Host.reduce FloatOps.maximumf x (constant (F := Ideal) ⟨0, ![]⟩ .f32 0xFF800000#32) h' hu (ix1 i)
      = (Finset.univ : Finset (Fin N)).fold max ⊥ fun c => x (ix2 i c) := by
  rw [Host.reduce_eq_fold_single FloatOps.maximumf x _ h' h hu]
  have hf : (x ∘ h.lift (ix1 i)) = fun k => x (ix2 i (⟨k.val, k.isLt⟩ : Fin N)) :=
    funext fun k => congrArg x (lift_row h i k)
  rw [hf]
  show Finset.fold max (Ideal.ofBits .f32 0xFF800000#32) _ _ = _
  rw [ofBits_neg_inf_f32]
  rfl

/-- From zero the sum over each row, at row i, is the sum of that row. -/
theorem rowSum_apply (x : FVec Ideal ⟨2, ![R, N]⟩ .f32) (h' : (⟨2, ![R, N]⟩ : Shape).ReducesTo [1] (⟨1, ![R]⟩ : Shape))
    (h : (⟨2, ![R, N]⟩ : Shape).Reduces [1] (⟨1, ![R]⟩ : Shape)) (hu : 0 < (⟨0, ![]⟩ : Shape).numel) (i : Fin R) :
    Host.reduceAdd x (constant (F := Ideal) ⟨0, ![]⟩ .f32 0x00000000#32) h' hu (ix1 i)
      = ∑ c : Fin N, x (ix2 i c) := by
  rw [hostReduceAdd_apply, Ideal.hostReduceAdd_single h' h, constant_apply, Ideal.ofBits_zero_f32, zero_add]
  exact Finset.sum_congr rfl fun k _ => congrArg x (lift_row h i k)

/-- The host's exponential at an index is the exponential of the element … -/
theorem hostExp_apply {T : Shape} (x : FVec Ideal T .f32) (j : T.Idx) : Host.exp x j = Ideal.exp (x j) := rfl
/-- … its logarithm the logarithm … -/
theorem hostLog_apply {T : Shape} (x : FVec Ideal T .f32) (j : T.Idx) : Host.log x j = Ideal.log (x j) := rfl
/-- … and its negation the negation. -/
theorem hostNegf_apply {T : Shape} (x : FVec Ideal T .f32) (j : T.Idx) : Host.negf x j = -(x j) := rfl

end ReadAtIndex

/-! ## The stages of the two heads -/

/-- The hidden layer of a head on all rows: an affine layer then the leaky rectifier. -/
def hiddenK (h : FVec Ideal S16384x512 .f32) (w1 : FVec Ideal S512x512 .f32) (b1 : FVec Ideal S512 .f32) :
    FVec Ideal S16384x512 .f32 :=
  let u : FVec Ideal S16384x512 .f32 :=
    addf (Host.dotGeneral dot_S16384x512_S512x512_S16384x512_1_0_0_1_n_n none h w1)
      (broadcastInDim S16384x512 ![0, 1] bcast_S1x512_S16384x512_0_1 (broadcastInDim S1x512 ![1] bcast_S512_S1x512_1 b1))
  select (cmpf .oge u (broadcastInDim S16384x512 ![] bcast_S_S16384x512 (constant (F := Ideal) S_ .f32 0x00000000#32))) u
    (mulf (broadcastInDim S16384x512 ![] bcast_S_S16384x512 (id (constant (F := Ideal) S_ .f32 0x3C23D70A#32))) u)

/-- The hidden layer at (i, c) is the specification's hidden layer on row i. -/
theorem hiddenK_apply (h : FVec Ideal S16384x512 .f32) (w1 : FVec Ideal S512x512 .f32) (b1 : FVec Ideal S512 .f32)
    (i : Fin 16384) (c : Fin 512) :
    hiddenK h w1 b1 (ix2 i c) = hiddenRow (row h i) w1 (rowOf b1) c := by
  unfold hiddenK
  simp only []
  rw [leaky_apply]
  unfold hiddenRow
  exact congrArg leaky
    (affine_apply dot_S16384x512_S512x512_S16384x512_1_0_0_1_n_n_wf bcast_S512_S1x512_1 bcast_S1x512_S16384x512_0_1 h w1 b1 i c)

/-- Row i of the hidden layer is the specification's hidden layer of row i. -/
theorem row_hiddenK (h : FVec Ideal S16384x512 .f32) (w1 : FVec Ideal S512x512 .f32) (b1 : FVec Ideal S512 .f32)
    (i : Fin 16384) : row (hiddenK h w1 b1) i = hiddenRow (row h i) w1 (rowOf b1) :=
  funext fun c => hiddenK_apply h w1 b1 i c

/-- The label head's logits on all rows. -/
def logitsK (h : FVec Ideal S16384x512 .f32) (w1 : FVec Ideal S512x512 .f32) (b1 : FVec Ideal S512 .f32)
    (w2 : FVec Ideal S512x1024 .f32) (b2 : FVec Ideal S1024 .f32) : FVec Ideal S16384x1024 .f32 :=
  addf (Host.dotGeneral dot_S16384x512_S512x1024_S16384x1024_1_0_0_1_n_n none (hiddenK h w1 b1) w2)
    (broadcastInDim S16384x1024 ![0, 1] bcast_S1x1024_S16384x1024_0_1 (broadcastInDim S1x1024 ![1] bcast_S1024_S1x1024_1 b2))

/-- The logits at (i, c) are the specification's logits on row i. -/
theorem logitsK_apply (h : FVec Ideal S16384x512 .f32) (w1 : FVec Ideal S512x512 .f32) (b1 : FVec Ideal S512 .f32)
    (w2 : FVec Ideal S512x1024 .f32) (b2 : FVec Ideal S1024 .f32) (i : Fin 16384) (c : Fin 1024) :
    logitsK h w1 b1 w2 b2 (ix2 i c) = logitsRow (row h i) w1 (rowOf b1) w2 (rowOf b2) c := by
  unfold logitsK logitsRow
  rw [← row_hiddenK]
  exact affine_apply dot_S16384x512_S512x1024_S16384x1024_1_0_0_1_n_n_wf bcast_S1024_S1x1024_1 bcast_S1x1024_S16384x1024_0_1
    (hiddenK h w1 b1) w2 b2 i c

/-- The log-softmax along each row, as the program spells it: the row maximum (joined with −∞) is subtracted, and the
    logarithm of the row's sum of exponentials of the differences is subtracted from the differences. -/
def logSoftmaxK (x : FVec Ideal S16384x1024 .f32) : FVec Ideal S16384x1024 .f32 :=
  let s1 : FVec Ideal S16384 .f32 :=
    Host.reduce FloatOps.maximumf x (constant (F := Ideal) S_ .f32 0xFF800000#32) reducesTo_S16384x1024_S16384_d1 h_S_
  let s4 : FVec Ideal S16384 .f32 :=
    maximumf (broadcastInDim S16384 ![] bcast_S_S16384 (constant (F := Ideal) S_ .f32 0xFF800000#32)) s1
  let s7 : FVec Ideal S16384x1024 .f32 :=
    subf x (broadcastInDim S16384x1024 ![0, 1] bcast_S16384x1_S16384x1024_0_1
      (broadcastInDim S16384x1 ![0] bcast_S16384_S16384x1_0 s4))
  let s10 : FVec Ideal S16384 .f32 :=
    Host.reduceAdd (Host.exp s7) (constant (F := Ideal) S_ .f32 0x00000000#32) reducesTo_S16384x1024_S16384_d1 h_S_
  subf s7 (broadcastInDim S16384x1024 ![0, 1] bcast_S16384x1_S16384x1024_0_1
    (Host.log (broadcastInDim S16384x1 ![0] bcast_S16384_S16384x1_0 s10)))

/-- The log-softmax at (i, v): with M the maximum of row i, (x[i,v] − M) − log ∑_c exp (x[i,c] − M). -/
theorem logSoftmaxK_apply (x : FVec Ideal S16384x1024 .f32) (i : Fin 16384) (v : Fin 1024) :
    logSoftmaxK x (ix2 i v)
      = (x (ix2 i v) - (Finset.univ : Finset (Fin 1024)).fold max ⊥ fun c => x (ix2 i c))
        - Ideal.log (∑ c : Fin 1024, Ideal.exp (x (ix2 i c) - (Finset.univ : Finset (Fin 1024)).fold max ⊥ fun c => x (ix2 i c))) := by
  have hr : S16384x1024.Reduces [1] S16384 := by decide
  have hM : ∀ c : Fin 1024,
      subf x (broadcastInDim S16384x1024 ![0, 1] bcast_S16384x1_S16384x1024_0_1
        (broadcastInDim S16384x1 ![0] bcast_S16384_S16384x1_0
          (maximumf (broadcastInDim S16384 ![] bcast_S_S16384 (constant (F := Ideal) S_ .f32 0xFF800000#32))
            (Host.reduce FloatOps.maximumf x (constant (F := Ideal) S_ .f32 0xFF800000#32) reducesTo_S16384x1024_S16384_d1 h_S_))))
        (ix2 i c)
      = x (ix2 i c) - (Finset.univ : Finset (Fin 1024)).fold max ⊥ fun c => x (ix2 i c) := by
    intro c
    rw [subf_apply, cols_apply, col_apply, maximumf_apply, broadcastInDim_scalar_apply, constant_apply, ofBits_neg_inf_f32,
      rowMax_apply x reducesTo_S16384x1024_S16384_d1 hr h_S_ i, bot_sup_eq]
  unfold logSoftmaxK
  simp only []
  rw [subf_apply, hM v, cols_apply]
  rw [hostLog_apply, col_apply, rowSum_apply _ reducesTo_S16384x1024_S16384_d1 hr h_S_ i]
  refine congrArg (fun s => _ - Ideal.log s) (Finset.sum_congr rfl fun c _ => ?_)
  rw [hostExp_apply, hM c]

/-- The position head's pre-activations on all rows. -/
def posLogitsK (h : FVec Ideal S16384x512 .f32) (w1 : FVec Ideal S512x512 .f32) (b1 : FVec Ideal S512 .f32)
    (w2 : FVec Ideal S512x2 .f32) (b2 : FVec Ideal S2 .f32) : FVec Ideal S16384x2 .f32 :=
  addf (Host.dotGeneral dot_S16384x512_S512x2_S16384x2_1_0_0_1_n_n none (hiddenK h w1 b1) w2)
    (broadcastInDim S16384x2 ![0, 1] bcast_S1x2_S16384x2_0_1 (broadcastInDim S1x2 ![1] bcast_S2_S1x2_1 b2))

/-- The pre-activations at (i, c) are the specification's second affine layer on row i's hidden layer. -/
theorem posLogitsK_apply (h : FVec Ideal S16384x512 .f32) (w1 : FVec Ideal S512x512 .f32) (b1 : FVec Ideal S512 .f32)
    (w2 : FVec Ideal S512x2 .f32) (b2 : FVec Ideal S2 .f32) (i : Fin 16384) (c : Fin 2) :
    posLogitsK h w1 b1 w2 b2 (ix2 i c) = affine (hiddenRow (row h i) w1 (rowOf b1)) w2 (rowOf b2) c := by
  unfold posLogitsK
  rw [← row_hiddenK]
  exact affine_apply dot_S16384x512_S512x2_S16384x2_1_0_0_1_n_n_wf bcast_S2_S1x2_1 bcast_S1x2_S16384x2_0_1
    (hiddenK h w1 b1) w2 b2 i c

/-- The logistic function as the program spells it: 1 / (1 + exp (−x)). -/
def logisticK (x : FVec Ideal S16384x2 .f32) : FVec Ideal S16384x2 .f32 :=
  Host.divf (broadcastInDim S16384x2 ![] bcast_S_S16384x2 (constant (F := Ideal) S_ .f32 0x3F800000#32))
    (addf (broadcastInDim S16384x2 ![] bcast_S_S16384x2 (constant (F := Ideal) S_ .f32 0x3F800000#32))
      (Host.exp (Host.negf x)))

/-- At an index it is the logistic function of the element. -/
theorem logisticK_apply (x : FVec Ideal S16384x2 .f32) (j : S16384x2.Idx) : logisticK x j = Ideal.logistic (x j) := by
  unfold logisticK
  rw [hostDivf_apply, addf_apply, broadcastInDim_scalar_apply, constant_apply, Ideal.ofBits_one_f32, hostExp_apply,
    hostNegf_apply]
  rfl

/-! ## The two heads are the row-wise specification -/

theorem refType_eq (h : FVec Ideal S16384x512 .f32) (w1 : FVec Ideal S512x512 .f32) (bl1 : FVec Ideal S512 .f32)
    (w2 : FVec Ideal S512x1024 .f32) (bl2 : FVec Ideal S1024 .f32) :
    refType h w1 bl1 w2 bl2 = Cert.Spec.typeK (R := 16384) h w1 (Cert.Spec.rowOf bl1) w2 (Cert.Spec.rowOf bl2) := by
  have e : refType h w1 bl1 w2 bl2 = logSoftmaxK (logitsK h w1 bl1 w2 bl2) := rfl
  rw [e]
  funext idx
  obtain ⟨i, v, rfl⟩ : ∃ (i : Fin 16384) (v : Fin 1024), idx = ix2 i v := ⟨idx 0, idx 1, eq_ix2 idx⟩
  rw [logSoftmaxK_apply]
  simp only [logitsK_apply]
  rfl

theorem refPos_eq (h : FVec Ideal S16384x512 .f32) (w1 : FVec Ideal S512x512 .f32) (bp1 : FVec Ideal S512 .f32)
    (w2 : FVec Ideal S512x2 .f32) (bp2 : FVec Ideal S2 .f32) :
    refPos h w1 bp1 w2 bp2 = Cert.Spec.posK (R := 16384) h w1 (Cert.Spec.rowOf bp1) w2 (Cert.Spec.rowOf bp2) := by
  have e : refPos h w1 bp1 w2 bp2 = logisticK (posLogitsK h w1 bp1 w2 bp2) := rfl
  rw [e]
  funext idx
  obtain ⟨i, v, rfl⟩ : ∃ (i : Fin 16384) (v : Fin 2), idx = ix2 i v := ⟨idx 0, idx 1, eq_ix2 idx⟩
  rw [logisticK_apply, posLogitsK_apply]
  rfl

end Cert.Bridge.RefMlp

end
-- ==== Proof.RefValue.lean ====
/-
  The reference program's run, read: what its three results hold as pure terms of the twenty-one arguments.

  The reference is one straight line of operations, cut in four consecutive stretches: the input row and the
  previous state (A), the recurrent cell (B), the label head (C), the position head and the state under a leading
  unit axis (D). Each stretch's last value is a function of the values the stretch reads; a stretch leaves every
  value it does not define as it was; composing the four gives the three results as functions of the arguments.
-/
import proofs.«406328_j56736517980496_1_alg».proof.Proof.RefRun
import proofs.«406328_j56736517980496_1_alg».proof.Proof.RefGru
import proofs.«406328_j56736517980496_1_alg».proof.Proof.RefMlp
import proofs.«406328_j56736517980496_1_alg».proof.Proof.HostTerms
import Idealize.ShloMosaic.Lib.StableHlo.Run

noncomputable section

namespace Cert.Bridge.RefValue

open Cert.ReferenceIdeal Idealize.ShloMosaic Idealize.ShloMosaic.StableHlo Idealize.SL.Sem
open Cert.ReferenceIdeal.Facts₀ Cert.ReferenceIdeal.Facts
open Cert.ReferenceIdeal.Hand
open Cert.Bridge.RefGru Cert.Bridge.RefMlp

variable [Cert.ReferenceIdeal.Facts]

/-! ## A value's buffer read at the value's own type

A called function names each of its values by a buffer together with the value's type, and moves contents between
the two types along their equality; where the buffer's type is that type itself, the move is the identity. -/

/-- Contents written to a typed buffer and read back are the contents. -/
theorem ofBuf_toBuf {T : BufTy} {Val : EltTy → Type} (x : TRef sig T) (v : T.Contents Val) :
    x.ofBuf (x.toBuf v) = v := by
  obtain ⟨r, h, h2, h3⟩ := x
  subst h
  rfl

/-- Reading a buffer at its own type is the identity. -/
theorem ofBuf_self {Val : EltTy → Type} (r : Ref sig .tc) (h1 : r.ty = r.ty) (h2 h3) (v : r.ty.Contents Val) :
    (TRef.of (T := r.ty) r h1 h2 h3).ofBuf v = v := rfl

/-- Writing a buffer at its own type is the identity. -/
theorem toBuf_self {Val : EltTy → Type} (r : Ref sig .tc) (h1 : r.ty = r.ty) (h2 h3) (v : r.ty.Contents Val) :
    (TRef.of (T := r.ty) r h1 h2 h3).toBuf v = v := rfl

/-! ## The input row -/

/-- A line run from contents `V`: its first `n` operations, then the rest from what they leave. -/
theorem after_take_drop {Val : EltTy → Type} (n : Nat) (l : List (HloOp τ sig Val)) (V : Valuation τ sig Val) :
    StableHlo.after l V = StableHlo.after (l.drop n) (StableHlo.after (l.take n) V) := by
  rw [← after_app, List.take_append_drop]

set_option maxRecDepth 8192 in
/-- Before the concatenation the value %6 is the label embedding's rows at the wrapped labels. -/
theorem pre_emb (M : Valuation τ sig (Elt Ideal)) :
    StableHlo.after (opsA.take 45) M (Proc.devRef .tc main_v6)
      = rEmb (M (Proc.devRef .tc main_arg3)) (M (Proc.devRef .tc main_arg19)) := by
  simp only [opsA, List.take_succ_cons, List.take_zero]
  after_results_simp
  rfl

set_option maxRecDepth 8192 in
/-- Before the concatenation the value %14 is the position embedding's rows at the wrapped remainders of the
    positions by 8192. -/
theorem pre_pos (M : Valuation τ sig (Elt Ideal)) :
    StableHlo.after (opsA.take 45) M (Proc.devRef .tc main_v14)
      = rPos (M (Proc.devRef .tc main_arg4)) (rRem (M (Proc.devRef .tc main_arg20))) := by
  simp only [opsA, List.take_succ_cons, List.take_zero]
  after_results_simp
  simp only [ofBuf_toBuf]
  repeat (first | rw [ofBuf_self] | rw [toBuf_self])
  rfl

set_option maxRecDepth 8192 in
/-- Before the concatenation the value %19 is the affine image of the hand-over positions. -/
theorem pre_ho (M : Valuation τ sig (Elt Ideal)) :
    StableHlo.after (opsA.take 45) M (Proc.devRef .tc main_v19)
      = rHo (M (Proc.devRef .tc main_arg1)) (M (Proc.devRef .tc main_arg5)) (M (Proc.devRef .tc main_arg6)) := by
  simp only [opsA, List.take_succ_cons, List.take_zero]
  after_results_simp
  rfl

/-- Before the concatenation the conditioning data are the launch's. -/
theorem pre_cond (M : Valuation τ sig (Elt Ideal)) :
    StableHlo.after (opsA.take 45) M (Proc.devRef .tc main_arg0) = M (Proc.devRef .tc main_arg0) :=
  StableHlo.after_of_writes_sub (W := WA) _ M
    (List.forall_iff_forall_mem.2 fun op hop =>
      List.forall_iff_forall_mem.1 opsA_writes op (List.mem_of_mem_take hop)) (by decide)

set_option maxRecDepth 8192 in
/-- After the first stretch the value %20 is the input row: the two gathered embeddings, the affine image of the
    hand-over positions and the conditioning data side by side. -/
theorem chunkA_x (M : Valuation τ sig (Elt Ideal)) :
    StableHlo.after opsA M (Proc.devRef .tc main_v20)
      = rX (M (Proc.devRef .tc main_arg0)) (M (Proc.devRef .tc main_arg1)) (M (Proc.devRef .tc main_arg3))
          (M (Proc.devRef .tc main_arg4)) (M (Proc.devRef .tc main_arg5)) (M (Proc.devRef .tc main_arg6))
          (M (Proc.devRef .tc main_arg19)) (M (Proc.devRef .tc main_arg20)) := by
  rw [after_take_drop 45 opsA M]
  show StableHlo.after [_, _] _ _ = _
  simp only [after_cons, after_nil]
  rw [reshape_result_ne]; rotate_left; decide
  rw [nary4_result, pre_emb, pre_pos, pre_ho, pre_cond]
  rfl

set_option maxRecDepth 8192 in
/-- After the first stretch the value %21 is the previous state without its leading unit axis. -/
theorem chunkA_h0 (M : Valuation τ sig (Elt Ideal)) :
    StableHlo.after opsA M (Proc.devRef .tc main_v21)
      = shapeCast S16384x512 (M (Proc.devRef .tc main_arg2)) shapeCasts_S1x16384x512_S16384x512 := by
  after_results_simp
  rfl

/-! ## The recurrent cell -/

set_option maxRecDepth 8192 in
/-- After the second stretch the value %59 is the recurrent cell of the input row %20, the previous state %21,
    the two transposed weight matrices and the two bias vectors. -/
theorem chunkB (W : Valuation τ sig (Elt Ideal)) :
    StableHlo.after opsB W (Proc.devRef .tc main_v59)
      = refGru (W (Proc.devRef .tc main_v20)) (W (Proc.devRef .tc main_v21))
          (transpose S1282x1536 [1, 0] (W (Proc.devRef .tc main_arg7)) transposes_S1536x1282_S1282x1536_1_0)
          (transpose S512x1536 [1, 0] (W (Proc.devRef .tc main_arg8)) transposes_S1536x512_S512x1536_1_0)
          (W (Proc.devRef .tc main_arg9)) (W (Proc.devRef .tc main_arg10)) := by
  after_results_simp
  rfl

/-! ## The two heads and the state -/

set_option maxRecDepth 8192 in
/-- After the third stretch the value %71 is the label head of the state %59, the two transposed weight matrices
    and the two bias vectors. -/
theorem chunkC (W : Valuation τ sig (Elt Ideal)) :
    StableHlo.after opsC W (Proc.devRef .tc main_v71)
      = refType (W (Proc.devRef .tc main_v59))
          (transpose S512x512 [1, 0] (W (Proc.devRef .tc main_arg11)) transposes_S512x512_S512x512_1_0)
          (W (Proc.devRef .tc main_arg12))
          (transpose S512x1024 [1, 0] (W (Proc.devRef .tc main_arg13)) transposes_S1024x512_S512x1024_1_0)
          (W (Proc.devRef .tc main_arg14)) := by
  after_results_simp
  simp only [ofBuf_toBuf]
  repeat (first | rw [ofBuf_self] | rw [toBuf_self])
  rfl

set_option maxRecDepth 8192 in
/-- After the fourth stretch the value %88 is the position head of the state %59, the two transposed weight
    matrices and the two bias vectors. -/
theorem chunkD_pos (W : Valuation τ sig (Elt Ideal)) :
    StableHlo.after opsD W (Proc.devRef .tc main_v88)
      = refPos (W (Proc.devRef .tc main_v59))
          (transpose S512x512 [1, 0] (W (Proc.devRef .tc main_arg15)) transposes_S512x512_S512x512_1_0)
          (W (Proc.devRef .tc main_arg16))
          (transpose S512x2 [1, 0] (W (Proc.devRef .tc main_arg17)) transposes_S2x512_S512x2_1_0)
          (W (Proc.devRef .tc main_arg18)) := by
  after_results_simp
  simp only [ofBuf_toBuf]
  repeat (first | rw [ofBuf_self] | rw [toBuf_self])
  rfl

set_option maxRecDepth 8192 in
/-- After the fourth stretch the value %89 is the state %59 under a leading unit axis. -/
theorem chunkD_state (W : Valuation τ sig (Elt Ideal)) :
    StableHlo.after opsD W (Proc.devRef .tc main_v89)
      = broadcastInDim S1x16384x512 ![1, 2] bcast_S16384x512_S1x16384x512_1_2 (W (Proc.devRef .tc main_v59)) := by
  after_results_simp

/-! ## What a stretch does not define it leaves as it was -/

/-- The first stretch leaves every value outside the ones it defines. -/
theorem chunkA_keep (W : Valuation τ sig (Elt Ideal)) (b : Ref sig .tc) (hb : b ∉ WA) :
    StableHlo.after opsA W (Proc.devRef .tc b) = W (Proc.devRef .tc b) :=
  StableHlo.after_of_writes_sub opsA W opsA_writes hb

/-- The second stretch leaves every value outside the ones it defines. -/
theorem chunkB_keep (W : Valuation τ sig (Elt Ideal)) (b : Ref sig .tc) (hb : b ∉ WB) :
    StableHlo.after opsB W (Proc.devRef .tc b) = W (Proc.devRef .tc b) :=
  StableHlo.after_of_writes_sub opsB W opsB_writes hb

/-- The third stretch leaves every value outside the ones it defines. -/
theorem chunkC_keep (W : Valuation τ sig (Elt Ideal)) (b : Ref sig .tc) (hb : b ∉ WC) :
    StableHlo.after opsC W (Proc.devRef .tc b) = W (Proc.devRef .tc b) :=
  StableHlo.after_of_writes_sub opsC W opsC_writes hb

/-- The fourth stretch leaves every value outside the ones it defines. -/
theorem chunkD_keep (W : Valuation τ sig (Elt Ideal)) (b : Ref sig .tc) (hb : b ∉ WD) :
    StableHlo.after opsD W (Proc.devRef .tc b) = W (Proc.devRef .tc b) :=
  StableHlo.after_of_writes_sub opsD W opsD_writes hb

/-! ## The three results as functions of the arguments -/

/-- An argument, or any value the first two stretches do not define, is at the launch's contents after them. -/
theorem keepAB (M : Valuation τ sig (Elt Ideal)) (b : Ref sig .tc) (hA : b ∉ WA) (hB : b ∉ WB) :
    StableHlo.after opsB (StableHlo.after opsA M) (Proc.devRef .tc b) = M (Proc.devRef .tc b) := by
  rw [chunkB_keep _ b hB, chunkA_keep _ b hA]

/-- An argument, or any value the first three stretches do not define, is at the launch's contents after them. -/
theorem keepABC (M : Valuation τ sig (Elt Ideal)) (b : Ref sig .tc) (hA : b ∉ WA) (hB : b ∉ WB) (hC : b ∉ WC) :
    StableHlo.after opsC (StableHlo.after opsB (StableHlo.after opsA M)) (Proc.devRef .tc b) = M (Proc.devRef .tc b) := by
  rw [chunkC_keep _ b hC, keepAB M b hA hB]

/-- The new hidden state of all rows, as a function of the launch's contents `M`: the recurrent cell of the input
    row, the previous state without its leading unit axis, the two transposed weight matrices and the two bias
    vectors. -/
abbrev refHidden (M : Valuation τ sig (Elt Ideal)) : FVec Ideal S16384x512 .f32 :=
  refGru
    (rX (M (Proc.devRef .tc main_arg0)) (M (Proc.devRef .tc main_arg1)) (M (Proc.devRef .tc main_arg3))
      (M (Proc.devRef .tc main_arg4)) (M (Proc.devRef .tc main_arg5)) (M (Proc.devRef .tc main_arg6))
      (M (Proc.devRef .tc main_arg19)) (M (Proc.devRef .tc main_arg20)))
    (shapeCast S16384x512 (M (Proc.devRef .tc main_arg2)) shapeCasts_S1x16384x512_S16384x512)
    (transpose S1282x1536 [1, 0] (M (Proc.devRef .tc main_arg7)) transposes_S1536x1282_S1282x1536_1_0)
    (transpose S512x1536 [1, 0] (M (Proc.devRef .tc main_arg8)) transposes_S1536x512_S512x1536_1_0)
    (M (Proc.devRef .tc main_arg9)) (M (Proc.devRef .tc main_arg10))

/-- After the first two stretches the value %59 is that hidden state. -/
theorem hidden_AB (M : Valuation τ sig (Elt Ideal)) :
    StableHlo.after opsB (StableHlo.after opsA M) (Proc.devRef .tc main_v59) = refHidden M := by
  rw [chunkB, chunkA_x, chunkA_h0, chunkA_keep M main_arg7 (by decide), chunkA_keep M main_arg8 (by decide),
    chunkA_keep M main_arg9 (by decide), chunkA_keep M main_arg10 (by decide)]

/-- The whole line's first result: the label head of the hidden state. -/
theorem ref_type (M : Valuation τ sig (Elt Ideal)) :
    StableHlo.after ops M (Proc.devRef .tc main_v71)
      = refType (refHidden M)
          (transpose S512x512 [1, 0] (M (Proc.devRef .tc main_arg11)) transposes_S512x512_S512x512_1_0)
          (M (Proc.devRef .tc main_arg12))
          (transpose S512x1024 [1, 0] (M (Proc.devRef .tc main_arg13)) transposes_S1024x512_S512x1024_1_0)
          (M (Proc.devRef .tc main_arg14)) := by
  rw [after_chunks, chunkD_keep _ main_v71 (by decide), chunkC, hidden_AB,
    keepAB M main_arg11 (by decide) (by decide), keepAB M main_arg12 (by decide) (by decide),
    keepAB M main_arg13 (by decide) (by decide), keepAB M main_arg14 (by decide) (by decide)]

/-- The whole line's second result: the position head of the hidden state. -/
theorem ref_pos (M : Valuation τ sig (Elt Ideal)) :
    StableHlo.after ops M (Proc.devRef .tc main_v88)
      = refPos (refHidden M)
          (transpose S512x512 [1, 0] (M (Proc.devRef .tc main_arg15)) transposes_S512x512_S512x512_1_0)
          (M (Proc.devRef .tc main_arg16))
          (transpose S512x2 [1, 0] (M (Proc.devRef .tc main_arg17)) transposes_S2x512_S512x2_1_0)
          (M (Proc.devRef .tc main_arg18)) := by
  rw [after_chunks, chunkD_pos, chunkC_keep _ main_v59 (by decide), hidden_AB,
    keepABC M main_arg15 (by decide) (by decide) (by decide), keepABC M main_arg16 (by decide) (by decide) (by decide),
    keepABC M main_arg17 (by decide) (by decide) (by decide), keepABC M main_arg18 (by decide) (by decide) (by decide)]

/-- The whole line's third result: the hidden state under a leading unit axis. -/
theorem ref_state (M : Valuation τ sig (Elt Ideal)) :
    StableHlo.after ops M (Proc.devRef .tc main_v89)
      = broadcastInDim S1x16384x512 ![1, 2] bcast_S16384x512_S1x16384x512_1_2 (refHidden M) := by
  rw [after_chunks, chunkD_state, chunkC_keep _ main_v59 (by decide), hidden_AB]

end Cert.Bridge.RefValue

end
-- ==== Proof.Assemble.lean ====
/-
  The five claims, assembled.

  Frames. Each kernel program is run segment by segment (five stretches of host operations, the recurrent-cell
  region over 32 blocks of 512 rows, a stretch, the two-heads region over 16 blocks of 1024 rows, a last stretch), with
  every buffer's contents named at each boundary; no stretch writes an argument and no region changes one. The
  reference is a straight line of host operations.

  Values. At the ideal instance the kernel's hidden state after the first region is the GRU cell applied to every row
  of the concatenated input (block t of the output is the cell on block t of the rows), and the two results of the
  second region are the two heads applied to every row of that state. The reference computes the same three row-wise
  functions on all rows at once. The concatenated inputs agree because, for labels in [-1024, 1023], the kernel's
  range test on the wrapped label holds at every row, so its gather is the reference's; the position index is reduced
  modulo 8192 by both programs, so its range test always holds.
-/
import proofs.«406328_j56736517980496_1_alg».proof.Defs
import proofs.«406328_j56736517980496_1_alg».proof.Proof.Gen.Pre_finite_inputs
import proofs.«406328_j56736517980496_1_alg».proof.Proof.KRun
import proofs.«406328_j56736517980496_1_alg».proof.Proof.BitsKRun
import proofs.«406328_j56736517980496_1_alg».proof.Proof.GruCover
import proofs.«406328_j56736517980496_1_alg».proof.Proof.MlpCover
import proofs.«406328_j56736517980496_1_alg».proof.Proof.KHost
import proofs.«406328_j56736517980496_1_alg».proof.Proof.HostTerms
import proofs.«406328_j56736517980496_1_alg».proof.Proof.Masks
import proofs.«406328_j56736517980496_1_alg».proof.Proof.PreRange
import proofs.«406328_j56736517980496_1_alg».proof.Proof.RefRun
import proofs.«406328_j56736517980496_1_alg».proof.Proof.RefValue
import proofs.«406328_j56736517980496_1_alg».proof.Proof.RefGru
import proofs.«406328_j56736517980496_1_alg».proof.Proof.RefMlp

noncomputable section

namespace Cert.Proof.Parts

open Idealize.ShloMosaic Idealize.ShloMosaic.TcCoe Idealize.SL.Sem Idealize.ShloMosaic.StableHlo

/-! ## The three frames -/

theorem frame_K : Cert.frame_Kernel := fun m ρ _ => Cert.Kernel.Hand.frame m ρ
theorem frame_KI : Cert.frame_KernelIdeal := fun m ρ _ => Cert.KernelIdeal.Hand.frame m ρ
theorem frame_RI : Cert.frame_ReferenceIdeal := fun m ρ _ => Cert.ReferenceIdeal.Hand.frame m ρ

/-! ### The kernel program's three results, read off its end contents -/

section KernelSide

open Cert.KernelIdeal Cert.KernelIdeal.Gen Cert.KernelIdeal.Hand Cert.Spec

variable (m : (ℓ : Loc nD τ sig) → Buf (Elt Ideal) ℓ) (c : Dev nD)

/-- The hidden state the first region leaves is the GRU cell on every row of the arrays it was entered with. -/
theorem k_state_raw : U6 m c (Proc.devRef .tc main_v14)
    = Spec.gruK (R := 16384) (U5 m c (Proc.devRef .tc main_v8)) (U5 m c (Proc.devRef .tc main_v9)) (U5 m c (Proc.devRef .tc main_v10))
        (U5 m c (Proc.devRef .tc main_v11)) (U5 m c (Proc.devRef .tc main_v12)) (U5 m c (Proc.devRef .tc main_v13)) :=
  (U6_out m c).trans (Cert.Bridge.GruCover.gru_arr (T5 m) c)

/-- The state is still there when the second region is entered, and at the end. -/
theorem k_state_at7 : U7 m c (Proc.devRef .tc main_v14) = U6 m c (Proc.devRef .tc main_v14) :=
  StableHlo.after_of_writes_sub hostOps1 _ hostOps1_writes (by decide)

/-- The label head's result at the end is the head on every row of the arrays the second region was entered with. -/
theorem k_type_raw : U9 m c (Proc.devRef .tc main_v23_0)
    = Spec.typeK (R := 16384) (U7 m c (Proc.devRef .tc main_v14)) (U7 m c (Proc.devRef .tc main_v15)) (U7 m c (Proc.devRef .tc main_v19))
        (U7 m c (Proc.devRef .tc main_v16)) (U7 m c (Proc.devRef .tc main_v20)) :=
  (StableHlo.after_of_writes_sub hostOps2 _ hostOps2_writes (by decide)).trans
    ((U8_out0 m c).trans (Cert.Bridge.MlpCover.type_arr (T7 m) c))

/-- The position head's likewise. -/
theorem k_pos_raw : U9 m c (Proc.devRef .tc main_v23_1)
    = Spec.posK (R := 16384) (U7 m c (Proc.devRef .tc main_v14)) (U7 m c (Proc.devRef .tc main_v17)) (U7 m c (Proc.devRef .tc main_v21))
        (U7 m c (Proc.devRef .tc main_v18)) (U7 m c (Proc.devRef .tc main_v22)) :=
  (StableHlo.after_of_writes_sub hostOps2 _ hostOps2_writes (by decide)).trans
    ((U8_out1 m c).trans (Cert.Bridge.MlpCover.pos_arr (T7 m) c))

/-- The second region leaves the state as it found it. -/
theorem k_state_at8 : U8 m c (Proc.devRef .tc main_v14) = U7 m c (Proc.devRef .tc main_v14) :=
  U8_keep m c main_v14 (by decide) (by decide)

/-- An argument holds its launch contents when the second region is entered. -/
theorem k_arg_at6 (b : Ref sig .tc) (hb : b ≠ main_v14) (h0 : b ∉ hostOps0_W) (h1 : b ∉ hostOps0_1_W) (h2 : b ∉ hostOps0_2_W)
    (h3 : b ∉ hostOps0_3_W) (h4 : b ∉ hostOps0_4_W) : U6 m c (Proc.devRef .tc b) = m ((c : Thread nD τ).loc b) :=
  (U6_keep m c b hb).trans <| (StableHlo.after_of_writes_sub hostOps0_4 _ hostOps0_4_writes h4).trans <|
    (StableHlo.after_of_writes_sub hostOps0_3 _ hostOps0_3_writes h3).trans <|
    (StableHlo.after_of_writes_sub hostOps0_2 _ hostOps0_2_writes h2).trans <|
    (StableHlo.after_of_writes_sub hostOps0_1 _ hostOps0_1_writes h1).trans <|
    (StableHlo.after_of_writes_sub hostOps0 _ hostOps0_writes h0).trans rfl

end KernelSide

/-! ## The results agree -/

section Values

/-! ### The two sides meet -/

/-- The kernel's hidden state after its first region is the reference's hidden state: both are the GRU cell on every
    row of the concatenated input, and the concatenated inputs are equal because the labels are in range. -/
theorem hidden_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)))
    (c : Dev Cert.KernelIdeal.nD) :
    Cert.KernelIdeal.Hand.U6 m c (Proc.devRef .tc Cert.KernelIdeal.main_v14) = Cert.Bridge.RefValue.refHidden (launchContents m' c) := by
  obtain ⟨h0, h1, h2, h3, h4, h5, h6, h7, h8, h9, h10, h11, h12, h13, h14, h15, h16, h17, h18, h19, h20⟩ := hagree c
  unfold Cert.Bridge.RefValue.refHidden
  rw [Cert.Bridge.RefGru.refGru_eq]
  rw [show launchContents m' c (Proc.devRef .tc Cert.ReferenceIdeal.main_arg0) = m ((c.tc : Thread Cert.KernelIdeal.nD Cert.KernelIdeal.τ).loc Cert.KernelIdeal.main_arg0) from h0,
    show launchContents m' c (Proc.devRef .tc Cert.ReferenceIdeal.main_arg1) = m ((c.tc : Thread Cert.KernelIdeal.nD Cert.KernelIdeal.τ).loc Cert.KernelIdeal.main_arg1) from h1,
    show launchContents m' c (Proc.devRef .tc Cert.ReferenceIdeal.main_arg2) = m ((c.tc : Thread Cert.KernelIdeal.nD Cert.KernelIdeal.τ).loc Cert.KernelIdeal.main_arg2) from h2,
    show launchContents m' c (Proc.devRef .tc Cert.ReferenceIdeal.main_arg3) = m ((c.tc : Thread Cert.KernelIdeal.nD Cert.KernelIdeal.τ).loc Cert.KernelIdeal.main_arg3) from h3,
    show launchContents m' c (Proc.devRef .tc Cert.ReferenceIdeal.main_arg4) = m ((c.tc : Thread Cert.KernelIdeal.nD Cert.KernelIdeal.τ).loc Cert.KernelIdeal.main_arg4) from h4,
    show launchContents m' c (Proc.devRef .tc Cert.ReferenceIdeal.main_arg5) = m ((c.tc : Thread Cert.KernelIdeal.nD Cert.KernelIdeal.τ).loc Cert.KernelIdeal.main_arg5) from h5,
    show launchContents m' c (Proc.devRef .tc Cert.ReferenceIdeal.main_arg6) = m ((c.tc : Thread Cert.KernelIdeal.nD Cert.KernelIdeal.τ).loc Cert.KernelIdeal.main_arg6) from h6,
    show launchContents m' c (Proc.devRef .tc Cert.ReferenceIdeal.main_arg7) = m ((c.tc : Thread Cert.KernelIdeal.nD Cert.KernelIdeal.τ).loc Cert.KernelIdeal.main_arg7) from h7,
    show launchContents m' c (Proc.devRef .tc Cert.ReferenceIdeal.main_arg8) = m ((c.tc : Thread Cert.KernelIdeal.nD Cert.KernelIdeal.τ).loc Cert.KernelIdeal.main_arg8) from h8,
    show launchContents m' c (Proc.devRef .tc Cert.ReferenceIdeal.main_arg9) = m ((c.tc : Thread Cert.KernelIdeal.nD Cert.KernelIdeal.τ).loc Cert.KernelIdeal.main_arg9) from h9,
    show launchContents m' c (Proc.devRef .tc Cert.ReferenceIdeal.main_arg10) = m ((c.tc : Thread Cert.KernelIdeal.nD Cert.KernelIdeal.τ).loc Cert.KernelIdeal.main_arg10) from h10,
    show launchContents m' c (Proc.devRef .tc Cert.ReferenceIdeal.main_arg19) = m ((c.tc : Thread Cert.KernelIdeal.nD Cert.KernelIdeal.τ).loc Cert.KernelIdeal.main_arg19) from h19,
    show launchContents m' c (Proc.devRef .tc Cert.ReferenceIdeal.main_arg20) = m ((c.tc : Thread Cert.KernelIdeal.nD Cert.KernelIdeal.τ).loc Cert.KernelIdeal.main_arg20) from h20]
  rw [k_state_raw m c]
  rw [show Cert.KernelIdeal.Hand.U5 m c (Proc.devRef .tc Cert.KernelIdeal.main_v8) = _ from Cert.Bridge.KHost.pre5_v8 (Cert.KernelIdeal.Hand.U0 m c),
    show Cert.KernelIdeal.Hand.U5 m c (Proc.devRef .tc Cert.KernelIdeal.main_v9) = _ from Cert.Bridge.KHost.pre5_v9 (Cert.KernelIdeal.Hand.U0 m c),
    show Cert.KernelIdeal.Hand.U5 m c (Proc.devRef .tc Cert.KernelIdeal.main_v10) = _ from Cert.Bridge.KHost.pre5_v10 (Cert.KernelIdeal.Hand.U0 m c),
    show Cert.KernelIdeal.Hand.U5 m c (Proc.devRef .tc Cert.KernelIdeal.main_v11) = _ from Cert.Bridge.KHost.pre5_v11 (Cert.KernelIdeal.Hand.U0 m c),
    show Cert.KernelIdeal.Hand.U5 m c (Proc.devRef .tc Cert.KernelIdeal.main_v12) = _ from Cert.Bridge.KHost.pre5_v12 (Cert.KernelIdeal.Hand.U0 m c),
    show Cert.KernelIdeal.Hand.U5 m c (Proc.devRef .tc Cert.KernelIdeal.main_v13) = _ from Cert.Bridge.KHost.pre5_v13 (Cert.KernelIdeal.Hand.U0 m c)]
  rw [Cert.Bridge.Masks.kX_eq _ _ _ _ _ _ _ _ (Cert.Bridge.PreRange.range_of_pre m hpre c)]

theorem value_type (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)))
    (c : Dev Cert.KernelIdeal.nD) :
    StableHlo.after (Cert.ReferenceIdeal.Hand.ops (F := Ideal)) (launchContents m' c) (Proc.devRef .tc Cert.ReferenceIdeal.main_v71)
      = Cert.KernelIdeal.Hand.U9 m c (Proc.devRef .tc Cert.KernelIdeal.main_v23_0) := by
  have hh := hidden_eq m m' hpre hagree c
  obtain ⟨h0, h1, h2, h3, h4, h5, h6, h7, h8, h9, h10, h11, h12, h13, h14, h15, h16, h17, h18, h19, h20⟩ := hagree c
  rw [Cert.Bridge.RefValue.ref_type, Cert.Bridge.RefMlp.refType_eq]
  rw [show launchContents m' c (Proc.devRef .tc Cert.ReferenceIdeal.main_arg11) = m ((c.tc : Thread Cert.KernelIdeal.nD Cert.KernelIdeal.τ).loc Cert.KernelIdeal.main_arg11) from h11,
    show launchContents m' c (Proc.devRef .tc Cert.ReferenceIdeal.main_arg12) = m ((c.tc : Thread Cert.KernelIdeal.nD Cert.KernelIdeal.τ).loc Cert.KernelIdeal.main_arg12) from h12,
    show launchContents m' c (Proc.devRef .tc Cert.ReferenceIdeal.main_arg13) = m ((c.tc : Thread Cert.KernelIdeal.nD Cert.KernelIdeal.τ).loc Cert.KernelIdeal.main_arg13) from h13,
    show launchContents m' c (Proc.devRef .tc Cert.ReferenceIdeal.main_arg14) = m ((c.tc : Thread Cert.KernelIdeal.nD Cert.KernelIdeal.τ).loc Cert.KernelIdeal.main_arg14) from h14]
  rw [k_type_raw m c, k_state_at7 m c, hh]
  rw [show Cert.KernelIdeal.Hand.U7 m c (Proc.devRef .tc Cert.KernelIdeal.main_v15) = _ from Cert.Bridge.KHost.mid_v15 (Cert.KernelIdeal.Hand.U6 m c),
    show Cert.KernelIdeal.Hand.U7 m c (Proc.devRef .tc Cert.KernelIdeal.main_v19) = _ from Cert.Bridge.KHost.mid_v19 (Cert.KernelIdeal.Hand.U6 m c),
    show Cert.KernelIdeal.Hand.U7 m c (Proc.devRef .tc Cert.KernelIdeal.main_v16) = _ from Cert.Bridge.KHost.mid_v16 (Cert.KernelIdeal.Hand.U6 m c),
    show Cert.KernelIdeal.Hand.U7 m c (Proc.devRef .tc Cert.KernelIdeal.main_v20) = _ from Cert.Bridge.KHost.mid_v20 (Cert.KernelIdeal.Hand.U6 m c)]
  rw [k_arg_at6 m c Cert.KernelIdeal.main_arg11 (by decide) (by decide) (by decide) (by decide) (by decide) (by decide),
    k_arg_at6 m c Cert.KernelIdeal.main_arg12 (by decide) (by decide) (by decide) (by decide) (by decide) (by decide),
    k_arg_at6 m c Cert.KernelIdeal.main_arg13 (by decide) (by decide) (by decide) (by decide) (by decide) (by decide),
    k_arg_at6 m c Cert.KernelIdeal.main_arg14 (by decide) (by decide) (by decide) (by decide) (by decide) (by decide)]

theorem value_pos (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)))
    (c : Dev Cert.KernelIdeal.nD) :
    StableHlo.after (Cert.ReferenceIdeal.Hand.ops (F := Ideal)) (launchContents m' c) (Proc.devRef .tc Cert.ReferenceIdeal.main_v88)
      = Cert.KernelIdeal.Hand.U9 m c (Proc.devRef .tc Cert.KernelIdeal.main_v23_1) := by
  have hh := hidden_eq m m' hpre hagree c
  obtain ⟨h0, h1, h2, h3, h4, h5, h6, h7, h8, h9, h10, h11, h12, h13, h14, h15, h16, h17, h18, h19, h20⟩ := hagree c
  rw [Cert.Bridge.RefValue.ref_pos, Cert.Bridge.RefMlp.refPos_eq]
  rw [show launchContents m' c (Proc.devRef .tc Cert.ReferenceIdeal.main_arg15) = m ((c.tc : Thread Cert.KernelIdeal.nD Cert.KernelIdeal.τ).loc Cert.KernelIdeal.main_arg15) from h15,
    show launchContents m' c (Proc.devRef .tc Cert.ReferenceIdeal.main_arg16) = m ((c.tc : Thread Cert.KernelIdeal.nD Cert.KernelIdeal.τ).loc Cert.KernelIdeal.main_arg16) from h16,
    show launchContents m' c (Proc.devRef .tc Cert.ReferenceIdeal.main_arg17) = m ((c.tc : Thread Cert.KernelIdeal.nD Cert.KernelIdeal.τ).loc Cert.KernelIdeal.main_arg17) from h17,
    show launchContents m' c (Proc.devRef .tc Cert.ReferenceIdeal.main_arg18) = m ((c.tc : Thread Cert.KernelIdeal.nD Cert.KernelIdeal.τ).loc Cert.KernelIdeal.main_arg18) from h18]
  rw [k_pos_raw m c, k_state_at7 m c, hh]
  rw [show Cert.KernelIdeal.Hand.U7 m c (Proc.devRef .tc Cert.KernelIdeal.main_v17) = _ from Cert.Bridge.KHost.mid_v17 (Cert.KernelIdeal.Hand.U6 m c),
    show Cert.KernelIdeal.Hand.U7 m c (Proc.devRef .tc Cert.KernelIdeal.main_v21) = _ from Cert.Bridge.KHost.mid_v21 (Cert.KernelIdeal.Hand.U6 m c),
    show Cert.KernelIdeal.Hand.U7 m c (Proc.devRef .tc Cert.KernelIdeal.main_v18) = _ from Cert.Bridge.KHost.mid_v18 (Cert.KernelIdeal.Hand.U6 m c),
    show Cert.KernelIdeal.Hand.U7 m c (Proc.devRef .tc Cert.KernelIdeal.main_v22) = _ from Cert.Bridge.KHost.mid_v22 (Cert.KernelIdeal.Hand.U6 m c)]
  rw [k_arg_at6 m c Cert.KernelIdeal.main_arg15 (by decide) (by decide) (by decide) (by decide) (by decide) (by decide),
    k_arg_at6 m c Cert.KernelIdeal.main_arg16 (by decide) (by decide) (by decide) (by decide) (by decide) (by decide),
    k_arg_at6 m c Cert.KernelIdeal.main_arg17 (by decide) (by decide) (by decide) (by decide) (by decide) (by decide),
    k_arg_at6 m c Cert.KernelIdeal.main_arg18 (by decide) (by decide) (by decide) (by decide) (by decide) (by decide)]

theorem value_state (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)))
    (c : Dev Cert.KernelIdeal.nD) :
    StableHlo.after (Cert.ReferenceIdeal.Hand.ops (F := Ideal)) (launchContents m' c) (Proc.devRef .tc Cert.ReferenceIdeal.main_v89)
      = Cert.KernelIdeal.Hand.U9 m c (Proc.devRef .tc Cert.KernelIdeal.main_v24) := by
  have hh := hidden_eq m m' hpre hagree c
  rw [Cert.Bridge.RefValue.ref_state]
  rw [show Cert.KernelIdeal.Hand.U9 m c (Proc.devRef .tc Cert.KernelIdeal.main_v24) = _ from Cert.Bridge.KHost.post_v24 (Cert.KernelIdeal.Hand.U8 m c)]
  rw [k_state_at8 m c, k_state_at7 m c, hh]

/-- The two idealized programs, from memories that agree on the arguments: the kernel's run names its three results
    as its end contents; the reference's run ends with the same three arrays. -/
theorem algebraic : Cert.algebraic_KernelIdeal_ReferenceIdeal := by
  intro m ρ m' ρ' hpre hagree
  refine ⟨fun c => Cert.KernelIdeal.Hand.U9 m c (Proc.devRef .tc Cert.KernelIdeal.main_v23_0),
    fun c => Cert.KernelIdeal.Hand.U9 m c (Proc.devRef .tc Cert.KernelIdeal.main_v23_1),
    fun c => Cert.KernelIdeal.Hand.U9 m c (Proc.devRef .tc Cert.KernelIdeal.main_v24), ?_, ?_⟩
  · refine (θ_run _ _ _).mono (fun r h c => ?_) (Cert.KernelIdeal.Hand.run_all m ρ)
    have hb := fun (b : Ref Cert.KernelIdeal.sig .tc)
        (hs : ¬ (Proc.devRef .tc b : DevRef Cert.KernelIdeal.τ Cert.KernelIdeal.sig).isScoped) =>
      h c _ (Cert.KernelIdeal.Hand.mem_uc b hs)
    have ha := fun (b : Ref Cert.KernelIdeal.sig .tc)
        (hs : ¬ (Proc.devRef .tc b : DevRef Cert.KernelIdeal.τ Cert.KernelIdeal.sig).isScoped) hl =>
      (h c _ (Cert.KernelIdeal.Hand.mem_uc b hs)).trans (Cert.KernelIdeal.Hand.U9_arg m c b hl)
    exact ⟨hb Cert.KernelIdeal.main_v23_0 (by decide), hb Cert.KernelIdeal.main_v23_1 (by decide), hb Cert.KernelIdeal.main_v24 (by decide),
      ha Cert.KernelIdeal.main_arg0 (by decide) (by decide),
      ha Cert.KernelIdeal.main_arg1 (by decide) (by decide),
      ha Cert.KernelIdeal.main_arg2 (by decide) (by decide),
      ha Cert.KernelIdeal.main_arg3 (by decide) (by decide),
      ha Cert.KernelIdeal.main_arg4 (by decide) (by decide),
      ha Cert.KernelIdeal.main_arg5 (by decide) (by decide),
      ha Cert.KernelIdeal.main_arg6 (by decide) (by decide),
      ha Cert.KernelIdeal.main_arg7 (by decide) (by decide),
      ha Cert.KernelIdeal.main_arg8 (by decide) (by decide),
      ha Cert.KernelIdeal.main_arg9 (by decide) (by decide),
      ha Cert.KernelIdeal.main_arg10 (by decide) (by decide),
      ha Cert.KernelIdeal.main_arg11 (by decide) (by decide),
      ha Cert.KernelIdeal.main_arg12 (by decide) (by decide),
      ha Cert.KernelIdeal.main_arg13 (by decide) (by decide),
      ha Cert.KernelIdeal.main_arg14 (by decide) (by decide),
      ha Cert.KernelIdeal.main_arg15 (by decide) (by decide),
      ha Cert.KernelIdeal.main_arg16 (by decide) (by decide),
      ha Cert.KernelIdeal.main_arg17 (by decide) (by decide),
      ha Cert.KernelIdeal.main_arg18 (by decide) (by decide),
      ha Cert.KernelIdeal.main_arg19 (by decide) (by decide),
      ha Cert.KernelIdeal.main_arg20 (by decide) (by decide)⟩
  · refine (θ_run _ _ _).mono (fun r h c => ?_) (Cert.ReferenceIdeal.Hand.run m' ρ')
    exact ⟨(h c Cert.ReferenceIdeal.main_v71).trans (value_type m m' hpre hagree c),
      (h c Cert.ReferenceIdeal.main_v88).trans (value_pos m m' hpre hagree c),
      (h c Cert.ReferenceIdeal.main_v89).trans (value_state m m' hpre hagree c),
      (h c Cert.ReferenceIdeal.main_arg0).trans (Cert.ReferenceIdeal.Hand.after_of_not_written _ Cert.ReferenceIdeal.main_arg0 (by decide) (by decide) (by decide) (by decide)),
      (h c Cert.ReferenceIdeal.main_arg1).trans (Cert.ReferenceIdeal.Hand.after_of_not_written _ Cert.ReferenceIdeal.main_arg1 (by decide) (by decide) (by decide) (by decide)),
      (h c Cert.ReferenceIdeal.main_arg2).trans (Cert.ReferenceIdeal.Hand.after_of_not_written _ Cert.ReferenceIdeal.main_arg2 (by decide) (by decide) (by decide) (by decide)),
      (h c Cert.ReferenceIdeal.main_arg3).trans (Cert.ReferenceIdeal.Hand.after_of_not_written _ Cert.ReferenceIdeal.main_arg3 (by decide) (by decide) (by decide) (by decide)),
      (h c Cert.ReferenceIdeal.main_arg4).trans (Cert.ReferenceIdeal.Hand.after_of_not_written _ Cert.ReferenceIdeal.main_arg4 (by decide) (by decide) (by decide) (by decide)),
      (h c Cert.ReferenceIdeal.main_arg5).trans (Cert.ReferenceIdeal.Hand.after_of_not_written _ Cert.ReferenceIdeal.main_arg5 (by decide) (by decide) (by decide) (by decide)),
      (h c Cert.ReferenceIdeal.main_arg6).trans (Cert.ReferenceIdeal.Hand.after_of_not_written _ Cert.ReferenceIdeal.main_arg6 (by decide) (by decide) (by decide) (by decide)),
      (h c Cert.ReferenceIdeal.main_arg7).trans (Cert.ReferenceIdeal.Hand.after_of_not_written _ Cert.ReferenceIdeal.main_arg7 (by decide) (by decide) (by decide) (by decide)),
      (h c Cert.ReferenceIdeal.main_arg8).trans (Cert.ReferenceIdeal.Hand.after_of_not_written _ Cert.ReferenceIdeal.main_arg8 (by decide) (by decide) (by decide) (by decide)),
      (h c Cert.ReferenceIdeal.main_arg9).trans (Cert.ReferenceIdeal.Hand.after_of_not_written _ Cert.ReferenceIdeal.main_arg9 (by decide) (by decide) (by decide) (by decide)),
      (h c Cert.ReferenceIdeal.main_arg10).trans (Cert.ReferenceIdeal.Hand.after_of_not_written _ Cert.ReferenceIdeal.main_arg10 (by decide) (by decide) (by decide) (by decide)),
      (h c Cert.ReferenceIdeal.main_arg11).trans (Cert.ReferenceIdeal.Hand.after_of_not_written _ Cert.ReferenceIdeal.main_arg11 (by decide) (by decide) (by decide) (by decide)),
      (h c Cert.ReferenceIdeal.main_arg12).trans (Cert.ReferenceIdeal.Hand.after_of_not_written _ Cert.ReferenceIdeal.main_arg12 (by decide) (by decide) (by decide) (by decide)),
      (h c Cert.ReferenceIdeal.main_arg13).trans (Cert.ReferenceIdeal.Hand.after_of_not_written _ Cert.ReferenceIdeal.main_arg13 (by decide) (by decide) (by decide) (by decide)),
      (h c Cert.ReferenceIdeal.main_arg14).trans (Cert.ReferenceIdeal.Hand.after_of_not_written _ Cert.ReferenceIdeal.main_arg14 (by decide) (by decide) (by decide) (by decide)),
      (h c Cert.ReferenceIdeal.main_arg15).trans (Cert.ReferenceIdeal.Hand.after_of_not_written _ Cert.ReferenceIdeal.main_arg15 (by decide) (by decide) (by decide) (by decide)),
      (h c Cert.ReferenceIdeal.main_arg16).trans (Cert.ReferenceIdeal.Hand.after_of_not_written _ Cert.ReferenceIdeal.main_arg16 (by decide) (by decide) (by decide) (by decide)),
      (h c Cert.ReferenceIdeal.main_arg17).trans (Cert.ReferenceIdeal.Hand.after_of_not_written _ Cert.ReferenceIdeal.main_arg17 (by decide) (by decide) (by decide) (by decide)),
      (h c Cert.ReferenceIdeal.main_arg18).trans (Cert.ReferenceIdeal.Hand.after_of_not_written _ Cert.ReferenceIdeal.main_arg18 (by decide) (by decide) (by decide) (by decide)),
      (h c Cert.ReferenceIdeal.main_arg19).trans (Cert.ReferenceIdeal.Hand.after_of_not_written _ Cert.ReferenceIdeal.main_arg19 (by decide) (by decide) (by decide) (by decide)),
      (h c Cert.ReferenceIdeal.main_arg20).trans (Cert.ReferenceIdeal.Hand.after_of_not_written _ Cert.ReferenceIdeal.main_arg20 (by decide) (by decide) (by decide) (by decide))⟩

end Values

end Cert.Proof.Parts

end
-- ==== Proof.lean ====
/-
  The certificate's claim: the word-level kernel, its idealization and the idealized reference each run to the end
  without a fault and leave their arguments unchanged; the idealization rewrote nothing; and at the ideal instance,
  for labels in [-1024, 1023] and finite float inputs, the idealized kernel and the idealized reference end with the
  same three results (the label head's log-probabilities, the position head's sigmoids, the new hidden state).
  The parts are proved in Proof/Assemble.lean; here they are put together under the programs' stated side conditions.
-/
import proofs.«406328_j56736517980496_1_alg».proof.Defs
import proofs.«406328_j56736517980496_1_alg».proof.Proof.Gen.Kernel
import proofs.«406328_j56736517980496_1_alg».proof.Proof.Gen.KernelIdeal
import proofs.«406328_j56736517980496_1_alg».proof.Proof.Gen.ReferenceIdeal
import proofs.«406328_j56736517980496_1_alg».proof.Proof.Gen.Pre_finite_inputs
import proofs.«406328_j56736517980496_1_alg».proof.Proof.Assemble

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Parts.frame_K, Cert.Proof.Parts.frame_KI, Cert.Proof.Parts.frame_RI, trivial, Cert.Proof.Parts.algebraic⟩

end Cert.Proof

end
